-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x2x8 : Shape := ⟨4, ![32768, 2, 2, 8]⟩
abbrev S2x96 : Shape := ⟨2, ![2, 96]⟩
abbrev S8x48 : Shape := ⟨2, ![8, 48]⟩
abbrev S96x48 : Shape := ⟨2, ![96, 48]⟩
abbrev S48 : Shape := ⟨1, ![48]⟩
abbrev S48x128 : Shape := ⟨2, ![48, 128]⟩
abbrev S128x128 : Shape := ⟨2, ![128, 128]⟩
abbrev S_ : Shape := ⟨0, ![]⟩
abbrev S32768x2x1x8 : Shape := ⟨4, ![32768, 2, 1, 8]⟩
abbrev S32768x2x8 : Shape := ⟨3, ![32768, 2, 8]⟩

class Facts : Prop where
  bcast_S_S2x96 : S_.BroadcastsInDim S2x96 (![] : Fin 0 → Fin S2x96.rank)
  reducesTo_S2x96_S_d0_1 : S2x96.ReducesTo [0, 1] S_
  h_S_ : 0 < S_.numel
  bcast_S_S8x48 : S_.BroadcastsInDim S8x48 (![] : Fin 0 → Fin S8x48.rank)
  reducesTo_S8x48_S_d0_1 : S8x48.ReducesTo [0, 1] S_
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_
  bcast_S_S48x128 : S_.BroadcastsInDim S48x128 (![] : Fin 0 → Fin S48x128.rank)
  reducesTo_S48x128_S_d0_1 : S48x128.ReducesTo [0, 1] S_
  bcast_S_S128x128 : S_.BroadcastsInDim S128x128 (![] : Fin 0 → Fin S128x128.rank)
  reducesTo_S128x128_S_d0_1 : S128x128.ReducesTo [0, 1] S_
  bcast_S_S32768x2x2x8 : S_.BroadcastsInDim S32768x2x2x8 (![] : Fin 0 → Fin S32768x2x2x8.rank)
  reducesTo_S32768x2x2x8_S_d0_1_2_3 : S32768x2x2x8.ReducesTo [0, 1, 2, 3] S_
  slices_S32768x2x2x8_S32768x2x1x8_0_0_1_0 : S32768x2x2x8.Slices ![0, 0, 1, 0] S32768x2x1x8
  shapeCasts_S32768x2x1x8_S32768x2x8 : S32768x2x1x8.ShapeCasts S32768x2x8
  bcast_S_S32768x2x8 : S_.BroadcastsInDim S32768x2x8 (![] : Fin 0 → Fin S32768x2x8.rank)
  reducesTo_S32768x2x8_S_d0_1_2 : S32768x2x8.ReducesTo [0, 1, 2] S_

variable [Facts]

def fn_part2 {F : FTy → Type} [FloatOps F] (main_v32 : IVec S_ 1) (main_v33 : IVec S32768x2x1x8 32) : IVec S_ 1 :=
  let main_v34 : IVec S32768x2x8 32 := shapeCast S32768x2x8 main_v33 shapeCasts_S32768x2x1x8_S32768x2x8
  let main_c_12 : IVec S_ 32 := constantI S_ 32 8#32
  let main_v35 : IVec S32768x2x8 32 := broadcastInDim S32768x2x8 ![] bcast_S_S32768x2x8 main_c_12
  let main_v36 : IVec S32768x2x8 1 := cmpi .slt main_v34 main_v35
  let main_c_13 : IVec S_ 1 := constantI S_ 1 1#1
  let main_v37 : IVec S_ 1 := (fun x v => Host.reduce IntOp.andi x v reducesTo_S32768x2x8_S_d0_1_2 h_S_) main_v36 main_c_13
  let main_v38 : IVec S_ 1 := andi main_v32 main_v37
  main_v38

def fn_part1 {F : FTy → Type} [FloatOps F] (main_arg0 : IVec S32768x2x2x8 32) (main_arg5 : FVec F S48x128 .f32) (main_arg6 : FVec F S128x128 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x128 .f32 := Host.absf main_arg5
  let main_cst_6 : FVec F S_ .f32 := constant S_ .f32 0x7F800000#32
  let main_v20 : FVec F S48x128 .f32 := broadcastInDim S48x128 ![] bcast_S_S48x128 main_cst_6
  let main_v21 : IVec S48x128 1 := cmpf .olt main_v19 main_v20
  let main_c_7 : IVec S_ 1 := constantI S_ 1 1#1
  let main_v22 : IVec S_ 1 := (fun x v => Host.reduce IntOp.andi x v reducesTo_S48x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 0#32
  let main_v29 : IVec S32768x2x2x8 32 := broadcastInDim S32768x2x2x8 ![] bcast_S_S32768x2x2x8 main_c_10
  let main_v30 : IVec S32768x2x2x8 1 := cmpi .sge main_arg0 main_v29
  let main_c_11 : IVec S_ 1 := constantI S_ 1 1#1
  let main_v31 : IVec S_ 1 := (fun x v => Host.reduce IntOp.andi x v reducesTo_S32768x2x2x8_S_d0_1_2_3 h_S_) main_v30 main_c_11
  let main_v32 : IVec S_ 1 := andi main_v28 main_v31
  let main_v33 : IVec S32768x2x1x8 32 := (extractStridedSlice S32768x2x1x8 ![0, 0, 1, 0] · slices_S32768x2x2x8_S32768x2x1x8_0_0_1_0) main_arg0
  fn_part2 (F := F) main_v32 main_v33

def fn {F : FTy → Type} [FloatOps F] (main_arg0 : IVec S32768x2x2x8 32) (main_arg1 : FVec F S2x96 .f32) (main_arg2 : FVec F S8x48 .f32) (main_arg3 : FVec F S96x48 .f32) (main_arg4 : FVec F S48 .f32) (main_arg5 : FVec F S48x128 .f32) (main_arg6 : FVec F S128x128 .f32) : IVec S_ 1 :=
  let main_v0 : FVec F S2x96 .f32 := Host.absf main_arg1
  let main_cst : FVec F S_ .f32 := constant S_ .f32 0x7F800000#32
  let main_v1 : FVec F S2x96 .f32 := broadcastInDim S2x96 ![] bcast_S_S2x96 main_cst
  let main_v2 : IVec S2x96 1 := cmpf .olt main_v0 main_v1
  let main_c : IVec S_ 1 := constantI S_ 1 1#1
  let main_v3 : IVec S_ 1 := (fun x v => Host.reduce IntOp.andi x v reducesTo_S2x96_S_d0_1 h_S_) main_v2 main_c
  let main_v4 : FVec F S8x48 .f32 := Host.absf main_arg2
  let main_cst_0 : FVec F S_ .f32 := constant S_ .f32 0x7F800000#32
  let main_v5 : FVec F S8x48 .f32 := broadcastInDim S8x48 ![] bcast_S_S8x48 main_cst_0
  let main_v6 : IVec S8x48 1 := cmpf .olt main_v4 main_v5
  let main_c_1 : IVec S_ 1 := constantI S_ 1 1#1
  let main_v7 : IVec S_ 1 := (fun x v => Host.reduce IntOp.andi x v reducesTo_S8x48_S_d0_1 h_S_) main_v6 main_c_1
  let main_v8 : IVec S_ 1 := andi main_v3 main_v7
  let main_v9 : FVec F S96x48 .f32 := Host.absf main_arg3
  let main_cst_2 : FVec F S_ .f32 := constant S_ .f32 0x7F800000#32
  let main_v10 : FVec F S96x48 .f32 := broadcastInDim S96x48 ![] bcast_S_S96x48 main_cst_2
  let main_v11 : IVec S96x48 1 := cmpf .olt main_v9 main_v10
  let main_c_3 : IVec S_ 1 := constantI S_ 1 1#1
  let main_v12 : IVec S_ 1 := (fun x v => Host.reduce IntOp.andi x v reducesTo_S96x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg0 main_arg5 main_arg6 main_v13 main_v16
-- ==== Kernel.lean ====
abbrev S32768x2x2x8 : Shape := ⟨4, ![32768, 2, 2, 8]⟩
abbrev S2x96 : Shape := ⟨2, ![2, 96]⟩
abbrev S8x48 : Shape := ⟨2, ![8, 48]⟩
abbrev S96x48 : Shape := ⟨2, ![96, 48]⟩
abbrev S48 : Shape := ⟨1, ![48]⟩
abbrev S48x128 : Shape := ⟨2, ![48, 128]⟩
abbrev S128x128 : Shape := ⟨2, ![128, 128]⟩
abbrev S32768x2x1x8 : Shape := ⟨4, ![32768, 2, 1, 8]⟩
abbrev S32768x2x8 : Shape := ⟨3, ![32768, 2, 8]⟩
abbrev S65536x8 : Shape := ⟨2, ![65536, 8]⟩
abbrev S96x128 : Shape := ⟨2, ![96, 128]⟩
abbrev S1x48 : Shape := ⟨2, ![1, 48]⟩
abbrev S1x128 : Shape := ⟨2, ![1, 128]⟩
abbrev S128 : Shape := ⟨1, ![128]⟩
abbrev S2x128 : Shape := ⟨2, ![2, 128]⟩
abbrev S_ : Shape := ⟨0, ![]⟩
abbrev S8x96 : Shape := ⟨2, ![8, 96]⟩
abbrev S16x96 : Shape := ⟨2, ![16, 96]⟩
abbrev S65536x128 : Shape := ⟨2, ![65536, 128]⟩
abbrev S2048x8 : Shape := ⟨2, ![2048, 8]⟩
abbrev S2048x128 : Shape := ⟨2, ![2048, 128]⟩
abbrev S2048x1 : Shape := ⟨2, ![2048, 1]⟩
abbrev S2048x16 : Shape := ⟨2, ![2048, 16]⟩
abbrev S8192x16 : Shape := ⟨2, ![8192, 16]⟩
abbrev S8192x96 : Shape := ⟨2, ![8192, 96]⟩
abbrev S8192x128 : Shape := ⟨2, ![8192, 128]⟩
abbrev S2048x6 : Shape := ⟨2, ![2048, 6]⟩
abbrev S32768x2x128 : Shape := ⟨3, ![32768, 2, 128]⟩
abbrev S32768x256 : Shape := ⟨2, ![32768, 256]⟩

abbrev nBuf : Space → Nat
  | .hbm => 32
  | .vmem => 11
  | .smem => 0
  | _ => 0

abbrev bufTy : (tb : Table) → Fin (tcTables nBuf tb) → BufTy
  | .hbm, ⟨0, _⟩ => ⟨S32768x2x2x8, .i32⟩
  | .hbm, ⟨1, _⟩ => ⟨S2x96, .f32⟩
  | .hbm, ⟨2, _⟩ => ⟨S8x48, .f32⟩
  | .hbm, ⟨3, _⟩ => ⟨S96x48, .f32⟩
  | .hbm, ⟨4, _⟩ => ⟨S48, .f32⟩
  | .hbm, ⟨5, _⟩ => ⟨S48x128, .f32⟩
  | .hbm, ⟨6, _⟩ => ⟨S128x128, .f32⟩
  | .hbm, ⟨7, _⟩ => ⟨S32768x2x1x8, .i32⟩
  | .hbm, ⟨8, _⟩ => ⟨S32768x2x8, .i32⟩
  | .hbm, ⟨9, _⟩ => ⟨S65536x8, .i32⟩
  | .hbm, ⟨10, _⟩ => ⟨S32768x2x1x8, .i32⟩
  | .hbm, ⟨11, _⟩ => ⟨S32768x2x8, .i32⟩
  | .hbm, ⟨12, _⟩ => ⟨S65536x8, .i32⟩
  | .hbm, ⟨13, _⟩ => ⟨S96x128, .f32⟩
  | .hbm, ⟨14, _⟩ => ⟨S1x48, .f32⟩
  | .hbm, ⟨15, _⟩ => ⟨S1x128, .f32⟩
  | .hbm, ⟨16, _⟩ => ⟨S128, .f32⟩
  | .hbm, ⟨17, _⟩ => ⟨S2x128, .f32⟩
  | .hbm, ⟨18, _⟩ => ⟨S1x128, .f32⟩
  | .hbm, ⟨19, _⟩ => ⟨S2x128, .f32⟩
  | .hbm, ⟨20, _⟩ => ⟨S2x128, .f32⟩
  | .hbm, ⟨21, _⟩ => ⟨S_, .f32⟩
  | .hbm, ⟨22, _⟩ => ⟨S8x48, .f32⟩
  | .hbm, ⟨23, _⟩ => ⟨S8x96, .f32⟩
  | .hbm, ⟨24, _⟩ => ⟨S8x96, .f32⟩
  | .hbm, ⟨25, _⟩ => ⟨S16x96, .f32⟩
  | .hbm, ⟨26, _⟩ => ⟨S16x96, .bf16⟩
  | .hbm, ⟨27, _⟩ => ⟨S96x128, .bf16⟩
  | .hbm, ⟨28, _⟩ => ⟨S128x128, .bf16⟩
  | .hbm, ⟨29, _⟩ => ⟨S65536x128, .f32⟩
  | .hbm, ⟨30, _⟩ => ⟨S32768x2x128, .f32⟩
  | .hbm, ⟨31, _⟩ => ⟨S32768x256, .f32⟩
  | .local _ .vmem, ⟨0, _⟩ => ⟨S2048x8, .i32⟩
  | .local _ .vmem, ⟨1, _⟩ => ⟨S2048x8, .i32⟩
  | .local _ .vmem, ⟨2, _⟩ => ⟨S2048x8, .i32⟩
  | .local _ .vmem, ⟨3, _⟩ => ⟨S2048x8, .i32⟩
  | .local _ .vmem, ⟨4, _⟩ => ⟨S16x96, .bf16⟩
  | .local _ .vmem, ⟨5, _⟩ => ⟨S96x128, .bf16⟩
  | .local _ .vmem, ⟨6, _⟩ => ⟨S128, .f32⟩
  | .local _ .vmem, ⟨7, _⟩ => ⟨S2x128, .f32⟩
  | .local _ .vmem, ⟨8, _⟩ => ⟨S128x128, .bf16⟩
  | .local _ .vmem, ⟨9, _⟩ => ⟨S2048x128, .f32⟩
  | .local _ .vmem, ⟨10, _⟩ => ⟨S2048x128, .f32⟩
  | _, _ => ⟨S32768x2x2x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32768x2x2x8_S32768x2x1x8_0_0_0_0 : S32768x2x2x8.Slices ![0, 0, 0, 0] S32768x2x1x8
  shapeCasts_S32768x2x1x8_S32768x2x8 : S32768x2x1x8.ShapeCasts S32768x2x8
  shapeCasts_S32768x2x8_S65536x8 : S32768x2x8.ShapeCasts S65536x8
  slices_S32768x2x2x8_S32768x2x1x8_0_0_1_0 : S32768x2x2x8.Slices ![0, 0, 1, 0] S32768x2x1x8
  bcast_S48_S1x48_1 : S48.BroadcastsInDim S1x48 (![1] : Fin 1 → Fin S1x48.rank)
  shapeCasts_S1x128_S128 : S1x128.ShapeCasts S128
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  bcast_S_S8x48 : S_.BroadcastsInDim S8x48 (![] : Fin 0 → Fin S8x48.rank)
  concatenates_S8x48_S8x48_S8x96_d1 : Shape.Concatenates [S8x48, S8x48] S8x96 1
  concatenates_S8x96_S8x96_S16x96_d0 : Shape.Concatenates [S8x96, S8x96] S16x96 0
  bitsLt_bf16_f32 : FTy.bits .bf16 < FTy.bits .f32
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S16x96_S16x96_0_0 : ∀ a, (![0, 0] : Fin 2 → Nat) a + S16x96.size a ≤ S16x96.size a
  h_S16x96 : 0 < S16x96.numel
  shapeCasts_S16x96_S16x96 : S16x96.ShapeCasts S16x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S128_S128_0 : ∀ a, (![0] : Fin 1 → Nat) a + S128.size a ≤ S128.size a
  h_S128 : 0 < S128.numel
  shapeCasts_S128_S128 : S128.ShapeCasts S128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S2048x8_d1_w32 : S2048x8.Iotas .tc 32 [1]
  slices_S2048x8_o0_0_S2048x1 : S2048x8.Slices ![0, 0] S2048x1
  slices_S2048x8_o0_1_S2048x1 : S2048x8.Slices ![0, 1] S2048x1
  broadcasts_S2048x1_S2048x8 : S2048x1.Broadcasts S2048x8
  natLt_1_32 : 1 < 32
  concatenates_S2048x8_S2048x8_S2048x16_d1 : Shape.Concatenates [S2048x8, S2048x8] S2048x16 1
  slices_S2048x8_o0_2_S2048x1 : S2048x8.Slices ![0, 2] S2048x1
  slices_S2048x8_o0_3_S2048x1 : S2048x8.Slices ![0, 3] S2048x1
  slices_S2048x8_o0_4_S2048x1 : S2048x8.Slices ![0, 4] S2048x1
  slices_S2048x8_o0_5_S2048x1 : S2048x8.Slices ![0, 5] S2048x1
  slices_S2048x8_o0_6_S2048x1 : S2048x8.Slices ![0, 6] S2048x1
  slices_S2048x8_o0_7_S2048x1 : S2048x8.Slices ![0, 7] S2048x1
  concatenates_S2048x16_S2048x16_S2048x16_S2048x16_S8192x16_d0 : Shape.Concatenates [S2048x16, S2048x16, S2048x16, S2048x16] S8192x16 0
  shapeCasts_S128_S1x128 : S128.ShapeCasts S1x128
  broadcasts_S1x128_S8192x128 : S1x128.Broadcasts S8192x128
  slices_S2x128_o0_0_S1x128 : S2x128.Slices ![0, 0] S1x128
  shapeCasts_S1x128_S1x128 : S1x128.ShapeCasts S1x128
  broadcasts_S1x128_S2048x128 : S1x128.Broadcasts S2048x128
  slices_S2x128_o1_0_S1x128 : S2x128.Slices ![1, 0] S1x128
  slices_S8192x128_o0_0_S2048x128 : S8192x128.Slices ![0, 0] S2048x128
  slices_S8192x128_o2048_0_S2048x128 : S8192x128.Slices ![2048, 0] S2048x128
  slices_S8192x128_o4096_0_S2048x128 : S8192x128.Slices ![4096, 0] S2048x128
  slices_S8192x128_o6144_0_S2048x128 : S8192x128.Slices ![6144, 0] S2048x128
  iota_S2048x6_d1_w32 : S2048x6.Iotas .tc 32 [1]
  broadcasts_S2048x1_S2048x6 : S2048x1.Broadcasts S2048x6
  slices_S2048x6_o0_0_S2048x1 : S2048x6.Slices ![0, 0] S2048x1
  broadcasts_S2048x1_S2048x128 : S2048x1.Broadcasts S2048x128
  slices_S2048x6_o0_1_S2048x1 : S2048x6.Slices ![0, 1] S2048x1
  slices_S2048x6_o0_2_S2048x1 : S2048x6.Slices ![0, 2] S2048x1
  slices_S2048x6_o0_3_S2048x1 : S2048x6.Slices ![0, 3] S2048x1
  slices_S2048x6_o0_4_S2048x1 : S2048x6.Slices ![0, 4] S2048x1
  slices_S2048x6_o0_5_S2048x1 : S2048x6.Slices ![0, 5] S2048x1
  concatenates_S2048x128_S2048x128_S2048x128_S2048x128_S8192x128_d0 : Shape.Concatenates [S2048x128, S2048x128, S2048x128, S2048x128] S8192x128 0
  inb_S2048x128_S2048x128_0_0 : ∀ a, (![0, 0] : Fin 2 → Nat) a + S2048x128.size a ≤ S2048x128.size a
  h_S2048x128 : 0 < S2048x128.numel
  shapeCasts_S65536x128_S32768x2x128 : S65536x128.ShapeCasts S32768x2x128
  shapeCasts_S32768x2x128_S32768x256 : S32768x2x128.ShapeCasts S32768x256
  dot_S96x48_S48x128_S96x128_1_0_0_1_n_n_wf : DotDims.WF S96x48 S48x128 S96x128 [1] [0] [0] [1] [] []
  dot_S1x48_S48x128_S1x128_1_0_0_1_n_n_wf : DotDims.WF S1x48 S48x128 S1x128 [1] [0] [0] [1] [] []
  dot_S2x96_S96x128_S2x128_1_0_0_1_n_n_wf : DotDims.WF S2x96 S96x128 S2x128 [1] [0] [0] [1] [] []
  dot_S8192x16_S16x96_S8192x96_1_0_0_1_n_n_wf : DotDims.WF S8192x16 S16x96 S8192x96 [1] [0] [0] [1] [] []
  dot_S8192x96_S96x128_S8192x128_1_0_0_1_n_n_wf : DotDims.WF S8192x96 S96x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S65536x8.size a
  hwx0_0 : ∀ i : grid0.Coords, EltTy.bits .i32 = 32 ∨ (Rect.block (s := S65536x8) S2048x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S65536x8.size a
  hwx0_1 : ∀ i : grid0.Coords, EltTy.bits .i32 = 32 ∨ (Rect.block (s := S65536x8) S2048x8.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x96.size a ≤ S16x96.size a
  hwx0_2 : ∀ i : grid0.Coords, EltTy.bits .bf16 = 32 ∨ (Rect.block (s := S16x96) S16x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .bf16 = 32 ∨ (Rect.block (s := S96x128) S96x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def dot_S96x48_S48x128_S96x128_1_0_0_1_n_n : DotDims S96x48 S48x128 S96x128 where
  lhsContracting := [1]
  rhsContracting := [0]
  lhsNonContracting := [0]
  rhsNonContracting := [1]
  lhsBatch := []
  rhsBatch := []
  wf := dot_S96x48_S48x128_S96x128_1_0_0_1_n_n_wf
def dot_S1x48_S48x128_S1x128_1_0_0_1_n_n : DotDims S1x48 S48x128 S1x128 where
  lhsContracting := [1]
  rhsContracting := [0]
  lhsNonContracting := [0]
  rhsNonContracting := [1]
  lhsBatch := []
  rhsBatch := []
  wf := dot_S1x48_S48x128_S1x128_1_0_0_1_n_n_wf
def dot_S2x96_S96x128_S2x128_1_0_0_1_n_n : DotDims S2x96 S96x128 S2x128 where
  lhsContracting := [1]
  rhsContracting := [0]
  lhsNonContracting := [0]
  rhsNonContracting := [1]
  lhsBatch := []
  rhsBatch := []
  wf := dot_S2x96_S96x128_S2x128_1_0_0_1_n_n_wf
def dot_S8192x16_S16x96_S8192x96_1_0_0_1_n_n : DotDims S8192x16 S16x96 S8192x96 where
  lhsContracting := [1]
  rhsContracting := [0]
  lhsNonContracting := [0]
  rhsNonContracting := [1]
  lhsBatch := []
  rhsBatch := []
  wf := dot_S8192x16_S16x96_S8192x96_1_0_0_1_n_n_wf
def dot_S8192x96_S96x128_S8192x128_1_0_0_1_n_n : DotDims S8192x96 S96x128 S8192x128 where
  lhsContracting := [1]
  rhsContracting := [0]
  lhsNonContracting := [0]
  rhsNonContracting := [1]
  lhsBatch := []
  rhsBatch := []
  wf := dot_S8192x96_S96x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v2) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x2x2x8 : Shape := ⟨4, ![32768, 2, 2, 8]⟩
abbrev S2x96 : Shape := ⟨2, ![2, 96]⟩
abbrev S8x48 : Shape := ⟨2, ![8, 48]⟩
abbrev S96x48 : Shape := ⟨2, ![96, 48]⟩
abbrev S48 : Shape := ⟨1, ![48]⟩
abbrev S48x128 : Shape := ⟨2, ![48, 128]⟩
abbrev S128x128 : Shape := ⟨2, ![128, 128]⟩
abbrev S32768x2x1x8 : Shape := ⟨4, ![32768, 2, 1, 8]⟩
abbrev S32768x2x8 : Shape := ⟨3, ![32768, 2, 8]⟩
abbrev S65536x8 : Shape := ⟨2, ![65536, 8]⟩
abbrev S4 : Shape := ⟨1, ![4]⟩
abbrev S_ : Shape := ⟨0, ![]⟩
abbrev S4x2 : Shape := ⟨2, ![4, 2]⟩
abbrev S8 : Shape := ⟨1, ![8]⟩
abbrev S65536 : Shape := ⟨1, ![65536]⟩
abbrev S65536x1 : Shape := ⟨2, ![65536, 1]⟩
abbrev S65536x6x6 : Shape := ⟨3, ![65536, 6, 6]⟩
abbrev S1x8 : Shape := ⟨2, ![1, 8]⟩
abbrev S65536x8x1 : Shape := ⟨3, ![65536, 8, 1]⟩
abbrev S65536x8x3 : Shape := ⟨3, ![65536, 8, 3]⟩
abbrev S32768x2x6x6 : Shape := ⟨4, ![32768, 2, 6, 6]⟩
abbrev S32768x2x8x1 : Shape := ⟨4, ![32768, 2, 8, 1]⟩
abbrev S32768x2x8x48 : Shape := ⟨4, ![32768, 2, 8, 48]⟩
abbrev S32768x2x4x96 : Shape := ⟨4, ![32768, 2, 4, 96]⟩
abbrev S1x1x2x96 : Shape := ⟨4, ![1, 1, 2, 96]⟩
abbrev S32768x2x2x96 : Shape := ⟨4, ![32768, 2, 2, 96]⟩
abbrev S32768x2x6x96 : Shape := ⟨4, ![32768, 2, 6, 96]⟩
abbrev S32768x2x6x48 : Shape := ⟨4, ![32768, 2, 6, 48]⟩
abbrev S1x1x1x48 : Shape := ⟨4, ![1, 1, 1, 48]⟩
abbrev S32768x2x6x128 : Shape := ⟨4, ![32768, 2, 6, 128]⟩
abbrev S32768x2x4x128 : Shape := ⟨4, ![32768, 2, 4, 128]⟩
abbrev S32768x2x128 : Shape := ⟨3, ![32768, 2, 128]⟩
abbrev S32768x256 : Shape := ⟨2, ![32768, 256]⟩

abbrev nBuf : Space → Nat
  | .hbm => 85
  | .vmem => 0
  | .smem => 0
  | _ => 0

abbrev bufTy : (tb : Table) → Fin (tcTables nBuf tb) → BufTy
  | .hbm, ⟨0, _⟩ => ⟨S32768x2x2x8, .i32⟩
  | .hbm, ⟨1, _⟩ => ⟨S2x96, .f32⟩
  | .hbm, ⟨2, _⟩ => ⟨S8x48, .f32⟩
  | .hbm, ⟨3, _⟩ => ⟨S96x48, .f32⟩
  | .hbm, ⟨4, _⟩ => ⟨S48, .f32⟩
  | .hbm, ⟨5, _⟩ => ⟨S48x128, .f32⟩
  | .hbm, ⟨6, _⟩ => ⟨S128x128, .f32⟩
  | .hbm, ⟨7, _⟩ => ⟨S32768x2x1x8, .i32⟩
  | .hbm, ⟨8, _⟩ => ⟨S32768x2x8, .i32⟩
  | .hbm, ⟨9, _⟩ => ⟨S65536x8, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S4x2, .i32⟩
  | .hbm, ⟨15, _⟩ => ⟨S8, .i32⟩
  | .hbm, ⟨16, _⟩ => ⟨S65536, .i32⟩
  | .hbm, ⟨17, _⟩ => ⟨S65536x1, .i32⟩
  | .hbm, ⟨18, _⟩ => ⟨S_, .f32⟩
  | .hbm, ⟨19, _⟩ => ⟨S65536x6x6, .f32⟩
  | .hbm, ⟨20, _⟩ => ⟨S1x8, .i32⟩
  | .hbm, ⟨21, _⟩ => ⟨S_, .i32⟩
  | .hbm, ⟨22, _⟩ => ⟨S65536x1, .i32⟩
  | .hbm, ⟨23, _⟩ => ⟨S65536x1, .i1⟩
  | .hbm, ⟨24, _⟩ => ⟨S_, .i32⟩
  | .hbm, ⟨25, _⟩ => ⟨S65536x1, .i32⟩
  | .hbm, ⟨26, _⟩ => ⟨S65536x1, .i32⟩
  | .hbm, ⟨27, _⟩ => ⟨S65536x1, .i32⟩
  | .hbm, ⟨28, _⟩ => ⟨S_, .i32⟩
  | .hbm, ⟨29, _⟩ => ⟨S1x8, .i32⟩
  | .hbm, ⟨30, _⟩ => ⟨S1x8, .i1⟩
  | .hbm, ⟨31, _⟩ => ⟨S_, .i32⟩
  | .hbm, ⟨32, _⟩ => ⟨S1x8, .i32⟩
  | .hbm, ⟨33, _⟩ => ⟨S1x8, .i32⟩
  | .hbm, ⟨34, _⟩ => ⟨S1x8, .i32⟩
  | .hbm, ⟨35, _⟩ => ⟨S_, .i32⟩
  | .hbm, ⟨36, _⟩ => ⟨S65536x8, .i32⟩
  | .hbm, ⟨37, _⟩ => ⟨S65536x8, .i1⟩
  | .hbm, ⟨38, _⟩ => ⟨S_, .i32⟩
  | .hbm, ⟨39, _⟩ => ⟨S65536x8, .i32⟩
  | .hbm, ⟨40, _⟩ => ⟨S65536x8, .i32⟩
  | .hbm, ⟨41, _⟩ => ⟨S65536x8, .i32⟩
  | .hbm, ⟨42, _⟩ => ⟨S65536x8, .i32⟩
  | .hbm, ⟨43, _⟩ => ⟨S65536x8, .i32⟩
  | .hbm, ⟨44, _⟩ => ⟨S65536x8x1, .i32⟩
  | .hbm, ⟨45, _⟩ => ⟨S65536x8x1, .i32⟩
  | .hbm, ⟨46, _⟩ => ⟨S65536x8x1, .i32⟩
  | .hbm, ⟨47, _⟩ => ⟨S65536x8x3, .i32⟩
  | .hbm, ⟨48, _⟩ => ⟨S_, .f32⟩
  | .hbm, ⟨49, _⟩ => ⟨S65536x8, .f32⟩
  | .hbm, ⟨50, _⟩ => ⟨S65536x6x6, .f32⟩
  | .hbm, ⟨51, _⟩ => ⟨S32768x2x6x6, .f32⟩
  | .hbm, ⟨52, _⟩ => ⟨S32768x2x1x8, .i32⟩
  | .hbm, ⟨53, _⟩ => ⟨S32768x2x8, .i32⟩
  | .hbm, ⟨54, _⟩ => ⟨S_, .i32⟩
  | .hbm, ⟨55, _⟩ => ⟨S32768x2x8, .i32⟩
  | .hbm, ⟨56, _⟩ => ⟨S32768x2x8, .i1⟩
  | .hbm, ⟨57, _⟩ => ⟨S_, .i32⟩
  | .hbm, ⟨58, _⟩ => ⟨S32768x2x8, .i32⟩
  | .hbm, ⟨59, _⟩ => ⟨S32768x2x8, .i32⟩
  | .hbm, ⟨60, _⟩ => ⟨S32768x2x8, .i32⟩
  | .hbm, ⟨61, _⟩ => ⟨S32768x2x8x1, .i32⟩
  | .hbm, ⟨62, _⟩ => ⟨S32768x2x8x48, .f32⟩
  | .hbm, ⟨63, _⟩ => ⟨S32768x2x4x96, .f32⟩
  | .hbm, ⟨64, _⟩ => ⟨S1x1x2x96, .f32⟩
  | .hbm, ⟨65, _⟩ => ⟨S32768x2x2x96, .f32⟩
  | .hbm, ⟨66, _⟩ => ⟨S32768x2x6x96, .f32⟩
  | .hbm, ⟨67, _⟩ => ⟨S32768x2x6x48, .f32⟩
  | .hbm, ⟨68, _⟩ => ⟨S1x1x1x48, .f32⟩
  | .hbm, ⟨69, _⟩ => ⟨S32768x2x6x48, .f32⟩
  | .hbm, ⟨70, _⟩ => ⟨S32768x2x6x48, .f32⟩
  | .hbm, ⟨71, _⟩ => ⟨S32768x2x6x128, .f32⟩
  | .hbm, ⟨72, _⟩ => ⟨S32768x2x6x128, .f32⟩
  | .hbm, ⟨73, _⟩ => ⟨S_, .f32⟩
  | .hbm, ⟨74, _⟩ => ⟨S32768x2x6x128, .f32⟩
  | .hbm, ⟨75, _⟩ => ⟨S32768x2x6x128, .f32⟩
  | .hbm, ⟨76, _⟩ => ⟨S32768x2x6x128, .f32⟩
  | .hbm, ⟨77, _⟩ => ⟨S32768x2x6x128, .f32⟩
  | .hbm, ⟨78, _⟩ => ⟨S32768x2x4x128, .f32⟩
  | .hbm, ⟨79, _⟩ => ⟨S_, .f32⟩
  | .hbm, ⟨80, _⟩ => ⟨S32768x2x128, .f32⟩
  | .hbm, ⟨81, _⟩ => ⟨S_, .f32⟩
  | .hbm, ⟨82, _⟩ => ⟨S32768x2x128, .f32⟩
  | .hbm, ⟨83, _⟩ => ⟨S32768x2x128, .f32⟩
  | .hbm, ⟨84, _⟩ => ⟨S32768x256, .f32⟩
  | _, _ => ⟨S32768x2x2x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S32768x2x2x8_S32768x2x1x8_0_0_0_0 : S32768x2x2x8.Slices ![0, 0, 0, 0] S32768x2x1x8
  shapeCasts_S32768x2x1x8_S32768x2x8 : S32768x2x1x8.ShapeCasts S32768x2x8
  shapeCasts_S32768x2x8_S65536x8 : S32768x2x8.ShapeCasts S65536x8
  bcast_S_S4 : S_.BroadcastsInDim S4 (![] : Fin 0 → Fin S4.rank)
  bcast_S4_S4x2_0 : S4.BroadcastsInDim S4x2 (![0] : Fin 1 → Fin S4x2.rank)
  shapeCasts_S4x2_S8 : S4x2.ShapeCasts S8
  bcast_S65536_S65536x1_0 : S65536.BroadcastsInDim S65536x1 (![0] : Fin 1 → Fin S65536x1.rank)
  bcast_S_S65536x6x6 : S_.BroadcastsInDim S65536x6x6 (![] : Fin 0 → Fin S65536x6x6.rank)
  bcast_S8_S1x8_1 : S8.BroadcastsInDim S1x8 (![1] : Fin 1 → Fin S1x8.rank)
  bcast_S_S65536x1 : S_.BroadcastsInDim S65536x1 (![] : Fin 0 → Fin S65536x1.rank)
  bcast_S_S1x8 : S_.BroadcastsInDim S1x8 (![] : Fin 0 → Fin S1x8.rank)
  bcast_S_S65536x8 : S_.BroadcastsInDim S65536x8 (![] : Fin 0 → Fin S65536x8.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  bcast_S65536x8_S65536x8x1_0_1 : S65536x8.BroadcastsInDim S65536x8x1 (![0, 1] : Fin 2 → Fin S65536x8x1.rank)
  concatenates_S65536x8x1_S65536x8x1_S65536x8x1_S65536x8x3_d2 : Shape.Concatenates [S65536x8x1, S65536x8x1, S65536x8x1] S65536x8x3 2
  shapeCasts_S65536x6x6_S32768x2x6x6 : S65536x6x6.ShapeCasts S32768x2x6x6
  slices_S32768x2x2x8_S32768x2x1x8_0_0_1_0 : S32768x2x2x8.Slices ![0, 0, 1, 0] S32768x2x1x8
  bcast_S_S32768x2x8 : S_.BroadcastsInDim S32768x2x8 (![] : Fin 0 → Fin S32768x2x8.rank)
  bcast_S32768x2x8_S32768x2x8x1_0_1_2 : S32768x2x8.BroadcastsInDim S32768x2x8x1 (![0, 1, 2] : Fin 3 → Fin S32768x2x8x1.rank)
  shapeCasts_S32768x2x8x48_S32768x2x4x96 : S32768x2x8x48.ShapeCasts S32768x2x4x96
  bcast_S2x96_S1x1x2x96_2_3 : S2x96.BroadcastsInDim S1x1x2x96 (![2, 3] : Fin 2 → Fin S1x1x2x96.rank)
  bcast_S1x1x2x96_S32768x2x2x96_0_1_2_3 : S1x1x2x96.BroadcastsInDim S32768x2x2x96 (![0, 1, 2, 3] : Fin 4 → Fin S32768x2x2x96.rank)
  concatenates_S32768x2x2x96_S32768x2x4x96_S32768x2x6x96_d2 : Shape.Concatenates [S32768x2x2x96, S32768x2x4x96] S32768x2x6x96 2
  bcast_S48_S1x1x1x48_3 : S48.BroadcastsInDim S1x1x1x48 (![3] : Fin 1 → Fin S1x1x1x48.rank)
  bcast_S1x1x1x48_S32768x2x6x48_0_1_2_3 : S1x1x1x48.BroadcastsInDim S32768x2x6x48 (![0, 1, 2, 3] : Fin 4 → Fin S32768x2x6x48.rank)
  bcast_S_S32768x2x6x128 : S_.BroadcastsInDim S32768x2x6x128 (![] : Fin 0 → Fin S32768x2x6x128.rank)
  slices_S32768x2x6x128_S32768x2x4x128_0_0_2_0 : S32768x2x6x128.Slices ![0, 0, 2, 0] S32768x2x4x128
  reducesTo_S32768x2x4x128_S32768x2x128_d2 : S32768x2x4x128.ReducesTo [2] S32768x2x128
  h_S_ : 0 < S_.numel
  bcast_S_S32768x2x128 : S_.BroadcastsInDim S32768x2x128 (![] : Fin 0 → Fin S32768x2x128.rank)
  shapeCasts_S32768x2x128_S32768x256 : S32768x2x128.ShapeCasts S32768x256
  scatter_S65536x6x6_S65536x8x3_S65536x8_n_012_012_2_wf : ScatterDims.WF S65536x6x6 S65536x8x3 S65536x8 [] [0, 1, 2] [0, 1, 2] 2
  gather_S8x48_S32768x2x8x1_S32768x2x8x48_3_0_n_n_0_3_148_wf : GatherDims.WF S8x48 S32768x2x8x1 S32768x2x8x48 [3] [0] [] [0] [] 3 ![1, 48]
  dot_S32768x2x6x96_S96x48_S32768x2x6x48_3_0_012_1_n_n_wf : DotDims.WF S32768x2x6x96 S96x48 S32768x2x6x48 [3] [0] [0, 1, 2] [1] [] []
  dot_S32768x2x6x48_S48x128_S32768x2x6x128_3_0_012_1_n_n_wf : DotDims.WF S32768x2x6x48 S48x128 S32768x2x6x128 [3] [0] [0, 1, 2] [1] [] []
  dot_S32768x2x6x6_S32768x2x6x128_S32768x2x6x128_3_2_2_3_01_01_wf : DotDims.WF S32768x2x6x6 S32768x2x6x128 S32768x2x6x128 [3] [2] [2] [3] [0, 1] [0, 1]
  dot_S32768x2x6x128_S128x128_S32768x2x6x128_3_0_012_1_n_n_wf : DotDims.WF S32768x2x6x128 S128x128 S32768x2x6x128 [3] [0] [0, 1, 2] [1] [] []

variable [Facts₀]

def scatter_S65536x6x6_S65536x8x3_S65536x8_n_012_012_2 : ScatterDims S65536x6x6 S65536x8x3 S65536x8 where
  updateWindowDims := []
  insertedWindowDims := [0, 1, 2]
  scatterDimsToOperandDims := [0, 1, 2]
  indexVectorDim := 2
  wf := scatter_S65536x6x6_S65536x8x3_S65536x8_n_012_012_2_wf
def gather_S8x48_S32768x2x8x1_S32768x2x8x48_3_0_n_n_0_3_148 : GatherDims S8x48 S32768x2x8x1 S32768x2x8x48 where
  offsetDims := [3]
  collapsedSliceDims := [0]
  operandBatchingDims := []
  startIndicesBatchingDims := []
  startIndexMap := [0]
  indexVectorDim := 3
  sliceSizes := ![1, 48]
  wf := gather_S8x48_S32768x2x8x1_S32768x2x8x48_3_0_n_n_0_3_148_wf
def dot_S32768x2x6x96_S96x48_S32768x2x6x48_3_0_012_1_n_n : DotDims S32768x2x6x96 S96x48 S32768x2x6x48 where
  lhsContracting := [3]
  rhsContracting := [0]
  lhsNonContracting := [0, 1, 2]
  rhsNonContracting := [1]
  lhsBatch := []
  rhsBatch := []
  wf := dot_S32768x2x6x96_S96x48_S32768x2x6x48_3_0_012_1_n_n_wf
def dot_S32768x2x6x48_S48x128_S32768x2x6x128_3_0_012_1_n_n : DotDims S32768x2x6x48 S48x128 S32768x2x6x128 where
  lhsContracting := [3]
  rhsContracting := [0]
  lhsNonContracting := [0, 1, 2]
  rhsNonContracting := [1]
  lhsBatch := []
  rhsBatch := []
  wf := dot_S32768x2x6x48_S48x128_S32768x2x6x128_3_0_012_1_n_n_wf
def dot_S32768x2x6x6_S32768x2x6x128_S32768x2x6x128_3_2_2_3_01_01 : DotDims S32768x2x6x6 S32768x2x6x128 S32768x2x6x128 where
  lhsContracting := [3]
  rhsContracting := [2]
  lhsNonContracting := [2]
  rhsNonContracting := [3]
  lhsBatch := [0, 1]
  rhsBatch := [0, 1]
  wf := dot_S32768x2x6x6_S32768x2x6x128_S32768x2x6x128_3_2_2_3_01_01_wf
def dot_S32768x2x6x128_S128x128_S32768x2x6x128_3_0_012_1_n_n : DotDims S32768x2x6x128 S128x128 S32768x2x6x128 where
  lhsContracting := [3]
  rhsContracting := [0]
  lhsNonContracting := [0, 1, 2]
  rhsNonContracting := [1]
  lhsBatch := []
  rhsBatch := []
  wf := dot_S32768x2x6x128_S128x128_S32768x2x6x128_3_0_012_1_n_n_wf

class Facts : Prop extends Facts₀ where

variable [Facts]
-- ==== Proof.Spec.lean ====
/-
  The mathematics of the certificate, free of any program text.

  One graph of the batch has eight edges: edge `e` enters the intermediate node `2 + e / 2` from the node whose id is the
  word `pv e`, and carries the operation whose id is the word `ov e`.  A node's embedding is a row of ninety-six numbers
  (the two initial nodes': rows of `E0`; intermediate node `2 + i`: the rows `ov (2 i)` and `ov (2 i + 1)` of the
  operation table `OE` side by side), projected by `Wx`, `bx`, then two graph-convolution layers
  `y ↦ A · (y · W)` with the adjacency counts `A` (a `max · 0` after the first), and the mean of the four
  intermediate nodes' rows.

  `rOut` writes this down layer by layer, over all six nodes, with `Finset` sums (the reference's reading).
  `kOut` writes down what the kernel computes: the operation rows fetched by a product of a one-hot row with a
  block-diagonal table, the two projections fused into one matrix `W12` and one row `b12`, the adjacency applied as
  an unrolled sum of coefficient · row, the two initial nodes left out of the second layer.
  Everything is an extended real; `hot w k` is the indicator that the word `w` is the number `k`.
-/
import Idealize.ShloMosaic.PureOps.Ideal
import Idealize.ShloMosaic.Lib.ValueIdx

noncomputable section

open scoped BigOperators

namespace Cert.Gcn

/-- The indicator, as an extended real, that the 32-bit word `w` is the number `k`. -/
def hot (w : BitVec 32) (k : ℕ) : EReal := if BitVec.ofNat 32 k = w then 1 else 0

/-- The number 1/4 as an extended real: the mean over the four intermediate nodes. -/
def quarter : EReal := ((1 / 4 : ℝ) : EReal)

/-- The float arguments, read by coordinates. -/
structure Wts where
  E0 : Fin 2 → Fin 96 → EReal
  OE : Fin 8 → Fin 48 → EReal
  Wx : Fin 96 → Fin 48 → EReal
  bx : Fin 48 → EReal
  W1 : Fin 48 → Fin 128 → EReal
  W2 : Fin 128 → Fin 128 → EReal

/-- An extended real that is a real number. -/
def IsReal (x : EReal) : Prop := ∃ r : ℝ, x = (r : EReal)

/-- Every entry of the five arrays the fused projection multiplies out is a real number. -/
structure Wts.Finite (w : Wts) : Prop where
  E0 : ∀ s l, IsReal (w.E0 s l)
  OE : ∀ o d, IsReal (w.OE o d)
  Wx : ∀ l d, IsReal (w.Wx l d)
  bx : ∀ d, IsReal (w.bx d)
  W1 : ∀ d k, IsReal (w.W1 d k)

/-- The adjacency count of the edge pair entering intermediate node `2 + i`, from source node `s`. -/
def coef (pv : Fin 8 → BitVec 32) (i : Fin 4) (s : Fin 6) : EReal :=
  hot (pv ⟨2 * i.val, by have := i.isLt; omega⟩) s.val + hot (pv ⟨2 * i.val + 1, by have := i.isLt; omega⟩) s.val

/-! ## The reference's reading -/

/-- The table row an operation word names (for a word in `[0, 8)`: the word itself). -/
def opRow (w : BitVec 32) : Fin 8 := ⟨w.toNat % 8, Nat.mod_lt _ (by decide)⟩

/-- Node `n`'s embedding row. -/
def nodeEmb (w : Wts) (ov : Fin 8 → BitVec 32) (n : Fin 6) (l : Fin 96) : EReal :=
  if h : n.val < 2 then w.E0 ⟨n.val, h⟩ l
  else w.OE (opRow (ov ⟨2 * (n.val - 2) + l.val / 48, by have := n.isLt; have := l.isLt; omega⟩))
    ⟨l.val % 48, Nat.mod_lt _ (by decide)⟩

/-- The hidden projection `emb · Wx + bx`. -/
def y0 (w : Wts) (ov : Fin 8 → BitVec 32) (n : Fin 6) (d : Fin 48) : EReal :=
  (∑ l : Fin 96, nodeEmb w ov n l * w.Wx l d) + w.bx d

/-- First layer before the adjacency: `y0 · W1`. -/
def z1 (w : Wts) (ov : Fin 8 → BitVec 32) (n : Fin 6) (k : Fin 128) : EReal :=
  ∑ d : Fin 48, y0 w ov n d * w.W1 d k

/-- The adjacency counts: row `n` is zero for the two initial nodes. -/
def adj (pv : Fin 8 → BitVec 32) (n m : Fin 6) : EReal :=
  if h : 2 ≤ n.val then coef pv ⟨n.val - 2, by have := n.isLt; omega⟩ m else 0

def y1 (w : Wts) (pv ov : Fin 8 → BitVec 32) (n : Fin 6) (k : Fin 128) : EReal :=
  ∑ m : Fin 6, adj pv n m * z1 w ov m k

def r1 (w : Wts) (pv ov : Fin 8 → BitVec 32) (n : Fin 6) (k : Fin 128) : EReal :=
  max (y1 w pv ov n k) 0

def z2 (w : Wts) (pv ov : Fin 8 → BitVec 32) (n : Fin 6) (f : Fin 128) : EReal :=
  ∑ k : Fin 128, r1 w pv ov n k * w.W2 k f

def y2 (w : Wts) (pv ov : Fin 8 → BitVec 32) (n : Fin 6) (f : Fin 128) : EReal :=
  ∑ m : Fin 6, adj pv n m * z2 w pv ov m f

/-- The graph's output row: the mean of the intermediate nodes' second-layer rows. -/
def rOut (w : Wts) (pv ov : Fin 8 → BitVec 32) (f : Fin 128) : EReal :=
  (0 + ∑ n' : Fin 4, y2 w pv ov ⟨n'.val + 2, by have := n'.isLt; omega⟩ f) * quarter

/-! ## The kernel's reading -/

/-- The kernel's weight operands, read by coordinates. -/
structure KW where
  tab : Fin 16 → Fin 96 → EReal
  W12 : Fin 96 → Fin 128 → EReal
  b12 : Fin 128 → EReal
  ih1 : Fin 2 → Fin 128 → EReal
  W2 : Fin 128 → Fin 128 → EReal

/-- The weight operands the host part of the kernel's program computes from the arguments. -/
def W12 (w : Wts) (l : Fin 96) (k : Fin 128) : EReal := ∑ d : Fin 48, w.Wx l d * w.W1 d k
def b12 (w : Wts) (k : Fin 128) : EReal := ∑ d : Fin 48, w.bx d * w.W1 d k
def ih1 (w : Wts) (s : Fin 2) (k : Fin 128) : EReal := (∑ l : Fin 96, w.E0 s l * W12 w l k) + b12 w k
/-- The block-diagonal operation table: `OE` top left and bottom right, zero elsewhere. -/
def tab (w : Wts) (κ : Fin 16) (l : Fin 96) : EReal :=
  if hκ : κ.val < 8 then (if hl : l.val < 48 then w.OE ⟨κ.val, hκ⟩ ⟨l.val, hl⟩ else 0)
  else (if hl : l.val < 48 then 0 else w.OE ⟨κ.val - 8, by have := κ.isLt; omega⟩ ⟨l.val - 48, by have := l.isLt; omega⟩)
def kwOf (w : Wts) : KW := ⟨tab w, W12 w, b12 w, ih1 w, w.W2⟩

/-- The sixteen-wide one-hot row of intermediate node `2 + i`: its two operation words, each against eight columns. -/
def oh16 (ov : Fin 8 → BitVec 32) (i : Fin 4) (κ : Fin 16) : EReal :=
  if κ.val < 8 then hot (ov ⟨2 * i.val, by have := i.isLt; omega⟩) κ.val
  else hot (ov ⟨2 * i.val + 1, by have := i.isLt; omega⟩) (κ.val - 8)

def cat (kw : KW) (ov : Fin 8 → BitVec 32) (i : Fin 4) (l : Fin 96) : EReal :=
  ∑ κ : Fin 16, oh16 ov i κ * kw.tab κ l

def h1i (kw : KW) (ov : Fin 8 → BitVec 32) (i : Fin 4) (k : Fin 128) : EReal :=
  (∑ l : Fin 96, cat kw ov i l * kw.W12 l k) + kw.b12 k

/-- Node `s`'s first-layer row before the adjacency: a constant row for the two initial nodes. -/
def h1n (kw : KW) (ov : Fin 8 → BitVec 32) (s : Fin 6) (k : Fin 128) : EReal :=
  if h : s.val < 2 then kw.ih1 ⟨s.val, h⟩ k else h1i kw ov ⟨s.val - 2, by have := s.isLt; omega⟩ k

def y1k (kw : KW) (pv ov : Fin 8 → BitVec 32) (i : Fin 4) (k : Fin 128) : EReal :=
  (((((0 + coef pv i 0 * h1n kw ov 0 k) + coef pv i 1 * h1n kw ov 1 k) + coef pv i 2 * h1n kw ov 2 k)
    + coef pv i 3 * h1n kw ov 3 k) + coef pv i 4 * h1n kw ov 4 k) + coef pv i 5 * h1n kw ov 5 k

def h2k (kw : KW) (pv ov : Fin 8 → BitVec 32) (i : Fin 4) (f : Fin 128) : EReal :=
  ∑ k : Fin 128, max (y1k kw pv ov i k) 0 * kw.W2 k f

def y2k (kw : KW) (pv ov : Fin 8 → BitVec 32) (i : Fin 4) (f : Fin 128) : EReal :=
  (((0 + coef pv i 2 * h2k kw pv ov 0 f) + coef pv i 3 * h2k kw pv ov 1 f) + coef pv i 4 * h2k kw pv ov 2 f)
    + coef pv i 5 * h2k kw pv ov 3 f

def kOut (kw : KW) (pv ov : Fin 8 → BitVec 32) (f : Fin 128) : EReal :=
  (((y2k kw pv ov 0 f + y2k kw pv ov 1 f) + y2k kw pv ov 2 f) + y2k kw pv ov 3 f) * quarter

/-! ## The arrays -/

open Idealize.ShloMosaic Idealize.ShloMosaic.ValueIdx

/-- The float argument arrays read by coordinates. -/
def wtsOf (E0 : (⟨2, ![2, 96]⟩ : Shape).Idx → EReal) (OE : (⟨2, ![8, 48]⟩ : Shape).Idx → EReal)
    (Wx : (⟨2, ![96, 48]⟩ : Shape).Idx → EReal) (bx : (⟨1, ![48]⟩ : Shape).Idx → EReal)
    (W1 : (⟨2, ![48, 128]⟩ : Shape).Idx → EReal) (W2 : (⟨2, ![128, 128]⟩ : Shape).Idx → EReal) : Wts :=
  ⟨fun s l => E0 (ix2 s l), fun o d => OE (ix2 o d), fun l d => Wx (ix2 l d), fun d => bx (ix1 d),
    fun d k => W1 (ix2 d k), fun k f => W2 (ix2 k f)⟩

/-- The kernel's weight operands read by coordinates. -/
def kwBlk (x2 : (⟨2, ![16, 96]⟩ : Shape).Idx → EReal) (x3 : (⟨2, ![96, 128]⟩ : Shape).Idx → EReal)
    (x4 : (⟨1, ![128]⟩ : Shape).Idx → EReal) (x5 : (⟨2, ![2, 128]⟩ : Shape).Idx → EReal)
    (x6 : (⟨2, ![128, 128]⟩ : Shape).Idx → EReal) : KW :=
  ⟨fun κ l => x2 (ix2 κ l), fun l k => x3 (ix2 l k), fun k => x4 (ix1 k), fun s k => x5 (ix2 s k), fun k f => x6 (ix2 k f)⟩

/-- Graph `(b, g)`'s eight source-node words and eight operation words in the architecture array. -/
def pvOf (A : (⟨4, ![32768, 2, 2, 8]⟩ : Shape).Idx → BitVec 32) (b : Fin 32768) (g : Fin 2) : Fin 8 → BitVec 32 :=
  fun e => A (ix4 b g (0 : Fin 2) e)
def ovOf (A : (⟨4, ![32768, 2, 2, 8]⟩ : Shape).Idx → BitVec 32) (b : Fin 32768) (g : Fin 2) : Fin 8 → BitVec 32 :=
  fun e => A (ix4 b g (1 : Fin 2) e)

/-- The coordinates of an element of the result: batch row `b`, cell group `g`, feature `f` (column `128 g + f`). -/
def outB (i : (⟨2, ![32768, 256]⟩ : Shape).Idx) : Fin 32768 := ⟨(i 0).val, idx2_lt0 i⟩
def outG (i : (⟨2, ![32768, 256]⟩ : Shape).Idx) : Fin 2 := ⟨(i 1).val / 128, by have := idx2_lt1 i; omega⟩
def outF (i : (⟨2, ![32768, 256]⟩ : Shape).Idx) : Fin 128 := ⟨(i 1).val % 128, Nat.mod_lt _ (by decide)⟩

/-- The whole result array, in the reference's reading and in the kernel's. -/
def GR (A : (⟨4, ![32768, 2, 2, 8]⟩ : Shape).Idx → BitVec 32) (w : Wts) : (⟨2, ![32768, 256]⟩ : Shape).Idx → EReal :=
  fun i => rOut w (pvOf A (outB i) (outG i)) (ovOf A (outB i) (outG i)) (outF i)
def GK (A : (⟨4, ![32768, 2, 2, 8]⟩ : Shape).Idx → BitVec 32) (w : Wts) : (⟨2, ![32768, 256]⟩ : Shape).Idx → EReal :=
  fun i => kOut (kwOf w) (pvOf A (outB i) (outG i)) (ovOf A (outB i) (outG i)) (outF i)

end Cert.Gcn

end
-- ==== Proof.Bridge.lean ====
/-
  The kernel's reading of one graph's output row is the reference's: `kOut (kwOf w) = rOut w`, for weights that are
  real numbers and operation words in [0, 8).
-/
import proofs.«429420_j32091995636315_2_alg».proof.Proof.Spec

noncomputable section

open scoped BigOperators

namespace Cert.Gcn

open Idealize.ShloMosaic Idealize.ShloMosaic.ValueIdx

/-! ## The indicator of a word -/

/-- For a number below eight, the indicator of the word `v` at `k` is the indicator of `k = v.toNat`. -/
private theorem hot_eq (v : BitVec 32) (k : ℕ) (hk : k < 8) :
    hot v k = if k = v.toNat then 1 else 0 := by
  unfold hot
  have h : (BitVec.ofNat 32 k = v) ↔ k = v.toNat := by
    constructor
    · intro h
      rw [← h, BitVec.toNat_ofNat]
      omega
    · intro h
      rw [h]
      apply BitVec.eq_of_toNat_eq
      rw [BitVec.toNat_ofNat]
      exact Nat.mod_eq_of_lt v.isLt
  by_cases hkv : k = v.toNat
  · rw [if_pos (h.mpr hkv), if_pos hkv]
  · rw [if_neg (fun h' => hkv (h.mp h')), if_neg hkv]

/-- A sum against the indicator of a word below eight keeps exactly one term. -/
private theorem sum_hot (v : BitVec 32) (hv : v.toNat < 8) (g : Fin 8 → EReal) :
    ∑ κ : Fin 8, hot v κ.val * g κ = g ⟨v.toNat, hv⟩ := by
  rw [Finset.sum_eq_single (⟨v.toNat, hv⟩ : Fin 8)]
  · rw [hot_eq v _ hv, if_pos rfl, one_mul]
  · intro κ _ hκ
    rw [hot_eq v _ κ.isLt, if_neg (fun h => hκ (Fin.ext h)), zero_mul]
  · intro h
    exact absurd (Finset.mem_univ _) h

/-- The table row an operation word below eight names is the word itself. -/
private theorem opRow_eq (v : BitVec 32) (hv : v.toNat < 8) : opRow v = ⟨v.toNat, hv⟩ := by
  unfold opRow
  exact Fin.ext (Nat.mod_eq_of_lt hv)

/-- Entries of the operation table at equal coordinates are equal. -/
private theorem OE_congr (w : Wts) {a b : Fin 8} {c d : Fin 48} (h1 : a.val = b.val) (h2 : c.val = d.val) :
    w.OE a c = w.OE b d := by
  rw [Fin.ext h1, Fin.ext h2]

/-- Words at equal positions are equal. -/
private theorem ov_congr (ov : Fin 8 → BitVec 32) {a b : Fin 8} (h : a.val = b.val) : ov a = ov b := by
  rw [Fin.ext h]

/-! ## The one-hot fetch -/

/-- The product of the one-hot row with the block-diagonal table is the intermediate node's embedding row. -/
private theorem cat_eq (w : Wts) (ov : Fin 8 → BitVec 32) (hov : ∀ e, (ov e).toNat < 8) (i : Fin 4) (l : Fin 96) :
    cat (kwOf w) ov i l = nodeEmb w ov ⟨i.val + 2, by have := i.isLt; omega⟩ l := by
  have hi := i.isLt
  have hl := l.isLt
  unfold cat nodeEmb
  rw [dif_neg (by simp)]
  rw [Fin.sum_univ_add (M := EReal) (a := 8) (b := 8)]
  by_cases hl48 : l.val < 48
  · -- the left half of the row: only the first eight columns of the one-hot row meet non-zero table entries
    have e1 : ∀ κ : Fin 8, oh16 ov i (Fin.castAdd 8 κ) * (kwOf w).tab (Fin.castAdd 8 κ) l
        = hot (ov ⟨2 * i.val, by omega⟩) κ.val * w.OE κ ⟨l.val, hl48⟩ := by
      intro κ
      have hκ := κ.isLt
      simp only [oh16, kwOf, tab, Fin.coe_castAdd, hκ, hl48, if_true, dif_pos]
    have e2 : ∀ κ : Fin 8, oh16 ov i (Fin.natAdd 8 κ) * (kwOf w).tab (Fin.natAdd 8 κ) l = 0 := by
      intro κ
      have hκ : ¬ (8 + κ.val < 8) := by omega
      simp only [kwOf, tab, Fin.coe_natAdd, hκ, hl48, dif_pos, dif_neg, not_false_eq_true, mul_zero]
    rw [Finset.sum_congr rfl (fun κ _ => e1 κ), Finset.sum_congr rfl (fun κ _ => e2 κ), Finset.sum_const_zero,
      add_zero, sum_hot _ (hov _), opRow_eq _ (hov _)]
    refine OE_congr w ?_ ?_
    · refine congrArg BitVec.toNat (ov_congr ov ?_)
      show 2 * i.val = 2 * (i.val + 2 - 2) + l.val / 48
      omega
    · show l.val = l.val % 48
      omega
  · -- the right half: only the last eight columns do
    have e1 : ∀ κ : Fin 8, oh16 ov i (Fin.castAdd 8 κ) * (kwOf w).tab (Fin.castAdd 8 κ) l = 0 := by
      intro κ
      have hκ := κ.isLt
      simp only [kwOf, tab, Fin.coe_castAdd, hκ, hl48, dif_pos, dif_neg, not_false_eq_true, mul_zero]
    have e2 : ∀ κ : Fin 8, oh16 ov i (Fin.natAdd 8 κ) * (kwOf w).tab (Fin.natAdd 8 κ) l
        = hot (ov ⟨2 * i.val + 1, by omega⟩) κ.val * w.OE κ ⟨l.val - 48, by omega⟩ := by
      intro κ
      have hκ : ¬ (8 + κ.val < 8) := by omega
      simp only [oh16, kwOf, tab, Fin.coe_natAdd, hκ, hl48, if_false, dif_neg, not_false_eq_true,
        Nat.add_sub_cancel_left, Fin.eta]
    rw [Finset.sum_congr rfl (fun κ _ => e1 κ), Finset.sum_congr rfl (fun κ _ => e2 κ), Finset.sum_const_zero,
      zero_add, sum_hot _ (hov _), opRow_eq _ (hov _)]
    refine OE_congr w ?_ ?_
    · refine congrArg BitVec.toNat (ov_congr ov ?_)
      show 2 * i.val + 1 = 2 * (i.val + 2 - 2) + l.val / 48
      omega
    · show l.val - 48 = l.val % 48
      omega

/-! ## The fused projection -/

/-- The coercion of the reals into the extended reals commutes with finite sums. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Projecting a row of real numbers by `Wx`, `bx` and then by `W1` is projecting it by the fused matrix `W12`
and the fused row `b12`.  All the entries are real, so the sums are rearranged in `ℝ`, where multiplication
distributes over addition. -/
private theorem fused (w : Wts) (hw : w.Finite) (x : Fin 96 → EReal) (hx : ∀ l, IsReal (x l)) (k : Fin 128) :
    ∑ d : Fin 48, ((∑ l : Fin 96, x l * w.Wx l d) + w.bx d) * w.W1 d k
      = (∑ l : Fin 96, x l * W12 w l k) + b12 w k := by
  have hx' : ∀ l, ∃ r : ℝ, x l = (r : EReal) := hx
  have hWx' : ∀ l d, ∃ r : ℝ, w.Wx l d = (r : EReal) := hw.Wx
  have hbx' : ∀ d, ∃ r : ℝ, w.bx d = (r : EReal) := hw.bx
  have hW1' : ∀ d k, ∃ r : ℝ, w.W1 d k = (r : EReal) := hw.W1
  choose xr hxr using hx'
  choose Wxr hWx using hWx'
  choose bxr hbx using hbx'
  choose W1r hW1 using hW1'
  unfold W12 b12
  simp only [hxr, hWx, hbx, hW1, ← EReal.coe_mul, ← coe_sum, ← EReal.coe_add]
  rw [EReal.coe_eq_coe_iff]
  simp only [add_mul, Finset.sum_add_distrib, Finset.sum_mul, Finset.mul_sum]
  congr 1
  rw [Finset.sum_comm]
  refine Finset.sum_congr rfl (fun l _ => Finset.sum_congr rfl (fun d _ => ?_))
  exact mul_assoc _ _ _

/-- Every entry of a node's embedding row is a real number. -/
private theorem nodeEmb_real (w : Wts) (hw : w.Finite) (ov : Fin 8 → BitVec 32) (n : Fin 6) (l : Fin 96) :
    IsReal (nodeEmb w ov n l) := by
  unfold nodeEmb
  split
  · exact hw.E0 _ _
  · exact hw.OE _ _

/-- Embedding rows of equal nodes are equal. -/
private theorem nodeEmb_congr (w : Wts) (ov : Fin 8 → BitVec 32) {a b : Fin 6} (h : a.val = b.val) (l : Fin 96) :
    nodeEmb w ov a l = nodeEmb w ov b l := by
  rw [Fin.ext h]

/-- The first layer before the adjacency, fused: `z1 = emb · W12 + b12`. -/
private theorem z1_eq (w : Wts) (hw : w.Finite) (ov : Fin 8 → BitVec 32) (n : Fin 6) (k : Fin 128) :
    z1 w ov n k = (∑ l : Fin 96, nodeEmb w ov n l * W12 w l k) + b12 w k := by
  unfold z1 y0
  exact fused w hw (nodeEmb w ov n) (nodeEmb_real w hw ov n) k

/-- Each node's first-layer row before the adjacency is the same in both readings. -/
private theorem h1n_eq (w : Wts) (hw : w.Finite) (ov : Fin 8 → BitVec 32) (hov : ∀ e, (ov e).toNat < 8)
    (s : Fin 6) (k : Fin 128) : h1n (kwOf w) ov s k = z1 w ov s k := by
  have hs6 := s.isLt
  rw [z1_eq w hw]
  unfold h1n
  by_cases hs : s.val < 2
  · rw [dif_pos hs]
    show (∑ l : Fin 96, w.E0 ⟨s.val, hs⟩ l * W12 w l k) + b12 w k = _
    congr 1
    refine Finset.sum_congr rfl (fun l _ => ?_)
    unfold nodeEmb
    rw [dif_pos hs]
  · rw [dif_neg hs]
    show (∑ l : Fin 96, cat (kwOf w) ov ⟨s.val - 2, by omega⟩ l * W12 w l k) + b12 w k = _
    congr 1
    refine Finset.sum_congr rfl (fun l _ => ?_)
    rw [cat_eq w ov hov, nodeEmb_congr w ov (b := s) (by show s.val - 2 + 2 = s.val; omega)]

/-! ## The first layer -/

/-- Adjacency counts of equal edge pairs are equal. -/
private theorem coef_congr (pv : Fin 8 → BitVec 32) {a b : Fin 4} (h : a.val = b.val) (s : Fin 6) :
    coef pv a s = coef pv b s := by
  rw [Fin.ext h]

/-- The adjacency row of intermediate node `2 + i` is the counts of its edge pair. -/
private theorem adj_eq (pv : Fin 8 → BitVec 32) (i : Fin 4) (m : Fin 6) :
    adj pv ⟨i.val + 2, by have := i.isLt; omega⟩ m = coef pv i m := by
  unfold adj
  rw [dif_pos (show 2 ≤ i.val + 2 by omega)]
  exact coef_congr pv (show i.val + 2 - 2 = i.val by omega) m

/-- The adjacency row of an initial node is zero. -/
private theorem adj_zero (pv : Fin 8 → BitVec 32) (n : Fin 6) (hn : n.val < 2) (m : Fin 6) : adj pv n m = 0 := by
  unfold adj
  rw [dif_neg (by omega)]

/-- The unrolled sum of coefficient · row is the adjacency applied to the first-layer rows. -/
private theorem y1k_eq (w : Wts) (hw : w.Finite) (pv ov : Fin 8 → BitVec 32) (hov : ∀ e, (ov e).toNat < 8)
    (i : Fin 4) (k : Fin 128) :
    y1k (kwOf w) pv ov i k = y1 w pv ov ⟨i.val + 2, by have := i.isLt; omega⟩ k := by
  unfold y1k y1
  simp only [Fin.sum_univ_six, adj_eq, h1n_eq w hw ov hov, zero_add]

/-- The second layer before the adjacency, at an intermediate node. -/
private theorem h2k_eq (w : Wts) (hw : w.Finite) (pv ov : Fin 8 → BitVec 32) (hov : ∀ e, (ov e).toNat < 8)
    (i : Fin 4) (f : Fin 128) :
    h2k (kwOf w) pv ov i f = z2 w pv ov ⟨i.val + 2, by have := i.isLt; omega⟩ f := by
  unfold h2k z2 r1
  refine Finset.sum_congr rfl (fun k _ => ?_)
  rw [y1k_eq w hw pv ov hov]
  rfl

/-! ## The second layer: the initial nodes contribute nothing -/

/-- An initial node's second-layer row before the adjacency is zero: its adjacency row is zero, so its first-layer
row is zero, `max 0 0 = 0`, and `0 * x = 0` for every extended real. -/
private theorem z2_zero (w : Wts) (pv ov : Fin 8 → BitVec 32) (n : Fin 6) (hn : n.val < 2) (f : Fin 128) :
    z2 w pv ov n f = 0 := by
  unfold z2 r1 y1
  simp only [adj_zero pv n hn, zero_mul, Finset.sum_const_zero, max_self]

/-- The four-term unrolled sum is the adjacency applied to all six second-layer rows. -/
private theorem y2k_eq (w : Wts) (hw : w.Finite) (pv ov : Fin 8 → BitVec 32) (hov : ∀ e, (ov e).toNat < 8)
    (i : Fin 4) (f : Fin 128) :
    y2k (kwOf w) pv ov i f = y2 w pv ov ⟨i.val + 2, by have := i.isLt; omega⟩ f := by
  unfold y2k y2
  simp only [Fin.sum_univ_six, adj_eq, h2k_eq w hw pv ov hov]
  rw [z2_zero w pv ov 0 (by decide), z2_zero w pv ov 1 (by decide)]
  simp only [mul_zero, zero_add, add_zero]
  rfl

/-! ## The mean of the four intermediate nodes -/

/-- One graph: the fused, one-hot, unrolled reading equals the layer-by-layer one. -/
theorem kOut_eq_rOut (w : Wts) (hw : w.Finite) (pv ov : Fin 8 → BitVec 32) (hov : ∀ e, (ov e).toNat < 8) (f : Fin 128) :
    kOut (kwOf w) pv ov f = rOut w pv ov f := by
  unfold kOut rOut
  rw [Fin.sum_univ_four, zero_add]
  simp only [y2k_eq w hw pv ov hov]

/-- The whole array. -/
theorem GK_eq_GR (A : (⟨4, ![32768, 2, 2, 8]⟩ : Shape).Idx → BitVec 32) (w : Wts) (hw : w.Finite)
    (hop : ∀ (b : Fin 32768) (g : Fin 2) (e : Fin 8), (A (ix4 b g (1 : Fin 2) e)).toNat < 8) : GK A w = GR A w := by
  funext i
  exact kOut_eq_rOut w hw _ _ (fun e => hop _ _ e) _

end Cert.Gcn

end
-- ==== Proof.PreDecode.lean ====
/-
  What the precondition says: every float argument is a real number, no word of the architecture array is negative,
  and every operation word is below eight.
-/
import proofs.«429420_j32091995636315_2_alg».proof.Proof.Gen.Pre_finite_inputs
import proofs.«429420_j32091995636315_2_alg».proof.Proof.Spec
import Idealize.ShloMosaic.Lib.ReduceAll
import Idealize.ShloMosaic.Lib.StableHlo.Predicate
import Idealize.ShloMosaic.Lib.Pipeline.Value

noncomputable section

open scoped BigOperators

namespace Cert.PreDecode

open Cert.Pre_finite_inputs Idealize.ShloMosaic Idealize.ShloMosaic.TcCoe Idealize.ShloMosaic.ValueIdx

variable [Cert.Pre_finite_inputs.Facts]

/-- The scalar shape has one index. -/
private instance subsingleton_scalar_idx : Subsingleton S_.Idx := ⟨fun a b => funext fun d => d.elim0⟩

/-- The bit pattern of the comparison's right side is plus infinity. -/
private theorem ofBits_inf : Ideal.ofBits .f32 0x7F800000#32 = (⊤ : EReal) := by simp [Ideal.ofBits, Ideal.ieee]

/-- An extended real whose absolute value `max x (-x)` is strictly below plus infinity is a real number. -/
private theorem isReal_of_abs_lt_top (x : EReal) (h : Ideal.cmp .olt (max x (-x)) (⊤ : EReal) = 1#1) : Cert.Gcn.IsReal x := by
  induction x using EReal.rec with
  | bot => exact absurd h (by simp [Ideal.cmp])
  | coe r => exact ⟨r, rfl⟩
  | top => exact absurd h (by simp [Ideal.cmp])

/-- One conjunct of the precondition over a float array: the conjunction over all elements of
    `|x| < +inf` being true makes every element a real number. -/
private theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
          (constantI S_ 1 1#1) hr h0 ix0 = 1#1) (i : s.Idx) : Cert.Gcn.IsReal (x i) := by
  have hi := Host.reduce_andi_all _ _ hr h0 ix0 e i
  refine isReal_of_abs_lt_top (x i) ?_
  rw [← ofBits_inf]
  exact hi

/-- One conjunct over the word array: all words nonnegative. -/
private theorem all_nonneg {s : Shape} {axes : List (Fin s.rank)} (x : IVec s 32)
    (hb : S_.BroadcastsInDim s (![] : Fin 0 → Fin s.rank)) (hr : s.ReducesTo axes S_) (h0 : 0 < S_.numel)
    (e : Host.reduce IntOp.andi (cmpi .sge x (broadcastInDim s ![] hb (constantI S_ 32 0#32)))
          (constantI S_ 1 1#1) hr h0 ix0 = 1#1) (i : s.Idx) : 0 ≤ (x i).toInt := by
  have hi := Host.reduce_andi_all _ _ hr h0 ix0 e i
  have h := (IntOp.cmpi_sge (x := x i) (y := 0#32)).1 hi
  simpa using h

/-- One conjunct over a word array: all words below eight. -/
private theorem all_lt_eight {s : Shape} {axes : List (Fin s.rank)} (x : IVec s 32)
    (hb : S_.BroadcastsInDim s (![] : Fin 0 → Fin s.rank)) (hr : s.ReducesTo axes S_) (h0 : 0 < S_.numel)
    (e : Host.reduce IntOp.andi (cmpi .slt x (broadcastInDim s ![] hb (constantI S_ 32 8#32)))
          (constantI S_ 1 1#1) hr h0 ix0 = 1#1) (i : s.Idx) : (x i).toInt < 8 := by
  have hi := Host.reduce_andi_all _ _ hr h0 ix0 e i
  have h := (IntOp.cmpi_slt (x := x i) (y := 8#32)).1 hi
  have h8 : (8#32 : BitVec 32).toInt = 8 := by decide
  rw [h8] at h
  exact h

/-- The slice `[:, :, 1:2, :]` of the word array, reshaped to drop the unit axis, reads the array at third coordinate 1. -/
private theorem slice_read (x0 : IVec S32768x2x2x8 32) (hs : S32768x2x2x8.Slices ![0, 0, 1, 0] S32768x2x1x8)
    (hc : S32768x2x1x8.ShapeCasts S32768x2x8) (b : Fin 32768) (g : Fin 2) (e : Fin 8) :
    shapeCast S32768x2x8 (extractStridedSlice S32768x2x1x8 ![0, 0, 1, 0] x0 hs) hc (ix3 b g e) = x0 (ix4 b g (1 : Fin 2) e) := by
  refine (shapeCast_apply _ hc (ix3 b g e) (ix4 b g (0 : Fin 1) e) ?_).trans ?_
  · rw [Shape.rowMajor_val_four, Shape.rowMajor_val_three]
    show ((b.val * 2 + g.val) * 1 + 0) * 8 + e.val = (b.val * 2 + g.val) * 8 + e.val
    omega
  · refine extractStridedSlice_apply _ x0 hs (ix4 b g (0 : Fin 1) e) (ix4 b g (1 : Fin 2) e) ?_
    intro a
    match a with
    | ⟨0, _⟩ => show b.val = 0 + b.val; omega
    | ⟨1, _⟩ => show g.val = 0 + g.val; omega
    | ⟨2, _⟩ => rfl
    | ⟨3, _⟩ => show e.val = 0 + e.val; omega

/-- The precondition, decoded. -/
theorem decode (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (h : Cert.Pre_finite_inputs.fn (F := Ideal) x0 x1 x2 x3 x4 x5 x6 = fun _ => 1#1) :
    (Cert.Gcn.wtsOf x1 x2 x3 x4 x5 x6).Finite
      ∧ (∀ i, 0 ≤ (x0 i).toInt)
      ∧ (∀ (b : Fin 32768) (g : Fin 2) (e : Fin 8), (x0 (ix4 b g (1 : Fin 2) e)).toInt < 8) := by
  have e := congrFun h ix0
  dsimp only [Cert.Pre_finite_inputs.fn, Cert.Pre_finite_inputs.fn_part1, Cert.Pre_finite_inputs.fn_part2] at e
  -- the outer conjunction is a chain of seven binary conjunctions of the eight all-quantified facts
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨⟨?_, ?_, ?_, ?_, ?_⟩, ?_, ?_⟩
  · intro s l; exact all_real x1 _ _ _ e1 (ix2 s l)
  · intro o d; exact all_real x2 _ _ _ e2 (ix2 o d)
  · intro l d; exact all_real x3 _ _ _ e3 (ix2 l d)
  · intro d; exact all_real x4 _ _ _ e4 (ix1 d)
  · intro d k; exact all_real x5 _ _ _ e5 (ix2 d k)
  · intro i; exact all_nonneg x0 _ _ _ e7 i
  · intro b g c
    have hc := all_lt_eight _ _ _ _ e8 (ix3 b g c)
    rw [slice_read] at hc
    exact hc

end Cert.PreDecode

end
-- ==== Proof.RefAdj.lean ====
/-
  The reference's adjacency array — ones scattered and added at (graph, target node, source node) — read at an index:
  the count of the target's two edges whose source word is the column.

  The scatter's index tensor has three columns at (graph q, edge e): the graph number q, the target node 2 + e / 2 and
  the edge's source word, each passed through the normalisation "a negative index has the extent added", which is the
  identity on a word that reads non-negative. An update (q', e) lands on element (q, n, m) exactly when q' = q,
  2 + e / 2 = n and the source word of (q', e) is the number m; every update is the number one and every operand
  element zero, so the element is the number of such edges: a sum over the eight edges of graph q.
-/
import proofs.«429420_j32091995636315_2_alg».proof.Proof.Gen.ReferenceIdeal.Read
import proofs.«429420_j32091995636315_2_alg».proof.Proof.Spec
import Idealize.ShloMosaic.Lib.StableHlo.Predicate
import Idealize.ShloMosaic.Lib.IdealHost

noncomputable section

open scoped BigOperators

namespace Cert.ReferenceIdeal.RefAdj

open Cert.ReferenceIdeal Cert.ReferenceIdeal.Gen Cert.ReferenceIdeal.Read Idealize.ShloMosaic Idealize.ShloMosaic.TcCoe Idealize.ShloMosaic.ValueIdx

/-! ## The index tensor, column by column -/

/-- "Add the extent to a negative index" leaves a word that reads non-negative as it is. -/
private theorem wrap_id (x k : BitVec 32) (h : 0 ≤ x.toInt) :
    Scalar.select (IntOp.cmpi .slt x 0#32) (IntOp.addi x k) x = x := by
  unfold Scalar.select
  rw [if_neg]
  intro hc
  have h1 := IntOp.cmpi_slt.1 hc
  have h2 : (0#32 : BitVec 32).toInt = 0 := by decide
  omega

/-- Two plus a number, as words. -/
private theorem two_add_ofNat (k : Nat) : IntOp.addi (2#32) (BitVec.ofNat 32 k) = BitVec.ofNat 32 (2 + k) :=
  (BitVec.ofNat_add 2 k).symm

/-- Column 0 at (q, e): the graph number q (below 2¹⁶, so non-negative as a signed word). -/
private theorem col0 (x0 : IVec S32768x2x2x8 32) (q : Fin 65536) (e : Fin 8) :
    val_main_v32 (F := Ideal) x0 (ix3 q e (0 : Fin 3)) = BitVec.ofNat 32 q.val := by
  unfold val_main_v32
  refine (concatenate_apply_piece (t := S65536x8x3) (2 : Fin 3)
    [⟨S65536x8x1, (val_main_v29 (F := Ideal))⟩, ⟨S65536x8x1, (val_main_v30 (F := Ideal))⟩,
      ⟨S65536x8x1, (val_main_v31 (F := Ideal) x0)⟩]
    concatenates_S65536x8x1_S65536x8x1_S65536x8x1_S65536x8x3_d2 (ix3 q e (0 : Fin 3)) 0 (by simp) S65536x8x1
    (val_main_v29 (F := Ideal)) rfl rfl 0 rfl (ix3 q e (0 : Fin 1)) ?hi rfl).trans ?_
  case hi =>
    intro b hb
    match b with
    | ⟨0, _⟩ => rfl
    | ⟨1, _⟩ => rfl
    | ⟨2, _⟩ => exact absurd rfl hb
  rw [val_main_v29_apply, val_main_v27_apply, val_main_v16_apply, val_main_v13_apply, val_main_v15_apply,
    val_main_v9_apply, val_main_v8_apply, val_main_v12_apply, val_main_c_0_apply]
  refine (wrap_id _ _ ?_).trans rfl
  show 0 ≤ (BitVec.ofNat 32 q.val).toInt
  rw [StableHlo.Predicate.toInt_ofNat_small _ (by have := q.isLt; omega)]
  omega

/-- Column 1 at (q, e): the target node 2 + e / 2 (the numbers 2 … 5, each for two consecutive edges). -/
private theorem col1 (x0 : IVec S32768x2x2x8 32) (q : Fin 65536) (e : Fin 8) :
    val_main_v32 (F := Ideal) x0 (ix3 q e (1 : Fin 3)) = BitVec.ofNat 32 (2 + e.val / 2) := by
  unfold val_main_v32
  refine (concatenate_apply_piece (t := S65536x8x3) (2 : Fin 3)
    [⟨S65536x8x1, (val_main_v29 (F := Ideal))⟩, ⟨S65536x8x1, (val_main_v30 (F := Ideal))⟩,
      ⟨S65536x8x1, (val_main_v31 (F := Ideal) x0)⟩]
    concatenates_S65536x8x1_S65536x8x1_S65536x8x1_S65536x8x3_d2 (ix3 q e (1 : Fin 3)) 1 (by simp) S65536x8x1
    (val_main_v30 (F := Ideal)) rfl rfl 1 rfl (ix3 q e (0 : Fin 1)) ?hi rfl).trans ?_
  case hi =>
    intro b hb
    match b with
    | ⟨0, _⟩ => rfl
    | ⟨1, _⟩ => rfl
    | ⟨2, _⟩ => exact absurd rfl hb
  rw [val_main_v30_apply, val_main_v28_apply, val_main_v21_apply, val_main_v18_apply, val_main_v20_apply,
    val_main_v11_apply, val_main_v7_apply, val_main_v6_apply, val_main_v5_apply, val_main_v4_apply, val_main_c_apply,
    val_main_v3_apply, val_main_v17_apply, val_main_c_2_apply]
  refine (wrap_id _ _ ?_).trans (two_add_ofNat (e.val / 2))
  show 0 ≤ (IntOp.addi (2#32) (BitVec.ofNat 32 (e.val / 2))).toInt
  rw [two_add_ofNat, StableHlo.Predicate.toInt_ofNat_small _ (by have := e.isLt; omega)]
  omega

/-- Column 2 at (q, e): the source word of edge e of graph q = 2 b + g, that is the argument at (q / 2, q % 2, 0, e);
    it reads non-negative by hypothesis. -/
private theorem col2 (x0 : IVec S32768x2x2x8 32) (hA : ∀ i, 0 ≤ (x0 i).toInt) (q : Fin 65536) (e : Fin 8) :
    val_main_v32 (F := Ideal) x0 (ix3 q e (2 : Fin 3))
      = x0 (ix4 (⟨q.val / 2, by have := q.isLt; omega⟩ : Fin 32768) (⟨q.val % 2, Nat.mod_lt _ (by decide)⟩ : Fin 2)
          (0 : Fin 2) e) := by
  unfold val_main_v32
  refine (concatenate_apply_piece (t := S65536x8x3) (2 : Fin 3)
    [⟨S65536x8x1, (val_main_v29 (F := Ideal))⟩, ⟨S65536x8x1, (val_main_v30 (F := Ideal))⟩,
      ⟨S65536x8x1, (val_main_v31 (F := Ideal) x0)⟩]
    concatenates_S65536x8x1_S65536x8x1_S65536x8x1_S65536x8x3_d2 (ix3 q e (2 : Fin 3)) 2 (by simp) S65536x8x1
    (val_main_v31 (F := Ideal) x0) rfl rfl 2 rfl (ix3 q e (0 : Fin 1)) ?hi rfl).trans ?_
  case hi =>
    intro b hb
    match b with
    | ⟨0, _⟩ => rfl
    | ⟨1, _⟩ => rfl
    | ⟨2, _⟩ => exact absurd rfl hb
  rw [val_main_v31_apply, val_main_v26_apply, val_main_v23_apply, val_main_v25_apply,
    val_main_v2_apply, val_main_v1_apply, val_main_v0_apply, val_main_v22_apply, val_main_c_4_apply]
  refine (wrap_id _ _ (hA _)).trans ?_
  have hq := q.isLt
  have he := e.isLt
  refine congrArg x0 (funext fun a => Fin.ext ?_)
  match a with
  | ⟨0, _⟩ =>
    show (((q.val * 8 + e.val) / 16 * 2 + (q.val * 8 + e.val) / 8 % 2) * 8 + (q.val * 8 + e.val) % 8) / 16 = q.val / 2
    omega
  | ⟨1, _⟩ =>
    show (((q.val * 8 + e.val) / 16 * 2 + (q.val * 8 + e.val) / 8 % 2) * 8 + (q.val * 8 + e.val) % 8) / 8 % 2 = q.val % 2
    omega
  | ⟨2, _⟩ => rfl
  | ⟨3, _⟩ =>
    show (((q.val * 8 + e.val) / 16 * 2 + (q.val * 8 + e.val) / 8 % 2) * 8 + (q.val * 8 + e.val) % 8) % 8 = e.val
    omega

/-! ## Where an update lands -/

/-- The scatter's dimension numbers: no window axes, every operand axis inserted and named by the index vector, which
    lies along the last axis of the index tensor. -/
private abbrev dS := scatter_S65536x6x6_S65536x8x3_S65536x8_n_012_012_2

/-- Every operand axis is named by the index vector. -/
private theorem mem_sdto (a : Fin 3) : a ∈ dS.scatterDimsToOperandDims := by
  show a ∈ ([0, 1, 2] : List (Fin 3))
  revert a; decide

/-- Component a of update (q, e)'s start index is read from the index tensor at (q, e, a). -/
private theorem siIdx_eq (q : Fin 65536) (e : Fin 8) (a : Fin 3) :
    dS.siIdx (ix2 q e) ⟨dS.scatterDimsToOperandDims.idxOf a, List.idxOf_lt_length_iff.2 (mem_sdto a)⟩ = ix3 q e a := by
  funext b
  refine Fin.ext ?_
  match a, b with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-- The start on operand axis a: the index tensor's word at (q, e, a), read signed. -/
private theorem start_eq (idx : IVec S65536x8x3 32) (q : Fin 65536) (e : Fin 8) (a : Fin 3) :
    dS.start (ix2 q e) idx a = (idx (ix3 q e a)).toInt := by
  unfold ScatterDims.start
  rw [dif_pos (mem_sdto a), siIdx_eq]

/-- No operand axis is a window axis: the window coordinate is zero everywhere. -/
private theorem window_eq (j : S65536x8.Idx) (a : Fin 3) : dS.window j a = 0 := by
  unfold ScatterDims.window
  rw [dif_neg]
  show ¬ a ∈ (S65536x6x6.kept ([0, 1, 2] : List (Fin 3)))
  revert a; decide

/-- Update (q, e) lands on element i exactly when the three signed words at (q, e, ·) are i's coordinates (a start
    outside the operand lands nowhere, and no coordinate of i is outside). -/
private theorem resultIdx_iff (idx : IVec S65536x8x3 32) (q : Fin 65536) (e : Fin 8) (i : S65536x6x6.Idx) :
    dS.resultIdx? (ix2 q e) idx = some i ↔ ∀ a : Fin 3, (idx (ix3 q e a)).toInt = ((i a).val : Int) := by
  unfold ScatterDims.resultIdx?
  simp only [start_eq, window_eq, Nat.cast_zero, add_zero]
  split
  · rename_i h
    rw [Option.some.injEq]
    constructor
    · intro hi a
      have := congrArg (fun f => ((f a).val : Int)) hi
      simp only at this
      rw [← this]
      exact (Int.toNat_of_nonneg (h a).1).symm
    · intro hi
      funext a
      refine Fin.ext ?_
      show ((idx (ix3 q e a)).toInt).toNat = (i a).val
      rw [hi a]; rfl
  · rename_i h
    constructor
    · intro hn; exact absurd hn (by simp)
    · intro hi
      exfalso; apply h
      intro a
      rw [hi a]
      exact ⟨Int.natCast_nonneg _, by exact_mod_cast (i a).isLt⟩

/-- With the reference's index tensor: update (q', e) lands on (q, n, m) exactly when q' = q, 2 + e / 2 = n and the
    source word of (q', e) is the number m. -/
private theorem hit_iff (x0 : IVec S32768x2x2x8 32) (hA : ∀ i, 0 ≤ (x0 i).toInt) (q' q : Fin 65536) (e : Fin 8)
    (n m : Fin 6) :
    dS.resultIdx? (ix2 q' e) (val_main_v32 (F := Ideal) x0) = some (ix3 q n m)
      ↔ q' = q ∧ 2 + e.val / 2 = n.val ∧ BitVec.ofNat 32 m.val
          = x0 (ix4 (⟨q'.val / 2, by have := q'.isLt; omega⟩ : Fin 32768)
              (⟨q'.val % 2, Nat.mod_lt _ (by decide)⟩ : Fin 2) (0 : Fin 2) e) := by
  have hq' := q'.isLt
  have he := e.isLt
  have hm := m.isLt
  rw [resultIdx_iff]
  constructor
  · intro h
    have h0 := h 0
    have h1 := h 1
    have h2 := h 2
    rw [col0, StableHlo.Predicate.toInt_ofNat_small _ (by omega)] at h0
    rw [col1, StableHlo.Predicate.toInt_ofNat_small _ (by omega)] at h1
    rw [col2 x0 hA] at h2
    refine ⟨Fin.ext ?_, ?_, ?_⟩
    · exact_mod_cast h0
    · exact_mod_cast h1
    · refine BitVec.eq_of_toInt_eq ?_
      rw [StableHlo.Predicate.toInt_ofNat_small _ (by omega)]
      exact h2.symm
  · rintro ⟨rfl, hn, hmv⟩ a
    match a with
    | ⟨0, _⟩ =>
      show (val_main_v32 (F := Ideal) x0 (ix3 q' e (0 : Fin 3))).toInt = ((q'.val : Nat) : Int)
      rw [col0, StableHlo.Predicate.toInt_ofNat_small _ (by omega)]
    | ⟨1, _⟩ =>
      show (val_main_v32 (F := Ideal) x0 (ix3 q' e (1 : Fin 3))).toInt = ((n.val : Nat) : Int)
      rw [col1, StableHlo.Predicate.toInt_ofNat_small _ (by omega), hn]
    | ⟨2, _⟩ =>
      show (val_main_v32 (F := Ideal) x0 (ix3 q' e (2 : Fin 3))).toInt = ((m.val : Nat) : Int)
      rw [col2 x0 hA, ← hmv, StableHlo.Predicate.toInt_ofNat_small _ (by omega)]

/-! ## The scattered sum -/

/-- An element of the scatter-add of ones into zeros: the number of updates that land on it, as a sum of indicators. -/
private theorem v34_sum (x0 : IVec S32768x2x2x8 32) (i : S65536x6x6.Idx) :
    val_main_v34 (F := Ideal) x0 i
      = ∑ j : S65536x8.Idx, if dS.resultIdx? j (val_main_v32 (F := Ideal) x0) = some i then (1 : EReal) else 0 := by
  show Ideal.hostScatterAdd dS (val_main_v10 (F := Ideal)) (val_main_v32 (F := Ideal) x0) (val_main_v33 (F := Ideal)) i = _
  unfold Ideal.hostScatterAdd
  rw [val_main_v10_apply, val_main_cst_apply]
  simp only [val_main_v33_apply, val_main_cst_6_apply]
  rw [Ideal.ofBits_def, Ideal.ofBits_def, Ideal.ofBits_zero_f32, Ideal.ofBits_one_f32, zero_add, Finset.sum_filter]

/-- The count over a graph's eight edges of those entering node n from the node numbered m is the adjacency count:
    nodes 0 and 1 have no entering edge, node 2 + i has the edges 2 i and 2 i + 1. -/
private theorem count_eq (pv : Fin 8 → BitVec 32) (n m : Fin 6) :
    (∑ e : Fin 8, if (2 + e.val / 2 = n.val ∧ BitVec.ofNat 32 m.val = pv e) then (1 : EReal) else 0)
      = Cert.Gcn.adj pv n m := by
  rw [Fin.sum_univ_eight]
  unfold Cert.Gcn.adj Cert.Gcn.coef Cert.Gcn.hot
  match n with
  | ⟨0, _⟩ => simp
  | ⟨1, _⟩ => simp
  | ⟨2, _⟩ => simp
  | ⟨3, _⟩ => simp
  | ⟨4, _⟩ => simp
  | ⟨5, _⟩ => simp

/-- Element (2 b + g, n, m) of the scattered array: only graph 2 b + g's own updates can land there (the sum over the
    other graphs vanishes), and its eight edges count as above. -/
private theorem v34_apply (x0 : IVec S32768x2x2x8 32) (hA : ∀ i, 0 ≤ (x0 i).toInt) (b : Fin 32768) (g : Fin 2)
    (n m : Fin 6) :
    val_main_v34 (F := Ideal) x0
        (ix3 (⟨b.val * 2 + g.val, by have := b.isLt; have := g.isLt; omega⟩ : Fin 65536) n m)
      = Cert.Gcn.adj (Cert.Gcn.pvOf x0 b g) n m := by
  have hb := b.isLt
  have hg := g.isLt
  rw [v34_sum, sum_idx2,
    Finset.sum_eq_single (⟨b.val * 2 + g.val, by omega⟩ : Fin 65536)]
  · rw [← count_eq]
    refine Finset.sum_congr rfl fun e _ => ?_
    refine if_congr ((hit_iff x0 hA _ _ e n m).trans ?_) rfl rfl
    have hx : x0 (ix4 (⟨(b.val * 2 + g.val) / 2, by omega⟩ : Fin 32768)
        (⟨(b.val * 2 + g.val) % 2, Nat.mod_lt _ (by decide)⟩ : Fin 2) (0 : Fin 2) e) = Cert.Gcn.pvOf x0 b g e := by
      unfold Cert.Gcn.pvOf
      have e1 : (⟨(b.val * 2 + g.val) / 2, by omega⟩ : Fin 32768) = b :=
        Fin.ext (by show (b.val * 2 + g.val) / 2 = b.val; omega)
      have e2 : (⟨(b.val * 2 + g.val) % 2, Nat.mod_lt _ (by decide)⟩ : Fin 2) = g :=
        Fin.ext (by show (b.val * 2 + g.val) % 2 = g.val; omega)
      rw [e1, e2]
    rw [hx]
    exact ⟨fun h => ⟨h.2.1, h.2.2⟩, fun h => ⟨rfl, h.1, h.2⟩⟩
  · intro q' _ hne
    refine Finset.sum_eq_zero fun e _ => ?_
    rw [if_neg]
    intro h
    exact hne ((hit_iff x0 hA _ _ e n m).1 h).1
  · intro h
    exact absurd (Finset.mem_univ _) h

/-- Entry (b, g, n, m) of the adjacency array, for source words that are not negative. -/
theorem adj_apply (x0 : IVec S32768x2x2x8 32) (hA : ∀ i, 0 ≤ (x0 i).toInt) (b : Fin 32768) (g : Fin 2) (n m : Fin 6) :
    val_main_v35 (F := Ideal) x0 (ix4 b g n m) = Cert.Gcn.adj (Cert.Gcn.pvOf x0 b g) n m := by
  have hb := b.isLt
  have hg := g.isLt
  have hn := n.isLt
  have hm := m.isLt
  -- the reshape: row-major position ((2 b + g) · 6 + n) · 6 + m of both shapes
  rw [val_main_v35_apply, ← v34_apply x0 hA b g n m]
  refine congrArg (val_main_v34 (F := Ideal) x0) (funext fun a => Fin.ext ?_)
  match a with
  | ⟨0, _⟩ =>
    show (((b.val * 2 + g.val) * 6 + n.val) * 6 + m.val) / 36 = b.val * 2 + g.val
    omega
  | ⟨1, _⟩ =>
    show (((b.val * 2 + g.val) * 6 + n.val) * 6 + m.val) / 6 % 6 = n.val
    omega
  | ⟨2, _⟩ =>
    show (((b.val * 2 + g.val) * 6 + n.val) * 6 + m.val) % 6 = m.val
    omega

end Cert.ReferenceIdeal.RefAdj

end
-- ==== Proof.RefEmb.lean ====
/-
  The reference's node embeddings — the initial rows broadcast, the operation rows gathered and laid side by side —
  read at an index.
-/
import proofs.«429420_j32091995636315_2_alg».proof.Proof.Gen.ReferenceIdeal.Read
import proofs.«429420_j32091995636315_2_alg».proof.Proof.Spec

noncomputable section

open scoped BigOperators

namespace Cert.ReferenceIdeal.RefEmb

open Cert.ReferenceIdeal Cert.ReferenceIdeal.Gen Cert.ReferenceIdeal.Read Idealize.ShloMosaic Idealize.ShloMosaic.TcCoe Idealize.ShloMosaic.ValueIdx

/-- Adding the table height to a negative index and keeping the others leaves a non-negative word alone. -/
private theorem wrap_nonneg (v : BitVec 32) (h : 0 ≤ v.toInt) :
    Scalar.select (IntOp.cmpi .slt v 0#32) (IntOp.addi v 8#32) v = v := by
  have hc : ¬ IntOp.cmpi .slt v 0#32 = 1#1 := by
    rw [IntOp.cmpi_slt]
    have h0 : (0#32 : BitVec 32).toInt = 0 := by decide
    rw [h0]; omega
  rw [eq_zero_of_ne_one hc, select_zero]

/-- The gather's start index at (b, g, e) is the operation word of edge e. -/
private theorem start_apply (x0 : IVec S32768x2x2x8 32) (hA : ∀ i, 0 ≤ (x0 i).toInt)
    (b : Fin 32768) (g : Fin 2) (e : Fin 8) (z : Fin 1) :
    val_main_v43 (F := Ideal) x0 (ix4 b g e z) = x0 (ix4 b g (1 : Fin 2) e) := by
  have h37 : val_main_v37 (F := Ideal) x0 (ix3 b g e) = x0 (ix4 b g (1 : Fin 2) e) := by
    rw [val_main_v37_apply, val_main_v36_apply]
    congr 1
    funext a
    have hb := b.isLt; have hg := g.isLt; have he := e.isLt
    match a with
    | ⟨0, _⟩ => exact Fin.ext (by show ((b.val * 2 + g.val) * 8 + e.val) / 16 = b.val; omega)
    | ⟨1, _⟩ => exact Fin.ext (by show ((b.val * 2 + g.val) * 8 + e.val) / 8 % 2 = g.val; omega)
    | ⟨2, _⟩ => exact Fin.ext (by show 1 + 0 = 1; rfl)
    | ⟨3, _⟩ => exact Fin.ext (by show ((b.val * 2 + g.val) * 8 + e.val) % 8 = e.val; omega)
  rw [val_main_v43_apply]
  have hi : idx_main_v43 (ix4 b g e z) = ix3 b g e := by
    funext a
    match a with
    | ⟨0, _⟩ => rfl
    | ⟨1, _⟩ => rfl
    | ⟨2, _⟩ => rfl
  rw [hi, val_main_v42_apply, val_main_v39_apply, val_main_v41_apply, val_main_v38_apply, val_main_v40_apply,
    val_main_c_7_apply, val_main_c_8_apply, h37]
  exact wrap_nonneg _ (hA _)

/-- The gather read at (b, g, e, d): row (start index at (b, g, e), signed and clamped to [0, 7]) of the table, column d. -/
private theorem gather_apply (x2 : FVec Ideal S8x48 .f32) (idx : IVec S32768x2x8x1 32)
    (b : Fin 32768) (g : Fin 2) (e : Fin 8) (d : Fin 48) :
    Host.gather gather_S8x48_S32768x2x8x1_S32768x2x8x48_3_0_n_n_0_3_148 x2 idx (ix4 b g e d)
      = x2 (ix2 ⟨min (idx (ix4 b g e (0 : Fin 1))).toInt.toNat 7, by omega⟩ d) := by
  unfold Host.gather
  congr 1
  funext a
  refine Fin.ext ?_
  match a with
  | ⟨0, _⟩ =>
    show gather_S8x48_S32768x2x8x1_S32768x2x8x48_3_0_n_n_0_3_148.start (ix4 b g e d) idx 0
        + gather_S8x48_S32768x2x8x1_S32768x2x8x48_3_0_n_n_0_3_148.batchCoord (ix4 b g e d) 0
        + gather_S8x48_S32768x2x8x1_S32768x2x8x48_3_0_n_n_0_3_148.offCoord (ix4 b g e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x48_S32768x2x8x1_S32768x2x8x48_3_0_n_n_0_3_148.startIndexMap from List.mem_singleton.mpr rfl)]
    have hsi : gather_S8x48_S32768x2x8x1_S32768x2x8x48_3_0_n_n_0_3_148.siIdx (ix4 b g e d)
        ⟨List.idxOf (0 : Fin 2) gather_S8x48_S32768x2x8x1_S32768x2x8x48_3_0_n_n_0_3_148.startIndexMap,
          List.idxOf_lt_length_iff.2 (List.mem_singleton.mpr rfl)⟩ = ix4 b g e (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S8x48_S32768x2x8x1_S32768x2x8x48_3_0_n_n_0_3_148.start (ix4 b g e d) idx 1
        + gather_S8x48_S32768x2x8x1_S32768x2x8x48_3_0_n_n_0_3_148.batchCoord (ix4 b g e d) 1
        + gather_S8x48_S32768x2x8x1_S32768x2x8x48_3_0_n_n_0_3_148.offCoord (ix4 b g e d) 1 = d.val
    rw [GatherDims.batchCoord_eq_zero _ _ _ List.not_mem_nil]
    unfold GatherDims.start
    rw [dif_neg (show ¬ (1 : Fin 2) ∈ gather_S8x48_S32768x2x8x1_S32768x2x8x48_3_0_n_n_0_3_148.startIndexMap by decide)]
    unfold GatherDims.offCoord
    rw [dif_pos (show (1 : Fin 2) ∈ gather_S8x48_S32768x2x8x1_S32768x2x8x48_3_0_n_n_0_3_148.sKept by decide)]
    simp only [Nat.zero_add]
    rfl

/-- A word in [0, 8), read signed and clamped to [0, 7], is its value, which is its residue mod 8. -/
private theorem clamp_opRow (w : BitVec 32) (h0 : 0 ≤ w.toInt) (h8 : w.toInt < 8) :
    min w.toInt.toNat 7 = w.toNat % 8 := by
  have hc := BitVec.toInt_eq_toNat_cond w
  have hlt := w.isLt
  split at hc <;> omega

/-- The gathered array at (b, g, e, d): row (operation word of edge e) of the table, column d. -/
private theorem gather44_apply (x0 : IVec S32768x2x2x8 32) (x2 : FVec Ideal S8x48 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (e : Fin 8) (d : Fin 48) :
    val_main_v44 (F := Ideal) x0 x2 (ix4 b g e d) = x2 (ix2 (Cert.Gcn.opRow (x0 (ix4 b g (1 : Fin 2) e))) d) := by
  unfold val_main_v44
  rw [gather_apply]
  refine congrArg (fun r : Fin 8 => x2 (ix2 r d)) (Fin.ext ?_)
  show min (val_main_v43 (F := Ideal) x0 (ix4 b g e (0 : Fin 1))).toInt.toNat 7 = (x0 (ix4 b g (1 : Fin 2) e)).toNat % 8
  rw [start_apply x0 hA]
  exact clamp_opRow _ (hA _) (hop _ _ _)

/-- The reshaped gather at (b, g, i, l): row (operation word of edge 2 i + l / 48) of the table, column l % 48. -/
private theorem gathered_apply (x0 : IVec S32768x2x2x8 32) (x2 : FVec Ideal S8x48 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (i : Fin 4) (l : Fin 96) :
    val_main_v45 (F := Ideal) x0 x2 (ix4 b g i l)
      = x2 (ix2 (Cert.Gcn.opRow (x0 (ix4 b g (1 : Fin 2) ⟨2 * i.val + l.val / 48, by have := i.isLt; have := l.isLt; omega⟩)))
          ⟨l.val % 48, Nat.mod_lt _ (by decide)⟩) := by
  have hi : idx_main_v45 (ix4 b g i l)
      = ix4 b g (⟨2 * i.val + l.val / 48, by have := i.isLt; have := l.isLt; omega⟩ : Fin 8)
          (⟨l.val % 48, Nat.mod_lt _ (by decide)⟩ : Fin 48) := by
    funext a
    have hb := b.isLt; have hg := g.isLt; have hi := i.isLt; have hl := l.isLt
    match a with
    | ⟨0, _⟩ => exact Fin.ext (by show (((b.val * 2 + g.val) * 4 + i.val) * 96 + l.val) / 768 = b.val; omega)
    | ⟨1, _⟩ => exact Fin.ext (by show (((b.val * 2 + g.val) * 4 + i.val) * 96 + l.val) / 384 % 2 = g.val; omega)
    | ⟨2, _⟩ => exact Fin.ext (by show (((b.val * 2 + g.val) * 4 + i.val) * 96 + l.val) / 48 % 8 = 2 * i.val + l.val / 48; omega)
    | ⟨3, _⟩ => exact Fin.ext (by show (((b.val * 2 + g.val) * 4 + i.val) * 96 + l.val) % 48 = l.val % 48; omega)
  rw [val_main_v45_apply, hi, gather44_apply x0 x2 hA hop]

/-- Entry (b, g, n, l) of the node-embedding array, for operation words in [0, 8). -/
theorem emb_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (l : Fin 96) :
    val_main_v48 (F := Ideal) x0 x1 x2 (ix4 b g n l)
      = Cert.Gcn.nodeEmb (Cert.Gcn.wtsOf x1 x2 x3 x4 x5 x6) (Cert.Gcn.ovOf x0 b g) n l := by
  unfold val_main_v48 Cert.Gcn.nodeEmb
  by_cases h : n.val < 2
  · rw [dif_pos h]
    refine (concatenate_pair_apply_left (t := S32768x2x6x96) (s₁ := S32768x2x2x96) (s₂ := S32768x2x4x96)
      (2 : Fin 4) _ _ _ (ix4 b g n l) rfl (ix4 b g (⟨n.val, h⟩ : Fin 2) l)
      (fun a => match a with
        | ⟨0, _⟩ => rfl
        | ⟨1, _⟩ => rfl
        | ⟨2, _⟩ => rfl
        | ⟨3, _⟩ => rfl)).trans ?_
    rw [val_main_v47_apply, val_main_v46_apply]
    show x1 _ = x1 (ix2 (⟨n.val, h⟩ : Fin 2) l)
    congr 1
    funext a
    match a with
    | ⟨0, _⟩ => rfl
    | ⟨1, _⟩ => rfl
  · rw [dif_neg h]
    have hn := n.isLt
    refine (concatenate_pair_apply_right (t := S32768x2x6x96) (s₁ := S32768x2x2x96) (s₂ := S32768x2x4x96)
      (2 : Fin 4) _ _ _ (ix4 b g n l) rfl rfl
      (ix4 b g (⟨n.val - 2, by omega⟩ : Fin 4) l)
      (fun a => match a with
        | ⟨0, _⟩ => fun _ => rfl
        | ⟨1, _⟩ => fun _ => rfl
        | ⟨2, _⟩ => fun hne => absurd rfl hne
        | ⟨3, _⟩ => fun _ => rfl)
      (by show n.val - 2 + 2 = n.val; omega)).trans ?_
    rw [gathered_apply x0 x2 hA hop]
    rfl

end Cert.ReferenceIdeal.RefEmb

end
-- ==== Proof.RefValue.lean ====
/-
  The reference's result array is `GR`: its operations read one at a time at an index, down to the adjacency and the
  node embeddings.
-/
import proofs.«429420_j32091995636315_2_alg».proof.Proof.RefAdj
import proofs.«429420_j32091995636315_2_alg».proof.Proof.RefEmb

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The hidden projection at (b, g, n, d): the node's embedding row times the projection's column d, plus the bias. -/
private theorem y0_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (d : Fin 48) :
    val_main_v52 (F := Ideal) x0 x1 x2 x3 x4 (ix4 b g n d)
      = Cert.Gcn.y0 (Cert.Gcn.wtsOf x1 x2 x3 x4 x5 x6) (Cert.Gcn.ovOf x0 b g) n d := by
  rw [val_main_v52_apply, val_main_v49_apply, val_main_v51_apply, val_main_v50_apply, Ideal.addf_def]
  unfold Cert.Gcn.y0
  congr 1
  · refine Finset.sum_congr rfl fun k _ => ?_
    have hl : lidx_main_v49 (ix4 b g n d) k = ix4 b g n k := by funext a; match a with | ⟨0, _⟩ => rfl | ⟨1, _⟩ => rfl | ⟨2, _⟩ => rfl | ⟨3, _⟩ => rfl
    have hr : ridx_main_v49 (ix4 b g n d) k = ix2 k d := by funext a; match a with | ⟨0, _⟩ => rfl | ⟨1, _⟩ => rfl
    rw [hl, hr, RefEmb.emb_apply x0 x1 x2 x3 x4 x5 x6 hA hop]
    rfl
  · show x4 _ = x4 (ix1 d)
    congr 1
    funext a; match a with | ⟨0, _⟩ => rfl

/-- The first layer before the adjacency at (b, g, n, k): the hidden row times the first weight's column k. -/
private theorem z1_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (k : Fin 128) :
    val_main_v53 (F := Ideal) x0 x1 x2 x3 x4 x5 (ix4 b g n k)
      = Cert.Gcn.z1 (Cert.Gcn.wtsOf x1 x2 x3 x4 x5 x6) (Cert.Gcn.ovOf x0 b g) n k := by
  rw [val_main_v53_apply]
  unfold Cert.Gcn.z1
  refine Finset.sum_congr rfl fun d _ => ?_
  have hl : lidx_main_v53 (ix4 b g n k) d = ix4 b g n d := by funext a; match a with | ⟨0, _⟩ => rfl | ⟨1, _⟩ => rfl | ⟨2, _⟩ => rfl | ⟨3, _⟩ => rfl
  have hr : ridx_main_v53 (ix4 b g n k) d = ix2 d k := by funext a; match a with | ⟨0, _⟩ => rfl | ⟨1, _⟩ => rfl
  rw [hl, hr, y0_apply x0 x1 x2 x3 x4 x5 x6 hA hop]
  rfl

/-- The first layer at (b, g, n, k): the adjacency row n against the column of first-layer rows. -/
private theorem y1_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (k : Fin 128) :
    val_main_v54 (F := Ideal) x0 x1 x2 x3 x4 x5 (ix4 b g n k)
      = Cert.Gcn.y1 (Cert.Gcn.wtsOf x1 x2 x3 x4 x5 x6) (Cert.Gcn.pvOf x0 b g) (Cert.Gcn.ovOf x0 b g) n k := by
  rw [val_main_v54_apply]
  unfold Cert.Gcn.y1
  refine Finset.sum_congr rfl fun m _ => ?_
  have hl : lidx_main_v54 (ix4 b g n k) m = ix4 b g n m := by funext a; match a with | ⟨0, _⟩ => rfl | ⟨1, _⟩ => rfl | ⟨2, _⟩ => rfl | ⟨3, _⟩ => rfl
  have hr : ridx_main_v54 (ix4 b g n k) m = ix4 b g m k := by funext a; match a with | ⟨0, _⟩ => rfl | ⟨1, _⟩ => rfl | ⟨2, _⟩ => rfl | ⟨3, _⟩ => rfl
  rw [hl, hr, RefAdj.adj_apply x0 hA, z1_apply x0 x1 x2 x3 x4 x5 x6 hA hop]

/-- The rectified first layer at (b, g, n, k): the maximum with zero. -/
private theorem r1_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (k : Fin 128) :
    val_main_v55 (F := Ideal) x0 x1 x2 x3 x4 x5 (ix4 b g n k)
      = Cert.Gcn.r1 (Cert.Gcn.wtsOf x1 x2 x3 x4 x5 x6) (Cert.Gcn.pvOf x0 b g) (Cert.Gcn.ovOf x0 b g) n k := by
  rw [val_main_v55_apply, val_main_call0_v0_apply, val_main_call0_cst_apply, Ideal.maximumf_def, Ideal.ofBits_def,
    Ideal.ofBits_zero_f32, y1_apply x0 x1 x2 x3 x4 x5 x6 hA hop]
  rfl

/-- The second layer before the adjacency at (b, g, n, f): the rectified row times the second weight's column f. -/
private theorem z2_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (f : Fin 128) :
    val_main_v56 (F := Ideal) x0 x1 x2 x3 x4 x5 x6 (ix4 b g n f)
      = Cert.Gcn.z2 (Cert.Gcn.wtsOf x1 x2 x3 x4 x5 x6) (Cert.Gcn.pvOf x0 b g) (Cert.Gcn.ovOf x0 b g) n f := by
  rw [val_main_v56_apply]
  unfold Cert.Gcn.z2
  refine Finset.sum_congr rfl fun k _ => ?_
  have hl : lidx_main_v56 (ix4 b g n f) k = ix4 b g n k := by funext a; match a with | ⟨0, _⟩ => rfl | ⟨1, _⟩ => rfl | ⟨2, _⟩ => rfl | ⟨3, _⟩ => rfl
  have hr : ridx_main_v56 (ix4 b g n f) k = ix2 k f := by funext a; match a with | ⟨0, _⟩ => rfl | ⟨1, _⟩ => rfl
  rw [hl, hr, r1_apply x0 x1 x2 x3 x4 x5 x6 hA hop]
  rfl

/-- The second layer at (b, g, n, f): the adjacency row n against the column of second-layer rows. -/
private theorem y2_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (n : Fin 6) (f : Fin 128) :
    val_main_v57 (F := Ideal) x0 x1 x2 x3 x4 x5 x6 (ix4 b g n f)
      = Cert.Gcn.y2 (Cert.Gcn.wtsOf x1 x2 x3 x4 x5 x6) (Cert.Gcn.pvOf x0 b g) (Cert.Gcn.ovOf x0 b g) n f := by
  rw [val_main_v57_apply]
  unfold Cert.Gcn.y2
  refine Finset.sum_congr rfl fun m _ => ?_
  have hl : lidx_main_v57 (ix4 b g n f) m = ix4 b g n m := by funext a; match a with | ⟨0, _⟩ => rfl | ⟨1, _⟩ => rfl | ⟨2, _⟩ => rfl | ⟨3, _⟩ => rfl
  have hr : ridx_main_v57 (ix4 b g n f) m = ix4 b g m f := by funext a; match a with | ⟨0, _⟩ => rfl | ⟨1, _⟩ => rfl | ⟨2, _⟩ => rfl | ⟨3, _⟩ => rfl
  rw [hl, hr, RefAdj.adj_apply x0 hA, z2_apply x0 x1 x2 x3 x4 x5 x6 hA hop]

/-- The pattern 0x40800000 is the number four. -/
private theorem ofBits_four : Ideal.ofBits .f32 0x40800000#32 = ((4 : ℝ) : EReal) := by
  simp [Ideal.ofBits, Ideal.ieee]
  rw [← EReal.coe_mul]
  norm_num

/-- The graph's output row at (b, g, f): the sum of the four intermediate nodes' second-layer rows, divided by four. -/
private theorem out_apply (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8)
    (b : Fin 32768) (g : Fin 2) (f : Fin 128) :
    val_main_v61 (F := Ideal) x0 x1 x2 x3 x4 x5 x6 (ix3 b g f)
      = Cert.Gcn.rOut (Cert.Gcn.wtsOf x1 x2 x3 x4 x5 x6) (Cert.Gcn.pvOf x0 b g) (Cert.Gcn.ovOf x0 b g) f := by
  rw [val_main_v61_apply, val_main_v60_apply, val_main_cst_10_apply, val_main_v59_apply, val_main_cst_9_apply,
    Ideal.hostDivf_def, Ideal.ofBits_def, Ideal.ofBits_def, Ideal.ofBits_zero_f32, ofBits_four,
    Ideal.div_coe (by norm_num : (4 : ℝ) ≠ 0)]
  unfold Cert.Gcn.rOut Cert.Gcn.quarter
  refine congrArg (fun s : EReal => (0 + s) * ((1 / 4 : ℝ) : EReal)) (Finset.sum_congr rfl fun k _ => ?_)
  rw [val_main_v58_apply]
  have hi : idx_main_v58 (idx_main_v59 (ix3 b g f) k) = ix4 b g (⟨k.val + 2, by have := k.isLt; omega⟩ : Fin 6) f := by
    funext a
    match a with
    | ⟨0, _⟩ => rfl
    | ⟨1, _⟩ => rfl
    | ⟨2, _⟩ => exact Fin.ext (Nat.add_comm 2 k.val)
    | ⟨3, _⟩ => rfl
  rw [hi, y2_apply x0 x1 x2 x3 x4 x5 x6 hA hop]

/-- The reference's result, as one function of the argument arrays. -/
theorem val_eq (x0 : IVec S32768x2x2x8 32) (x1 : FVec Ideal S2x96 .f32) (x2 : FVec Ideal S8x48 .f32)
    (x3 : FVec Ideal S96x48 .f32) (x4 : FVec Ideal S48 .f32) (x5 : FVec Ideal S48x128 .f32) (x6 : FVec Ideal S128x128 .f32)
    (hA : ∀ i, 0 ≤ (x0 i).toInt)
    (hop : ∀ (b : Fin 32768) (g : Fin 2) (e : Fin 8), (x0 (ix4 b g (1 : Fin 2) e)).toInt < 8) :
    val_main_v62 (F := Ideal) x0 x1 x2 x3 x4 x5 x6 = Cert.Gcn.GR x0 (Cert.Gcn.wtsOf x1 x2 x3 x4 x5 x6) := by
  funext i
  rw [val_main_v62_apply]
  have hi : idx_main_v62 i = ix3 (Cert.Gcn.outB i) (Cert.Gcn.outG i) (Cert.Gcn.outF i) := by
    funext a
    have h0 : (i 0).val < 32768 := (i 0).isLt
    have h1 : (i 1).val < 256 := (i 1).isLt
    match a with
    | ⟨0, _⟩ => exact Fin.ext (by show ((i 0).val * 256 + (i 1).val) / 256 = (i 0).val; omega)
    | ⟨1, _⟩ => exact Fin.ext (by show ((i 0).val * 256 + (i 1).val) / 128 % 2 = (i 1).val / 128; omega)
    | ⟨2, _⟩ => exact Fin.ext (by show ((i 0).val * 256 + (i 1).val) % 128 = (i 1).val % 128; omega)
  rw [hi, out_apply x0 x1 x2 x3 x4 x5 x6 hA hop]
  rfl

end Cert.ReferenceIdeal.RefValue

end
-- ==== Proof.KHost.lean ====
/-
  The arrays the kernel region finds: the host operations before it slice and reshape the architecture array into the
  source-node and operation words per graph, multiply the two projections into one, project the initial nodes, and lay
  the operation table out block-diagonally; a change of float format is the identity.
-/
import proofs.«429420_j32091995636315_2_alg».proof.Proof.Gen.KernelIdeal.Frame
import proofs.«429420_j32091995636315_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.KHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The float arguments of device `c`, by coordinates. -/
abbrev wts (c : Dev nD) : Cert.Gcn.Wts :=
  Cert.Gcn.wtsOf (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

/-- A slice of width one along the third axis, flattened to graphs by edges, read at graph `q`, edge `e`. -/
private theorem slice_flat_apply (x : S32768x2x2x8.Idx → BitVec 32) (o : Fin 2)
    (hs : S32768x2x2x8.Slices ![0, 0, o.val, 0] S32768x2x1x8)
    (h1 : S32768x2x1x8.ShapeCasts S32768x2x8) (h2 : S32768x2x8.ShapeCasts S65536x8) (q : Fin 65536) (e : Fin 8) :
    shapeCast S65536x8 (shapeCast S32768x2x8 (extractStridedSlice S32768x2x1x8 ![0, 0, o.val, 0] x hs) h1) h2 (ix2 q e)
      = x (ix4 (⟨q.val / 2, by have := q.isLt; omega⟩ : Fin 32768) (⟨q.val % 2, Nat.mod_lt _ (by decide)⟩ : Fin 2) o e) := by
  have hq := q.isLt
  have he := e.isLt
  refine (shapeCast_apply _ h2 (ix2 q e)
    (ix3 (⟨q.val / 2, by omega⟩ : Fin 32768) (⟨q.val % 2, Nat.mod_lt _ (by decide)⟩ : Fin 2) e) ?_).trans ?_
  · rw [Shape.rowMajor_val_three, Shape.rowMajor_val_two]
    show (q.val / 2 * 2 + q.val % 2) * 8 + e.val = q.val * 8 + e.val
    omega
  refine (shapeCast_apply _ h1 _
    (ix4 (⟨q.val / 2, by omega⟩ : Fin 32768) (⟨q.val % 2, Nat.mod_lt _ (by decide)⟩ : Fin 2) (0 : Fin 1) e) ?_).trans ?_
  · rw [Shape.rowMajor_val_four, Shape.rowMajor_val_three]
    show ((q.val / 2 * 2 + q.val % 2) * 1 + 0) * 8 + e.val = (q.val / 2 * 2 + q.val % 2) * 8 + e.val
    omega
  refine extractStridedSlice_apply _ x hs _ _ fun a => ?_
  match a with
  | ⟨0, _⟩ => show q.val / 2 = 0 + q.val / 2; omega
  | ⟨1, _⟩ => show q.val % 2 = 0 + q.val % 2; omega
  | ⟨2, _⟩ => show o.val = o.val + 0; omega
  | ⟨3, _⟩ => show e.val = 0 + e.val; omega

/-- A host `dot_general` with one contracting axis of extent `K`, read at an output index, is the sum over `Fin K` of
    the operands' products, once the operand indices at contraction coordinate `k` are known to be `L k` and `R k`. -/
private theorem dot_single_apply {sl sr so : Shape} (D : DotDims sl sr so) (K : Nat) (hr : D.contr.rank = 1)
    (hs : D.contr.size ⟨0, by omega⟩ = K) (x : FVec Ideal sl .f32) (y : FVec Ideal sr .f32) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    Host.dotGeneral (F := Ideal) D none x y j = ∑ k : Fin K, x (L k) * y (R k) := by
  simp only [Host.dotGeneral]
  rw [Ideal.dotGeneral_apply, ← Equiv.sum_comp (contrEquiv1 D K hr hs).symm]
  refine Finset.sum_congr rfl fun k _ => ?_
  have hk := contrEquiv1_symm_val D K hr hs k
  rw [hL k _ hk, hR k _ hk]

/-- The 96×48 by 48×128 product at row `i`, column `j`: a sum over the forty-eight shared coordinates. -/
private theorem dotA_apply (x : FVec Ideal S96x48 .f32) (y : FVec Ideal S48x128 .f32) (i : Fin 96) (j : Fin 128) :
    Host.dotGeneral (F := Ideal) dot_S96x48_S48x128_S96x128_1_0_0_1_n_n none x y (ix2 i j)
      = ∑ d : Fin 48, x (ix2 i d) * y (ix2 d j) := by
  refine dot_single_apply dot_S96x48_S48x128_S96x128_1_0_0_1_n_n 48 rfl rfl x y _ (fun d => ix2 i d) (fun d => ix2 d j)
    (fun d q hq => funext fun a => Fin.ext ?_) (fun d q hq => funext fun a => Fin.ext ?_)
  · have h0 : (dot_S96x48_S48x128_S96x128_1_0_0_1_n_n.lhsIdx (ix2 i j) q 0).val = i.val := by
      unfold DotDims.lhsIdx
      rw [dif_neg (show ¬(0 : Fin S96x48.rank) ∈ dot_S96x48_S48x128_S96x128_1_0_0_1_n_n.lhsBatch by decide),
        dif_pos (show (0 : Fin S96x48.rank) ∈ dot_S96x48_S48x128_S96x128_1_0_0_1_n_n.lhsNonContracting by decide)]
      rfl
    match a with
    | ⟨0, _⟩ => exact h0
    | ⟨1, _⟩ => exact (dot_S96x48_S48x128_S96x128_1_0_0_1_n_n.lhsIdx_val_of_single rfl _ q).trans hq
  · have h1 : (dot_S96x48_S48x128_S96x128_1_0_0_1_n_n.rhsIdx (ix2 i j) q 1).val = j.val := by
      unfold DotDims.rhsIdx
      rw [dif_neg (show ¬(1 : Fin S48x128.rank) ∈ dot_S96x48_S48x128_S96x128_1_0_0_1_n_n.rhsBatch by decide),
        dif_pos (show (1 : Fin S48x128.rank) ∈ dot_S96x48_S48x128_S96x128_1_0_0_1_n_n.rhsNonContracting by decide)]
      rfl
    match a with
    | ⟨0, _⟩ => exact (dot_S96x48_S48x128_S96x128_1_0_0_1_n_n.rhsIdx_val_of_single rfl _ q).trans hq
    | ⟨1, _⟩ => exact h1

/-- The 1×48 by 48×128 product at row `i`, column `j`: a sum over the forty-eight shared coordinates. -/
private theorem dotB_apply (x : FVec Ideal S1x48 .f32) (y : FVec Ideal S48x128 .f32) (i : Fin 1) (j : Fin 128) :
    Host.dotGeneral (F := Ideal) dot_S1x48_S48x128_S1x128_1_0_0_1_n_n none x y (ix2 i j)
      = ∑ d : Fin 48, x (ix2 i d) * y (ix2 d j) := by
  refine dot_single_apply dot_S1x48_S48x128_S1x128_1_0_0_1_n_n 48 rfl rfl x y _ (fun d => ix2 i d) (fun d => ix2 d j)
    (fun d q hq => funext fun a => Fin.ext ?_) (fun d q hq => funext fun a => Fin.ext ?_)
  · have h0 : (dot_S1x48_S48x128_S1x128_1_0_0_1_n_n.lhsIdx (ix2 i j) q 0).val = i.val := by
      unfold DotDims.lhsIdx
      rw [dif_neg (show ¬(0 : Fin S1x48.rank) ∈ dot_S1x48_S48x128_S1x128_1_0_0_1_n_n.lhsBatch by decide),
        dif_pos (show (0 : Fin S1x48.rank) ∈ dot_S1x48_S48x128_S1x128_1_0_0_1_n_n.lhsNonContracting by decide)]
      rfl
    match a with
    | ⟨0, _⟩ => exact h0
    | ⟨1, _⟩ => exact (dot_S1x48_S48x128_S1x128_1_0_0_1_n_n.lhsIdx_val_of_single rfl _ q).trans hq
  · have h1 : (dot_S1x48_S48x128_S1x128_1_0_0_1_n_n.rhsIdx (ix2 i j) q 1).val = j.val := by
      unfold DotDims.rhsIdx
      rw [dif_neg (show ¬(1 : Fin S48x128.rank) ∈ dot_S1x48_S48x128_S1x128_1_0_0_1_n_n.rhsBatch by decide),
        dif_pos (show (1 : Fin S48x128.rank) ∈ dot_S1x48_S48x128_S1x128_1_0_0_1_n_n.rhsNonContracting by decide)]
      rfl
    match a with
    | ⟨0, _⟩ => exact (dot_S1x48_S48x128_S1x128_1_0_0_1_n_n.rhsIdx_val_of_single rfl _ q).trans hq
    | ⟨1, _⟩ => exact h1

/-- The 2×96 by 96×128 product at row `i`, column `j`: a sum over the ninety-six shared coordinates. -/
private theorem dotC_apply (x : FVec Ideal S2x96 .f32) (y : FVec Ideal S96x128 .f32) (i : Fin 2) (j : Fin 128) :
    Host.dotGeneral (F := Ideal) dot_S2x96_S96x128_S2x128_1_0_0_1_n_n none x y (ix2 i j)
      = ∑ d : Fin 96, x (ix2 i d) * y (ix2 d j) := by
  refine dot_single_apply dot_S2x96_S96x128_S2x128_1_0_0_1_n_n 96 rfl rfl x y _ (fun d => ix2 i d) (fun d => ix2 d j)
    (fun d q hq => funext fun a => Fin.ext ?_) (fun d q hq => funext fun a => Fin.ext ?_)
  · have h0 : (dot_S2x96_S96x128_S2x128_1_0_0_1_n_n.lhsIdx (ix2 i j) q 0).val = i.val := by
      unfold DotDims.lhsIdx
      rw [dif_neg (show ¬(0 : Fin S2x96.rank) ∈ dot_S2x96_S96x128_S2x128_1_0_0_1_n_n.lhsBatch by decide),
        dif_pos (show (0 : Fin S2x96.rank) ∈ dot_S2x96_S96x128_S2x128_1_0_0_1_n_n.lhsNonContracting by decide)]
      rfl
    match a with
    | ⟨0, _⟩ => exact h0
    | ⟨1, _⟩ => exact (dot_S2x96_S96x128_S2x128_1_0_0_1_n_n.lhsIdx_val_of_single rfl _ q).trans hq
  · have h1 : (dot_S2x96_S96x128_S2x128_1_0_0_1_n_n.rhsIdx (ix2 i j) q 1).val = j.val := by
      unfold DotDims.rhsIdx
      rw [dif_neg (show ¬(1 : Fin S96x128.rank) ∈ dot_S2x96_S96x128_S2x128_1_0_0_1_n_n.rhsBatch by decide),
        dif_pos (show (1 : Fin S96x128.rank) ∈ dot_S2x96_S96x128_S2x128_1_0_0_1_n_n.rhsNonContracting by decide)]
      rfl
    match a with
    | ⟨0, _⟩ => exact (dot_S2x96_S96x128_S2x128_1_0_0_1_n_n.rhsIdx_val_of_single rfl _ q).trans hq
    | ⟨1, _⟩ => exact h1

/-- The scalar zero spread over an 8×48 array is zero everywhere. -/
private theorem zeros_apply (i : S8x48.Idx) :
    broadcastInDim S8x48 ![] bcast_S_S8x48 (constant (F := Ideal) S_ .f32 0x00000000#32) i = 0 := by
  refine (broadcastInDim_apply _ bcast_S_S8x48 _ i ix0 (fun a => a.elim0)).trans ?_
  show Ideal.ofBits .f32 0x00000000#32 = 0
  exact Ideal.ofBits_zero_f32

/-- `[x, z]` over `[z, x]`, with `z` zero: `x` top left and bottom right, zero elsewhere. -/
private theorem blockdiag_apply (x z : S8x48.Idx → EReal) (hz : ∀ i, z i = 0) (κ : Fin 16) (l : Fin 96) :
    concatenate S16x96 0
        [⟨S8x96, concatenate S8x96 1 [⟨S8x48, x⟩, ⟨S8x48, z⟩] concatenates_S8x48_S8x48_S8x96_d1⟩,
         ⟨S8x96, concatenate S8x96 1 [⟨S8x48, z⟩, ⟨S8x48, x⟩] concatenates_S8x48_S8x48_S8x96_d1⟩]
        concatenates_S8x96_S8x96_S16x96_d0 (ix2 κ l)
      = if hκ : κ.val < 8 then (if hl : l.val < 48 then x (ix2 (⟨κ.val, hκ⟩ : Fin 8) (⟨l.val, hl⟩ : Fin 48)) else 0)
        else (if hl : l.val < 48 then 0
          else x (ix2 (⟨κ.val - 8, by have := κ.isLt; omega⟩ : Fin 8) (⟨l.val - 48, by have := l.isLt; omega⟩ : Fin 48))) := by
  have hκlt := κ.isLt
  have hllt := l.isLt
  by_cases hκ : κ.val < 8
  · rw [dif_pos hκ]
    refine (concatenate_pair_apply_left 0 _ _ concatenates_S8x96_S8x96_S16x96_d0 (ix2 κ l) rfl
      (ix2 (⟨κ.val, hκ⟩ : Fin 8) l) (fun b => match b with | ⟨0, _⟩ => rfl | ⟨1, _⟩ => rfl)).trans ?_
    by_cases hl : l.val < 48
    · rw [dif_pos hl]
      exact concatenate_pair_apply_left 1 x z concatenates_S8x48_S8x48_S8x96_d1 _ rfl
        (ix2 (⟨κ.val, hκ⟩ : Fin 8) (⟨l.val, hl⟩ : Fin 48)) (fun b => match b with | ⟨0, _⟩ => rfl | ⟨1, _⟩ => rfl)
    · rw [dif_neg hl]
      refine (concatenate_pair_apply_right 1 x z concatenates_S8x48_S8x48_S8x96_d1 _ rfl rfl
        (ix2 (⟨κ.val, hκ⟩ : Fin 8) (⟨l.val - 48, by omega⟩ : Fin 48))
        (fun b => match b with | ⟨0, _⟩ => fun _ => rfl | ⟨1, _⟩ => fun h => absurd rfl h) ?_).trans (hz _)
      show l.val - 48 + 48 = l.val
      omega
  · rw [dif_neg hκ]
    refine (concatenate_pair_apply_right 0 _ _ concatenates_S8x96_S8x96_S16x96_d0 (ix2 κ l) rfl rfl
      (ix2 (⟨κ.val - 8, by omega⟩ : Fin 8) l)
      (fun b => match b with | ⟨0, _⟩ => fun h => absurd rfl h | ⟨1, _⟩ => fun _ => rfl) ?_).trans ?_
    · show κ.val - 8 + 8 = κ.val
      omega
    by_cases hl : l.val < 48
    · rw [dif_pos hl]
      exact (concatenate_pair_apply_left 1 z x concatenates_S8x48_S8x48_S8x96_d1 _ rfl
        (ix2 (⟨κ.val - 8, by omega⟩ : Fin 8) (⟨l.val, hl⟩ : Fin 48))
        (fun b => match b with | ⟨0, _⟩ => rfl | ⟨1, _⟩ => rfl)).trans (hz _)
    · rw [dif_neg hl]
      refine concatenate_pair_apply_right 1 z x concatenates_S8x48_S8x48_S8x96_d1 _ rfl rfl
        (ix2 (⟨κ.val - 8, by omega⟩ : Fin 8) (⟨l.val - 48, by omega⟩ : Fin 48))
        (fun b => match b with | ⟨0, _⟩ => fun _ => rfl | ⟨1, _⟩ => fun h => absurd rfl h) ?_
      show l.val - 48 + 48 = l.val
      omega

/-- The bias as a one-row matrix times `W1`, flattened: `∑ d, bx d · W1 d k`. -/
private theorem biasrow_apply (x4 : FVec Ideal S48 .f32) (x5 : FVec Ideal S48x128 .f32) (k : Fin 128) :
    shapeCast S128 (Host.dotGeneral (F := Ideal) dot_S1x48_S48x128_S1x128_1_0_0_1_n_n none
        (broadcastInDim S1x48 ![1] bcast_S48_S1x48_1 x4) x5) shapeCasts_S1x128_S128 (ix1 k)
      = ∑ d : Fin 48, x4 (ix1 d) * x5 (ix2 d k) := by
  refine (shapeCast_apply _ shapeCasts_S1x128_S128 (ix1 k) (ix2 (0 : Fin 1) k) ?_).trans ?_
  · rw [Shape.rowMajor_val_two, Shape.rowMajor_val_one]
    show 0 * 128 + k.val = k.val
    omega
  rw [dotB_apply]
  refine Finset.sum_congr rfl fun d _ => ?_
  refine congrArg (· * x5 (ix2 d k)) ?_
  exact broadcastInDim_apply _ bcast_S48_S1x48_1 x4 (ix2 (0 : Fin 1) d) (ix1 d) (fun a => match a with
    | ⟨0, _⟩ => by show d.val = if (48 : Nat) = 1 then 0 else d.val; rw [if_neg (by decide)])

/-- A 128-vector laid as a row and repeated over two rows, read at row `s`, column `k`. -/
private theorem tworows_apply (v : FVec Ideal S128 .f32) (s : Fin 2) (k : Fin 128) :
    broadcastInDim S2x128 ![0, 1] bcast_S1x128_S2x128_0_1 (broadcastInDim S1x128 ![1] bcast_S128_S1x128_1 v) (ix2 s k)
      = v (ix1 k) := by
  refine (broadcastInDim_apply _ bcast_S1x128_S2x128_0_1 _ (ix2 s k) (ix2 (0 : Fin 1) k) (fun a => match a with
    | ⟨0, _⟩ => by show 0 = if (1 : Nat) = 1 then 0 else s.val; rw [if_pos rfl]
    | ⟨1, _⟩ => by show k.val = if (128 : Nat) = 1 then 0 else k.val; rw [if_neg (by decide)])).trans ?_
  exact broadcastInDim_apply _ bcast_S128_S1x128_1 v (ix2 (0 : Fin 1) k) (ix1 k) (fun a => match a with
    | ⟨0, _⟩ => by show k.val = if (128 : Nat) = 1 then 0 else k.val; rw [if_neg (by decide)])

/-- Graph `q = 2 b + g`'s source-node words and operation words. -/
theorem V_prev_apply (c : Dev nD) (q : Fin 65536) (e : Fin 8) :
    V m c main_v2 (ix2 q e)
      = m ((c.tc : Thread nD τ).loc main_arg0) (ix4 (⟨q.val / 2, by have := q.isLt; omega⟩ : Fin 32768) (⟨q.val % 2, Nat.mod_lt _ (by decide)⟩ : Fin 2) (0 : Fin 2) e) := by
  have e0 : V m c main_v2 = shapeCast S65536x8 (shapeCast S32768x2x8
      (extractStridedSlice S32768x2x1x8 ![0, 0, 0, 0] (m ((c.tc : Thread nD τ).loc main_arg0)) slices_S32768x2x2x8_S32768x2x1x8_0_0_0_0)
      shapeCasts_S32768x2x1x8_S32768x2x8) shapeCasts_S32768x2x8_S65536x8 := by
    show StableHlo.after hostOps0 (fun b => m (c, b)) (Proc.devRef .tc main_v2) = _
    after_results
    try rfl
  rw [e0]
  exact slice_flat_apply _ (0 : Fin 2) _ _ _ q e
theorem V_op_apply (c : Dev nD) (q : Fin 65536) (e : Fin 8) :
    V m c main_v5 (ix2 q e)
      = m ((c.tc : Thread nD τ).loc main_arg0) (ix4 (⟨q.val / 2, by have := q.isLt; omega⟩ : Fin 32768) (⟨q.val % 2, Nat.mod_lt _ (by decide)⟩ : Fin 2) (1 : Fin 2) e) := by
  have e0 : V m c main_v5 = shapeCast S65536x8 (shapeCast S32768x2x8
      (extractStridedSlice S32768x2x1x8 ![0, 0, 1, 0] (m ((c.tc : Thread nD τ).loc main_arg0)) slices_S32768x2x2x8_S32768x2x1x8_0_0_1_0)
      shapeCasts_S32768x2x1x8_S32768x2x8) shapeCasts_S32768x2x8_S65536x8 := by
    show StableHlo.after hostOps0 (fun b => m (c, b)) (Proc.devRef .tc main_v5) = _
    after_results
    try rfl
  rw [e0]
  exact slice_flat_apply _ (1 : Fin 2) _ _ _ q e

/-- The weight operands. -/
theorem V_tab_apply (c : Dev nD) (κ : Fin 16) (l : Fin 96) : V m c main_v18 (ix2 κ l) = Cert.Gcn.tab (wts m c) κ l := by
  have e0 : V m c main_v18 = truncf (F := Ideal) (s := S16x96) .bf16
      (concatenate S16x96 0
        [⟨S8x96, concatenate S8x96 1 [⟨S8x48, m ((c.tc : Thread nD τ).loc main_arg2)⟩,
            ⟨S8x48, broadcastInDim S8x48 ![] bcast_S_S8x48 (constant (F := Ideal) S_ .f32 0x00000000#32)⟩] concatenates_S8x48_S8x48_S8x96_d1⟩,
         ⟨S8x96, concatenate S8x96 1 [⟨S8x48, broadcastInDim S8x48 ![] bcast_S_S8x48 (constant (F := Ideal) S_ .f32 0x00000000#32)⟩,
            ⟨S8x48, m ((c.tc : Thread nD τ).loc main_arg2)⟩] concatenates_S8x48_S8x48_S8x96_d1⟩]
        concatenates_S8x96_S8x96_S16x96_d0) bitsLt_bf16_f32 := by
    show StableHlo.after hostOps0 (fun b => m (c, b)) (Proc.devRef .tc main_v18) = _
    after_results
    try rfl
  rw [e0]
  exact blockdiag_apply _ _ zeros_apply κ l
theorem V_W12_apply (c : Dev nD) (l : Fin 96) (k : Fin 128) : V m c main_v19 (ix2 l k) = Cert.Gcn.W12 (wts m c) l k := by
  have e0 : V m c main_v19 = truncf (F := Ideal) (s := S96x128) .bf16
      (Host.dotGeneral (F := Ideal) (φ₁ := .f32) (φ₂ := .f32) dot_S96x48_S48x128_S96x128_1_0_0_1_n_n none
        (m ((c.tc : Thread nD τ).loc main_arg3)) (m ((c.tc : Thread nD τ).loc main_arg5))) bitsLt_bf16_f32 := by
    show StableHlo.after hostOps0 (fun b => m (c, b)) (Proc.devRef .tc main_v19) = _
    after_results
    try rfl
  rw [e0]
  exact dotA_apply _ _ l k
theorem V_b12_apply (c : Dev nD) (k : Fin 128) : V m c main_v9 (ix1 k) = Cert.Gcn.b12 (wts m c) k := by
  have e0 : V m c main_v9 = shapeCast S128 (Host.dotGeneral (F := Ideal) (φ₁ := .f32) (φ₂ := .f32) dot_S1x48_S48x128_S1x128_1_0_0_1_n_n none
        (broadcastInDim S1x48 ![1] bcast_S48_S1x48_1 (m ((c.tc : Thread nD τ).loc main_arg4)))
        (m ((c.tc : Thread nD τ).loc main_arg5))) shapeCasts_S1x128_S128 := by
    show StableHlo.after hostOps0 (fun b => m (c, b)) (Proc.devRef .tc main_v9) = _
    after_results
    try rfl
  rw [e0]
  exact biasrow_apply _ _ k
theorem V_ih1_apply (c : Dev nD) (s : Fin 2) (k : Fin 128) : V m c main_v13 (ix2 s k) = Cert.Gcn.ih1 (wts m c) s k := by
  have e0 : V m c main_v13 = addf (F := Ideal) (s := S2x128)
      (Host.dotGeneral (F := Ideal) (φ₁ := .f32) (φ₂ := .f32) dot_S2x96_S96x128_S2x128_1_0_0_1_n_n none (m ((c.tc : Thread nD τ).loc main_arg1))
        (Host.dotGeneral (F := Ideal) (φ₁ := .f32) (φ₂ := .f32) dot_S96x48_S48x128_S96x128_1_0_0_1_n_n none
          (m ((c.tc : Thread nD τ).loc main_arg3)) (m ((c.tc : Thread nD τ).loc main_arg5))))
      (broadcastInDim S2x128 ![0, 1] bcast_S1x128_S2x128_0_1 (broadcastInDim S1x128 ![1] bcast_S128_S1x128_1
        (shapeCast S128 (Host.dotGeneral (F := Ideal) (φ₁ := .f32) (φ₂ := .f32) dot_S1x48_S48x128_S1x128_1_0_0_1_n_n none
          (broadcastInDim S1x48 ![1] bcast_S48_S1x48_1 (m ((c.tc : Thread nD τ).loc main_arg4)))
          (m ((c.tc : Thread nD τ).loc main_arg5))) shapeCasts_S1x128_S128))) := by
    show StableHlo.after hostOps0 (fun b => m (c, b)) (Proc.devRef .tc main_v13) = _
    after_results
    try rfl
  rw [e0]
  show _ + _ = (∑ l : Fin 96, _ * Cert.Gcn.W12 (wts m c) l k) + Cert.Gcn.b12 (wts m c) k
  rw [dotC_apply, tworows_apply, biasrow_apply]
  refine congrArg (· + _) (Finset.sum_congr rfl fun l _ => ?_)
  rw [dotA_apply]
  rfl
theorem V_W2_apply (c : Dev nD) (k f : Fin 128) : V m c main_v20 (ix2 k f) = (wts m c).W2 k f := by
  have e0 : V m c main_v20 = truncf (F := Ideal) (s := S128x128) .bf16 (m ((c.tc : Thread nD τ).loc main_arg6)) bitsLt_bf16_f32 := by
    show StableHlo.after hostOps0 (fun b => m (c, b)) (Proc.devRef .tc main_v20) = _
    after_results
    try rfl
  rw [e0]
  rfl

end Cert.KernelIdeal.KHost

end
-- ==== Proof.KDefs.lean ====
/-
  Names for the stages of the kernel body's value.  The body's one store writes `k0_pay1 …` of a nest of payload
  functions; the names below are that nest's sub-terms, bottom up, each named after what it holds for one tile of 2048
  graphs: the source-node and operation words, the six nodes' first-layer rows, the four adjacency coefficient rows,
  the first layer after the adjacency, the second product's rows and the second layer's rows.
-/
import proofs.«429420_j32091995636315_2_alg».proof.Proof.Gen.KernelIdeal.Frame
import Idealize.ShloMosaic.PureOps.Ideal

set_option maxRecDepth 16384

noncomputable section

namespace Cert.KernelIdeal.KPay

open Cert.KernelIdeal Cert.KernelIdeal.Gen Idealize.ShloMosaic Idealize.ShloMosaic.TcCoe

variable (X0 X1 : Vec Ideal S2048x8 .i32) (X2 : Vec Ideal S16x96 .bf16) (X3 : Vec Ideal S96x128 .bf16)
  (X4 : Vec Ideal S128 .f32) (X5 : Vec Ideal S2x128 .f32) (X6 : Vec Ideal S128x128 .bf16)

/-- The column counters the one-hot comparisons are made against. -/
abbrev iota8 : IVec S2048x8 32 := iota .tc S2048x8 32 [1] iota_S2048x8_d1_w32
abbrev iota6 : IVec S2048x6 32 := iota .tc S2048x6 32 [1] iota_S2048x6_d1_w32

/-- Rows of the two initial nodes (constant down the tile) and of the four intermediate nodes, before the adjacency. -/
abbrev H0 : FVec Ideal S2048x128 .bf16 := k0_pay14 (k0_pay7 X5)
abbrev H1 : FVec Ideal S2048x128 .bf16 := k0_pay15 (k0_pay7 X5)
abbrev H2 : FVec Ideal S2048x128 .bf16 := k0_pay16 (k0_pay3 X1) (k0_pay4 X2) (k0_pay5 X3) (k0_pay6 X4) iota8 (k0_pay9 X1) (k0_pay10 X1) (k0_pay11 X1) (k0_pay12 X1)
abbrev H3 : FVec Ideal S2048x128 .bf16 := k0_pay17 (k0_pay3 X1) (k0_pay4 X2) (k0_pay5 X3) (k0_pay6 X4) iota8 (k0_pay9 X1) (k0_pay10 X1) (k0_pay11 X1) (k0_pay12 X1)
abbrev H4 : FVec Ideal S2048x128 .bf16 := k0_pay18 (k0_pay3 X1) (k0_pay4 X2) (k0_pay5 X3) (k0_pay6 X4) iota8 (k0_pay9 X1) (k0_pay10 X1) (k0_pay11 X1) (k0_pay12 X1)
abbrev H5 : FVec Ideal S2048x128 .bf16 := k0_pay19 (k0_pay3 X1) (k0_pay4 X2) (k0_pay5 X3) (k0_pay6 X4) iota8 (k0_pay9 X1) (k0_pay10 X1) (k0_pay11 X1) (k0_pay12 X1)

/-- The two halves the first coefficient row is added up from, and the four coefficient rows. -/
abbrev c100 : FVec Ideal S2048x6 .bf16 := k0_pay20 (F := Ideal) (k0_pay2 X0)
abbrev c103 : IVec S2048x6 1 := k0_pay21 (k0_pay2 X0)
abbrev C0 : FVec Ideal S2048x6 .bf16 := k0_pay22 (c100 X0) (c103 X0)
abbrev C1 : FVec Ideal S2048x6 .bf16 := k0_pay23 (F := Ideal) (k0_pay2 X0) iota6
abbrev C2 : FVec Ideal S2048x6 .bf16 := k0_pay24 (F := Ideal) (k0_pay2 X0) iota6
abbrev C3 : FVec Ideal S2048x6 .bf16 := k0_pay25 (F := Ideal) (k0_pay2 X0) iota6

/-- The first layer after the adjacency: nodes 2 and 3 whole, node 4 up to its last term, and that term's coefficient column. -/
abbrev Y10 : FVec Ideal S2048x128 .f32 :=
  k0_pay28 (H4 X1 X2 X3 X4) (H5 X1 X2 X3 X4) (C0 X0) (k0_pay26 (H0 X5) (H1 X5) (H2 X1 X2 X3 X4) (c100 X0) (c103 X0)) (k0_pay27 (H3 X1 X2 X3 X4) (c100 X0) (c103 X0))
abbrev Y11 : FVec Ideal S2048x128 .f32 :=
  k0_pay29 (H0 X5) (H1 X5) (H2 X1 X2 X3 X4) (H3 X1 X2 X3 X4) (H4 X1 X2 X3 X4) (H5 X1 X2 X3 X4) (C1 X0)
abbrev Y12p : FVec Ideal S2048x128 .bf16 :=
  k0_pay30 (H0 X5) (H1 X5) (H2 X1 X2 X3 X4) (H3 X1 X2 X3 X4) (H4 X1 X2 X3 X4) (C2 X0)
abbrev c25 : FVec Ideal S2048x1 .bf16 := k0_pay31 (C2 X0)

/-- The second product's rows, one per intermediate node. -/
abbrev Z0 : FVec Ideal S2048x128 .bf16 :=
  k0_pay33 (k0_pay8 X6) (H0 X5) (H1 X5) (H2 X1 X2 X3 X4) (H3 X1 X2 X3 X4) (H4 X1 X2 X3 X4) (H5 X1 X2 X3 X4) (C3 X0) (Y10 X0 X1 X2 X3 X4 X5) (Y11 X0 X1 X2 X3 X4 X5) (Y12p X0 X1 X2 X3 X4 X5) (c25 X0)
abbrev Z1 : FVec Ideal S2048x128 .bf16 :=
  k0_pay34 (k0_pay8 X6) (H0 X5) (H1 X5) (H2 X1 X2 X3 X4) (H3 X1 X2 X3 X4) (H4 X1 X2 X3 X4) (H5 X1 X2 X3 X4) (C3 X0) (Y10 X0 X1 X2 X3 X4 X5) (Y11 X0 X1 X2 X3 X4 X5) (Y12p X0 X1 X2 X3 X4 X5) (c25 X0)
abbrev Z2 : FVec Ideal S2048x128 .bf16 :=
  k0_pay35 (k0_pay8 X6) (H0 X5) (H1 X5) (H2 X1 X2 X3 X4) (H3 X1 X2 X3 X4) (H4 X1 X2 X3 X4) (H5 X1 X2 X3 X4) (C3 X0) (Y10 X0 X1 X2 X3 X4 X5) (Y11 X0 X1 X2 X3 X4 X5) (Y12p X0 X1 X2 X3 X4 X5) (c25 X0)
abbrev Z3 : FVec Ideal S2048x128 .bf16 :=
  k0_pay36 (k0_pay8 X6) (H0 X5) (H1 X5) (H2 X1 X2 X3 X4) (H3 X1 X2 X3 X4) (H4 X1 X2 X3 X4) (H5 X1 X2 X3 X4) (C3 X0) (Y10 X0 X1 X2 X3 X4 X5) (Y11 X0 X1 X2 X3 X4 X5) (Y12p X0 X1 X2 X3 X4 X5) (c25 X0)

/-- The first term of node 2's second-layer row. -/
abbrev T273 : FVec Ideal S2048x128 .bf16 :=
  k0_pay38 (k0_pay8 X6) (H0 X5) (H1 X5) (H2 X1 X2 X3 X4) (H3 X1 X2 X3 X4) (H4 X1 X2 X3 X4) (H5 X1 X2 X3 X4) (C0 X0) (C3 X0) (Y10 X0 X1 X2 X3 X4 X5) (Y11 X0 X1 X2 X3 X4 X5) (Y12p X0 X1 X2 X3 X4 X5) (c25 X0)

/-- The second layer's rows of nodes 2, 3, 4, and node 5's up to its second term with the third term's coefficient. -/
abbrev Y20 : FVec Ideal S2048x128 .f32 :=
  k0_pay39 (C0 X0) (Z1 X0 X1 X2 X3 X4 X5 X6) (Z2 X0 X1 X2 X3 X4 X5 X6) (Z3 X0 X1 X2 X3 X4 X5 X6) (k0_pay37 (F := Ideal)) (T273 X0 X1 X2 X3 X4 X5 X6)
abbrev Y21 : FVec Ideal S2048x128 .f32 :=
  k0_pay40 (C1 X0) (Z0 X0 X1 X2 X3 X4 X5 X6) (Z1 X0 X1 X2 X3 X4 X5 X6) (Z2 X0 X1 X2 X3 X4 X5 X6) (Z3 X0 X1 X2 X3 X4 X5 X6)
abbrev Y22 : FVec Ideal S2048x128 .f32 :=
  k0_pay41 (C2 X0) (Z0 X0 X1 X2 X3 X4 X5 X6) (Z1 X0 X1 X2 X3 X4 X5 X6) (Z2 X0 X1 X2 X3 X4 X5 X6) (Z3 X0 X1 X2 X3 X4 X5 X6)
abbrev T328 : FVec Ideal S2048x128 .bf16 := k0_pay42 (C3 X0) (Z0 X0 X1 X2 X3 X4 X5 X6)
abbrev T330 : FVec Ideal S2048x128 .bf16 := k0_pay43 (C3 X0)

/-- The stored tile. -/
abbrev outTile : FVec Ideal S2048x128 .f32 :=
  k0_pay1 (C3 X0) (Z1 X0 X1 X2 X3 X4 X5 X6) (Z2 X0 X1 X2 X3 X4 X5 X6) (Z3 X0 X1 X2 X3 X4 X5 X6) (Y20 X0 X1 X2 X3 X4 X5 X6) (Y21 X0 X1 X2 X3 X4 X5 X6) (Y22 X0 X1 X2 X3 X4 X5 X6) (T328 X0 X1 X2 X3 X4 X5 X6) (T330 X0)

/-- What the body leaves in the output window's buffer is the one piece holding `outTile` of the loaded blocks. -/
theorem out0_7_eq (x0 x1 : Vec Ideal S2048x8 .i32) (x2 : Vec Ideal S16x96 .bf16) (x3 : Vec Ideal S96x128 .bf16)
    (x4 : Vec Ideal S128 .f32) (x5 : Vec Ideal S2x128 .f32) (x6 : Vec Ideal S128x128 .bf16) :
    out0_7 (F := Ideal) x0 x1 x2 x3 x4 x5 x6
      = View.canon [⟨r0_6, outTile (View.ld x0 r0_0) (View.ld x1 r0_0) (View.ld x2 r0_1) (View.ld x3 r0_2) (View.ld x4 r0_3) (View.ld x5 r0_4) (View.ld x6 r0_5)⟩] := rfl

end Cert.KernelIdeal.KPay

end
-- ==== Proof.KPayA.lean ====
/-
  One tile of the kernel body, first part: the adjacency coefficient rows (one-hot comparisons of the source-node
  words against a column counter, two added) and the six nodes' first-layer rows (the initial nodes' constant rows; the
  intermediate nodes' by a one-hot product with the operation table and the fused projection), each read at an index.
-/
import proofs.«429420_j32091995636315_2_alg».proof.Proof.KDefs
import proofs.«429420_j32091995636315_2_alg».proof.Proof.Spec
import Idealize.ShloMosaic.Lib.ValueIdx
import Idealize.ShloMosaic.Lib.Pipeline.Value
import Idealize.ShloMosaic.Lib.KernelVsHost
import Idealize.ShloMosaic.Lib.Affine
import Idealize.ShloMosaic.PureOps.Ideal.Laws

noncomputable section

open scoped BigOperators

namespace Cert.KernelIdeal.KPayA

open Cert.KernelIdeal Cert.KernelIdeal.Gen Cert.KernelIdeal.KPay Idealize.ShloMosaic Idealize.ShloMosaic.TcCoe Idealize.ShloMosaic.ValueIdx

/-- Row `r` of a tile of words. -/
def row (X : Vec Ideal S2048x8 .i32) (r : Fin 2048) : Fin 8 → BitVec 32 := fun e => X (ix2 r e)

variable (X0 X1 : Vec Ideal S2048x8 .i32) (X2 : Vec Ideal S16x96 .bf16) (X3 : Vec Ideal S96x128 .bf16)
  (X4 : Vec Ideal S128 .f32) (X5 : Vec Ideal S2x128 .f32) (X6 : Vec Ideal S128x128 .bf16)

/-! ## One-hot pieces along six columns -/

/-- A comparison bit widened to a word and converted signed is the indicator of the equality. -/
private theorem sitofp_cmpi_eq (a b : BitVec 32) :
    (FloatOps.sitofp .f32 ((IntOp.cmpi .eq a b).setWidth 32) : Ideal .f32) = if a = b then (1 : EReal) else 0 := by
  show (((((IntOp.cmpi .eq a b).setWidth 32).toInt : ℤ) : ℝ) : EReal) = _
  rw [toInt_setWidth_bit]
  by_cases h : a = b
  · rw [if_pos h, IntOp.cmpi_eq.2 h]; simp
  · rw [if_neg h, eq_zero_of_ne_one (mt IntOp.cmpi_eq.1 h)]; simp

/-- One column of the tile of words, broadcast along six columns, read at an index. -/
private theorem col6_apply (v : IVec S2048x8 32) (c : Nat) (hc : c < 8) (h : S2048x8.Slices ![0, c] S2048x1)
    (hb : S2048x1.Broadcasts S2048x6) (r : Fin 2048) (s : Fin 6) :
    broadcastTo S2048x6 (extractStridedSlice S2048x1 ![0, c] v h) hb (ix2 r s) = v (ix2 r ⟨c, hc⟩) := by
  refine (broadcastTo_apply _ hb (ix2 r s) (ix2 r (0 : Fin 1)) (fun a => ?_)).trans ?_
  · match a with
    | ⟨0, _⟩ => rfl
    | ⟨1, _⟩ => rfl
  · refine extractStridedSlice_apply _ v h _ (ix2 r ⟨c, hc⟩) (fun a => ?_)
    match a with
    | ⟨0, _⟩ => show r.val = 0 + r.val; omega
    | ⟨1, _⟩ => show c = c + 0; omega

/-- The column counter along six columns reads its column. -/
private theorem iota6_apply (r : Fin 2048) (s : Fin 6) : iota6 (ix2 r s) = BitVec.ofNat 32 s.val :=
  iota_single_apply _ _ _ _ _ (ix2 r s)

/-- A one-hot piece along six columns: the indicator that the word in column `c` of the row is the column read. -/
private theorem hot6_apply (v : IVec S2048x8 32) (c : Nat) (hc : c < 8) (h : S2048x8.Slices ![0, c] S2048x1)
    (hb : S2048x1.Broadcasts S2048x6) (h1 : 1 < 32) (ht : FTy.bits .bf16 < FTy.bits .f32) (r : Fin 2048) (s : Fin 6) :
    (truncf .bf16 (sitofp .f32 (extui 32 (cmpi .eq iota6 (broadcastTo S2048x6 (extractStridedSlice S2048x1 ![0, c] v h) hb)) h1)
      : FVec Ideal S2048x6 .f32) ht) (ix2 r s) = Cert.Gcn.hot (v (ix2 r ⟨c, hc⟩)) s.val := by
  show (FloatOps.sitofp .f32 ((IntOp.cmpi .eq (iota6 (ix2 r s))
    (broadcastTo S2048x6 (extractStridedSlice S2048x1 ![0, c] v h) hb (ix2 r s))).setWidth 32) : Ideal .f32) = _
  rw [col6_apply v c hc h hb r s, iota6_apply, sitofp_cmpi_eq]
  rfl

/-- The block of words cast to its own shape is itself. -/
private theorem pay2_eq (X : Vec Ideal S2048x8 .i32) : k0_pay2 X = X := shapeCast_self _ _

/-- The comparison bit of edge 1's source word against the column read. -/
private theorem c103_raw (r : Fin 2048) (s : Fin 6) :
    c103 X0 (ix2 r s) = IntOp.cmpi .eq (BitVec.ofNat 32 s.val) (X0 (ix2 r ⟨1, by decide⟩)) := by
  show k0_pay21 (k0_pay2 X0) (ix2 r s) = _
  rw [pay2_eq]
  show IntOp.cmpi .eq (iota6 (ix2 r s)) (broadcastTo S2048x6 (extractStridedSlice S2048x1 ![0, 1] X0 _) _ (ix2 r s)) = _
  rw [col6_apply X0 1 (by decide) _ _ r s, iota6_apply]

/-- The first coefficient row's two halves: the indicator of edge 0's source word, and the comparison bit of edge 1's. -/
theorem c100_apply (r : Fin 2048) (s : Fin 6) : c100 X0 (ix2 r s) = Cert.Gcn.hot (X0 (ix2 r (0 : Fin 8))) s.val := by
  show k0_pay20 (F := Ideal) (k0_pay2 X0) (ix2 r s) = _
  rw [pay2_eq]
  exact hot6_apply X0 0 (by decide) _ _ _ _ r s
theorem c103_apply (r : Fin 2048) (s : Fin 6) :
    c103 X0 (ix2 r s) = if BitVec.ofNat 32 s.val = X0 (ix2 r (1 : Fin 8)) then 1#1 else 0#1 := by
  rw [c103_raw]
  by_cases h : BitVec.ofNat 32 s.val = X0 (ix2 r ⟨1, by decide⟩)
  · rw [IntOp.cmpi_eq.2 h]; exact (if_pos h).symm
  · rw [eq_zero_of_ne_one (mt IntOp.cmpi_eq.1 h)]; exact (if_neg h).symm

/-- The four adjacency coefficient rows. -/
theorem C0_apply (r : Fin 2048) (s : Fin 6) : C0 X0 (ix2 r s) = Cert.Gcn.coef (row X0 r) 0 s := by
  show c100 X0 (ix2 r s) + (FloatOps.sitofp .f32 ((c103 X0 (ix2 r s)).setWidth 32) : Ideal .f32)
    = Cert.Gcn.hot (X0 (ix2 r (0 : Fin 8))) s.val + Cert.Gcn.hot (X0 (ix2 r (1 : Fin 8))) s.val
  rw [c100_apply, c103_raw, sitofp_cmpi_eq]
  rfl
theorem C1_apply (r : Fin 2048) (s : Fin 6) : C1 X0 (ix2 r s) = Cert.Gcn.coef (row X0 r) 1 s := by
  show k0_pay23 (F := Ideal) (k0_pay2 X0) iota6 (ix2 r s) = _
  rw [pay2_eq]
  refine (addf_apply _ _ _).trans ?_
  rw [hot6_apply X0 2 (by decide) _ _ _ _ r s, hot6_apply X0 3 (by decide) _ _ _ _ r s]
  rfl
theorem C2_apply (r : Fin 2048) (s : Fin 6) : C2 X0 (ix2 r s) = Cert.Gcn.coef (row X0 r) 2 s := by
  show k0_pay24 (F := Ideal) (k0_pay2 X0) iota6 (ix2 r s) = _
  rw [pay2_eq]
  refine (addf_apply _ _ _).trans ?_
  rw [hot6_apply X0 4 (by decide) _ _ _ _ r s, hot6_apply X0 5 (by decide) _ _ _ _ r s]
  rfl
theorem C3_apply (r : Fin 2048) (s : Fin 6) : C3 X0 (ix2 r s) = Cert.Gcn.coef (row X0 r) 3 s := by
  show k0_pay25 (F := Ideal) (k0_pay2 X0) iota6 (ix2 r s) = _
  rw [pay2_eq]
  refine (addf_apply _ _ _).trans ?_
  rw [hot6_apply X0 6 (by decide) _ _ _ _ r s, hot6_apply X0 7 (by decide) _ _ _ _ r s]
  rfl

/-! ## The initial nodes' rows -/

/-- A row of the two initial rows, sliced out, reshaped there and back, and broadcast down the tile. -/
private theorem rowBcast_apply (v : FVec Ideal S2x128 .f32) (c : Nat) (hc : c < 2) (h : S2x128.Slices ![c, 0] S1x128)
    (h1 : S1x128.ShapeCasts S128) (h2 : S128.ShapeCasts S1x128) (h3 : S1x128.ShapeCasts S1x128)
    (hb : S1x128.Broadcasts S2048x128) (ht : FTy.bits .bf16 < FTy.bits .f32) (r : Fin 2048) (k : Fin 128) :
    (truncf .bf16 (broadcastTo S2048x128 (shapeCast S1x128 (shapeCast S1x128 (shapeCast S128
      (extractStridedSlice S1x128 ![c, 0] v h) h1) h2) h3) hb) ht : FVec Ideal S2048x128 .bf16) (ix2 r k)
      = v (ix2 ⟨c, hc⟩ k) := by
  rw [shapeCast_self, shapeCast_shapeCast]
  show broadcastTo S2048x128 (extractStridedSlice S1x128 ![c, 0] v h) hb (ix2 r k) = _
  refine (broadcastTo_apply _ hb (ix2 r k) (ix2 (0 : Fin 1) k) (fun a => ?_)).trans ?_
  · match a with
    | ⟨0, _⟩ => rfl
    | ⟨1, _⟩ => rfl
  · refine extractStridedSlice_apply _ v h _ (ix2 ⟨c, hc⟩ k) (fun a => ?_)
    match a with
    | ⟨0, _⟩ => show c = c + 0; omega
    | ⟨1, _⟩ => show k.val = 0 + k.val; omega

private theorem pay7_eq (X : Vec Ideal S2x128 .f32) : k0_pay7 X = X := shapeCast_self _ _

/-- The six nodes' first-layer rows before the adjacency. -/
theorem H0_apply (r : Fin 2048) (k : Fin 128) : H0 X5 (ix2 r k) = X5 (ix2 (0 : Fin 2) k) := by
  show k0_pay14 (F := Ideal) (k0_pay7 X5) (ix2 r k) = _
  rw [pay7_eq]
  exact rowBcast_apply X5 0 (by decide) _ _ _ _ _ _ r k
theorem H1_apply (r : Fin 2048) (k : Fin 128) : H1 X5 (ix2 r k) = X5 (ix2 (1 : Fin 2) k) := by
  show k0_pay15 (F := Ideal) (k0_pay7 X5) (ix2 r k) = _
  rw [pay7_eq]
  exact rowBcast_apply X5 1 (by decide) _ _ _ _ _ _ r k

/-! ## The intermediate nodes' rows: one-hot rows, the table, the fused projection -/

/-- One column of the tile of words, broadcast along eight columns, read at an index. -/
private theorem col8_apply (v : IVec S2048x8 32) (c : Nat) (hc : c < 8) (h : S2048x8.Slices ![0, c] S2048x1)
    (hb : S2048x1.Broadcasts S2048x8) (r : Fin 2048) (s : Fin 8) :
    broadcastTo S2048x8 (extractStridedSlice S2048x1 ![0, c] v h) hb (ix2 r s) = v (ix2 r ⟨c, hc⟩) := by
  refine (broadcastTo_apply _ hb (ix2 r s) (ix2 r (0 : Fin 1)) (fun a => ?_)).trans ?_
  · match a with
    | ⟨0, _⟩ => rfl
    | ⟨1, _⟩ => rfl
  · refine extractStridedSlice_apply _ v h _ (ix2 r ⟨c, hc⟩) (fun a => ?_)
    match a with
    | ⟨0, _⟩ => show r.val = 0 + r.val; omega
    | ⟨1, _⟩ => show c = c + 0; omega

/-- The column counter along eight columns reads its column. -/
private theorem iota8_apply (r : Fin 2048) (s : Fin 8) : iota8 (ix2 r s) = BitVec.ofNat 32 s.val :=
  iota_single_apply _ _ _ _ _ (ix2 r s)

/-- A one-hot piece along eight columns. -/
private theorem hot8_apply (v : IVec S2048x8 32) (c : Nat) (hc : c < 8) (h : S2048x8.Slices ![0, c] S2048x1)
    (hb : S2048x1.Broadcasts S2048x8) (h1 : 1 < 32) (ht : FTy.bits .bf16 < FTy.bits .f32) (r : Fin 2048) (s : Fin 8) :
    (truncf .bf16 (sitofp .f32 (extui 32 (cmpi .eq iota8 (broadcastTo S2048x8 (extractStridedSlice S2048x1 ![0, c] v h) hb)) h1)
      : FVec Ideal S2048x8 .f32) ht) (ix2 r s) = Cert.Gcn.hot (v (ix2 r ⟨c, hc⟩)) s.val := by
  show (FloatOps.sitofp .f32 ((IntOp.cmpi .eq (iota8 (ix2 r s))
    (broadcastTo S2048x8 (extractStridedSlice S2048x1 ![0, c] v h) hb (ix2 r s))).setWidth 32) : Ideal .f32) = _
  rw [col8_apply v c hc h hb r s, iota8_apply, sitofp_cmpi_eq]
  rfl

/-- Two eight-column pieces side by side, read at an index: the left piece below column eight, the right piece from it on. -/
private theorem pair16_apply (p q : FVec Ideal S2048x8 .bf16) (h : Shape.Concatenates [S2048x8, S2048x8] S2048x16 1)
    (r : Fin 2048) (κ : Fin 16) :
    concatenate S2048x16 1 [⟨S2048x8, p⟩, ⟨S2048x8, q⟩] h (ix2 r κ)
      = if hκ : κ.val < 8 then p (ix2 r ⟨κ.val, hκ⟩) else q (ix2 r ⟨κ.val - 8, by have := κ.isLt; omega⟩) := by
  by_cases hκ : κ.val < 8
  · rw [dif_pos hκ]
    exact concatenate_pair_apply_left 1 p q h (ix2 r κ) rfl (ix2 r ⟨κ.val, hκ⟩) (fun b => match b with
      | ⟨0, _⟩ => rfl
      | ⟨1, _⟩ => rfl)
  · rw [dif_neg hκ]
    exact concatenate_pair_apply_right 1 p q h (ix2 r κ) rfl rfl (ix2 r ⟨κ.val - 8, by have := κ.isLt; omega⟩) (fun b => match b with
      | ⟨0, _⟩ => fun _ => rfl
      | ⟨1, _⟩ => fun hne => absurd rfl hne) (by show κ.val - 8 + 8 = κ.val; omega)

/-- Two one-hot pieces side by side: the sixteen-wide one-hot row of two words. -/
private theorem oh16pair_apply (v : IVec S2048x8 32) (c c' : Nat) (hc : c < 8) (hc' : c' < 8) (h : S2048x8.Slices ![0, c] S2048x1)
    (h' : S2048x8.Slices ![0, c'] S2048x1) (hb : S2048x1.Broadcasts S2048x8) (h1 : 1 < 32) (ht : FTy.bits .bf16 < FTy.bits .f32)
    (hcat : Shape.Concatenates [S2048x8, S2048x8] S2048x16 1) (r : Fin 2048) (κ : Fin 16) :
    concatenate S2048x16 1
      [⟨S2048x8, (truncf .bf16 (sitofp .f32 (extui 32 (cmpi .eq iota8 (broadcastTo S2048x8 (extractStridedSlice S2048x1 ![0, c] v h) hb)) h1)
        : FVec Ideal S2048x8 .f32) ht : FVec Ideal S2048x8 .bf16)⟩,
       ⟨S2048x8, (truncf .bf16 (sitofp .f32 (extui 32 (cmpi .eq iota8 (broadcastTo S2048x8 (extractStridedSlice S2048x1 ![0, c'] v h') hb)) h1)
        : FVec Ideal S2048x8 .f32) ht : FVec Ideal S2048x8 .bf16)⟩] hcat (ix2 r κ)
      = if κ.val < 8 then Cert.Gcn.hot (v (ix2 r ⟨c, hc⟩)) κ.val else Cert.Gcn.hot (v (ix2 r ⟨c', hc'⟩)) (κ.val - 8) := by
  refine (pair16_apply _ _ hcat r κ).trans ?_
  by_cases hκ : κ.val < 8
  · rw [dif_pos hκ, if_pos hκ]; exact hot8_apply v c hc h hb h1 ht r ⟨κ.val, hκ⟩
  · rw [dif_neg hκ, if_neg hκ]; exact hot8_apply v c' hc' h' hb h1 ht r ⟨κ.val - 8, by have := κ.isLt; omega⟩

/-- Four tiles of 2048 rows stacked: row `2048 i + r` is row `r` of tile `i`. -/
private theorem quad_apply (p0 p1 p2 p3 : FVec Ideal S2048x16 .bf16)
    (h : Shape.Concatenates [S2048x16, S2048x16, S2048x16, S2048x16] S8192x16 0) (i : Fin 4) (r : Fin 2048) (κ : Fin 16)
    (hR : 2048 * i.val + r.val < 8192) :
    concatenate S8192x16 0 [⟨S2048x16, p0⟩, ⟨S2048x16, p1⟩, ⟨S2048x16, p2⟩, ⟨S2048x16, p3⟩] h (ix2 ⟨2048 * i.val + r.val, hR⟩ κ)
      = (![p0, p1, p2, p3] i) (ix2 r κ) := by
  have hi : ∀ b : Fin S2048x16.rank, b.cast (rfl : S2048x16.rank = S8192x16.rank) ≠ (0 : Fin S8192x16.rank) →
      ((ix2 r κ : S2048x16.Idx) b).val = ((ix2 (⟨2048 * i.val + r.val, hR⟩ : Fin 8192) κ : S8192x16.Idx) (b.cast rfl)).val :=
    fun b => match b with
      | ⟨0, _⟩ => fun hne => absurd rfl hne
      | ⟨1, _⟩ => fun _ => rfl
  match i, hR with
  | ⟨0, _⟩, hR =>
    exact concatenate_apply_piece (t := S8192x16) 0 [⟨S2048x16, p0⟩, ⟨S2048x16, p1⟩, ⟨S2048x16, p2⟩, ⟨S2048x16, p3⟩] h (ix2 ⟨_, hR⟩ κ) 0 (by simp) S2048x16 p0 rfl rfl 0 rfl (ix2 r κ) hi (by show 0 + r.val = 2048 * 0 + r.val; omega)
  | ⟨1, _⟩, hR =>
    exact concatenate_apply_piece (t := S8192x16) 0 [⟨S2048x16, p0⟩, ⟨S2048x16, p1⟩, ⟨S2048x16, p2⟩, ⟨S2048x16, p3⟩] h (ix2 ⟨_, hR⟩ κ) 1 (by simp) S2048x16 p1 rfl rfl 2048 rfl (ix2 r κ) hi (by show 2048 + r.val = 2048 * 1 + r.val; omega)
  | ⟨2, _⟩, hR =>
    exact concatenate_apply_piece (t := S8192x16) 0 [⟨S2048x16, p0⟩, ⟨S2048x16, p1⟩, ⟨S2048x16, p2⟩, ⟨S2048x16, p3⟩] h (ix2 ⟨_, hR⟩ κ) 2 (by simp) S2048x16 p2 rfl rfl 4096 rfl (ix2 r κ) hi (by show 4096 + r.val = 2048 * 2 + r.val; omega)
  | ⟨3, _⟩, hR =>
    exact concatenate_apply_piece (t := S8192x16) 0 [⟨S2048x16, p0⟩, ⟨S2048x16, p1⟩, ⟨S2048x16, p2⟩, ⟨S2048x16, p3⟩] h (ix2 ⟨_, hR⟩ κ) 3 (by simp) S2048x16 p3 rfl rfl 6144 rfl (ix2 r κ) hi (by show 6144 + r.val = 2048 * 3 + r.val; omega)
/-! The two products' operand indices, axis by axis. -/

private theorem mm1_lhs0 (j : S8192x96.Idx) (q : dot_S8192x16_S16x96_S8192x96_1_0_0_1_n_n.contr.Idx) :
    (dot_S8192x16_S16x96_S8192x96_1_0_0_1_n_n.lhsIdx j q 0).val = (j 0).val := by
  unfold DotDims.lhsIdx
  rw [dif_neg (show ¬(0 : Fin S8192x16.rank) ∈ dot_S8192x16_S16x96_S8192x96_1_0_0_1_n_n.lhsBatch by decide), dif_pos (show (0 : Fin S8192x16.rank) ∈ dot_S8192x16_S16x96_S8192x96_1_0_0_1_n_n.lhsNonContracting by decide)]
  rfl
private theorem mm1_lhs1 (j : S8192x96.Idx) (q : dot_S8192x16_S16x96_S8192x96_1_0_0_1_n_n.contr.Idx) :
    (dot_S8192x16_S16x96_S8192x96_1_0_0_1_n_n.lhsIdx j q 1).val = (q ⟨0, by decide⟩).val :=
  dot_S8192x16_S16x96_S8192x96_1_0_0_1_n_n.lhsIdx_val_of_single rfl j q
private theorem mm1_rhs0 (j : S8192x96.Idx) (q : dot_S8192x16_S16x96_S8192x96_1_0_0_1_n_n.contr.Idx) :
    (dot_S8192x16_S16x96_S8192x96_1_0_0_1_n_n.rhsIdx j q 0).val = (q ⟨0, by decide⟩).val :=
  dot_S8192x16_S16x96_S8192x96_1_0_0_1_n_n.rhsIdx_val_of_single rfl j q
private theorem mm1_rhs1 (j : S8192x96.Idx) (q : dot_S8192x16_S16x96_S8192x96_1_0_0_1_n_n.contr.Idx) :
    (dot_S8192x16_S16x96_S8192x96_1_0_0_1_n_n.rhsIdx j q 1).val = (j 1).val := by
  unfold DotDims.rhsIdx
  rw [dif_neg (show ¬(1 : Fin S16x96.rank) ∈ dot_S8192x16_S16x96_S8192x96_1_0_0_1_n_n.rhsBatch by decide), dif_pos (show (1 : Fin S16x96.rank) ∈ dot_S8192x16_S16x96_S8192x96_1_0_0_1_n_n.rhsNonContracting by decide)]
  rfl

/-- The first product into a zero accumulator, read at an index: the sum over the sixteen table rows. -/
private theorem mm1_apply (a : FVec Ideal S8192x16 .bf16) (b : FVec Ideal S16x96 .bf16) (R : Fin 8192) (l : Fin 96) :
    matmul dot_S8192x16_S16x96_S8192x96_1_0_0_1_n_n none a b (constant S8192x96 .f32 0x00000000#32) (ix2 R l)
      = ∑ κ : Fin 16, a (ix2 R κ) * b (ix2 κ l) := by
  refine (Ideal.matmul_constant_zero_apply dot_S8192x16_S16x96_S8192x96_1_0_0_1_n_n none a b (ix2 R l)).trans ?_
  rw [← Equiv.sum_comp (contrEquiv1 dot_S8192x16_S16x96_S8192x96_1_0_0_1_n_n 16 rfl rfl).symm]
  refine Finset.sum_congr rfl fun κ _ => ?_
  have hk := contrEquiv1_symm_val dot_S8192x16_S16x96_S8192x96_1_0_0_1_n_n 16 rfl rfl κ
  have el : dot_S8192x16_S16x96_S8192x96_1_0_0_1_n_n.lhsIdx (ix2 R l) ((contrEquiv1 dot_S8192x16_S16x96_S8192x96_1_0_0_1_n_n 16 rfl rfl).symm κ) = ix2 R κ := funext fun x => Fin.ext (by
    match x with
    | ⟨0, _⟩ => exact mm1_lhs0 _ _
    | ⟨1, _⟩ => exact (mm1_lhs1 _ _).trans hk)
  have er : dot_S8192x16_S16x96_S8192x96_1_0_0_1_n_n.rhsIdx (ix2 R l) ((contrEquiv1 dot_S8192x16_S16x96_S8192x96_1_0_0_1_n_n 16 rfl rfl).symm κ) = ix2 κ l := funext fun x => Fin.ext (by
    match x with
    | ⟨0, _⟩ => exact (mm1_rhs0 _ _).trans hk
    | ⟨1, _⟩ => exact mm1_rhs1 _ _)
  rw [el, er]

private theorem mm2_lhs0 (j : S8192x128.Idx) (q : dot_S8192x96_S96x128_S8192x128_1_0_0_1_n_n.contr.Idx) :
    (dot_S8192x96_S96x128_S8192x128_1_0_0_1_n_n.lhsIdx j q 0).val = (j 0).val := by
  unfold DotDims.lhsIdx
  rw [dif_neg (show ¬(0 : Fin S8192x96.rank) ∈ dot_S8192x96_S96x128_S8192x128_1_0_0_1_n_n.lhsBatch by decide), dif_pos (show (0 : Fin S8192x96.rank) ∈ dot_S8192x96_S96x128_S8192x128_1_0_0_1_n_n.lhsNonContracting by decide)]
  rfl
private theorem mm2_lhs1 (j : S8192x128.Idx) (q : dot_S8192x96_S96x128_S8192x128_1_0_0_1_n_n.contr.Idx) :
    (dot_S8192x96_S96x128_S8192x128_1_0_0_1_n_n.lhsIdx j q 1).val = (q ⟨0, by decide⟩).val :=
  dot_S8192x96_S96x128_S8192x128_1_0_0_1_n_n.lhsIdx_val_of_single rfl j q
private theorem mm2_rhs0 (j : S8192x128.Idx) (q : dot_S8192x96_S96x128_S8192x128_1_0_0_1_n_n.contr.Idx) :
    (dot_S8192x96_S96x128_S8192x128_1_0_0_1_n_n.rhsIdx j q 0).val = (q ⟨0, by decide⟩).val :=
  dot_S8192x96_S96x128_S8192x128_1_0_0_1_n_n.rhsIdx_val_of_single rfl j q
private theorem mm2_rhs1 (j : S8192x128.Idx) (q : dot_S8192x96_S96x128_S8192x128_1_0_0_1_n_n.contr.Idx) :
    (dot_S8192x96_S96x128_S8192x128_1_0_0_1_n_n.rhsIdx j q 1).val = (j 1).val := by
  unfold DotDims.rhsIdx
  rw [dif_neg (show ¬(1 : Fin S96x128.rank) ∈ dot_S8192x96_S96x128_S8192x128_1_0_0_1_n_n.rhsBatch by decide), dif_pos (show (1 : Fin S96x128.rank) ∈ dot_S8192x96_S96x128_S8192x128_1_0_0_1_n_n.rhsNonContracting by decide)]
  rfl

/-- The second product into a zero accumulator, read at an index: the sum over the ninety-six embedding columns. -/
private theorem mm2_apply (a : FVec Ideal S8192x96 .bf16) (b : FVec Ideal S96x128 .bf16) (R : Fin 8192) (k : Fin 128) :
    matmul dot_S8192x96_S96x128_S8192x128_1_0_0_1_n_n none a b (constant S8192x128 .f32 0x00000000#32) (ix2 R k)
      = ∑ l : Fin 96, a (ix2 R l) * b (ix2 l k) := by
  refine (Ideal.matmul_constant_zero_apply dot_S8192x96_S96x128_S8192x128_1_0_0_1_n_n none a b (ix2 R k)).trans ?_
  rw [← Equiv.sum_comp (contrEquiv1 dot_S8192x96_S96x128_S8192x128_1_0_0_1_n_n 96 rfl rfl).symm]
  refine Finset.sum_congr rfl fun l _ => ?_
  have hk := contrEquiv1_symm_val dot_S8192x96_S96x128_S8192x128_1_0_0_1_n_n 96 rfl rfl l
  have el : dot_S8192x96_S96x128_S8192x128_1_0_0_1_n_n.lhsIdx (ix2 R k) ((contrEquiv1 dot_S8192x96_S96x128_S8192x128_1_0_0_1_n_n 96 rfl rfl).symm l) = ix2 R l := funext fun x => Fin.ext (by
    match x with
    | ⟨0, _⟩ => exact mm2_lhs0 _ _
    | ⟨1, _⟩ => exact (mm2_lhs1 _ _).trans hk)
  have er : dot_S8192x96_S96x128_S8192x128_1_0_0_1_n_n.rhsIdx (ix2 R k) ((contrEquiv1 dot_S8192x96_S96x128_S8192x128_1_0_0_1_n_n 96 rfl rfl).symm l) = ix2 l k := funext fun x => Fin.ext (by
    match x with
    | ⟨0, _⟩ => exact (mm2_rhs0 _ _).trans hk
    | ⟨1, _⟩ => exact mm2_rhs1 _ _)
  rw [el, er]

/-- The bias row, reshaped to one row and broadcast down the 8192 rows. -/
private theorem bias_apply (v : FVec Ideal S128 .f32) (h : S128.ShapeCasts S1x128) (hb : S1x128.Broadcasts S8192x128)
    (R : Fin 8192) (k : Fin 128) : broadcastTo S8192x128 (shapeCast S1x128 v h) hb (ix2 R k) = v (ix1 k) := by
  refine (broadcastTo_apply _ hb (ix2 R k) (ix2 (0 : Fin 1) k) (fun a => ?_)).trans ?_
  · match a with
    | ⟨0, _⟩ => rfl
    | ⟨1, _⟩ => rfl
  · refine shapeCast_apply v h _ (ix1 k) ?_
    rw [Shape.rowMajor_val_one, Shape.rowMajor_val_two]
    show k.val = 0 * 128 + k.val
    omega

/-! The blocks cast to their own shapes are themselves. -/
private theorem pay3_eq (X : Vec Ideal S2048x8 .i32) : k0_pay3 X = X := shapeCast_self _ _
private theorem pay4_eq (X : Vec Ideal S16x96 .bf16) : k0_pay4 X = X := shapeCast_self _ _
private theorem pay5_eq (X : Vec Ideal S96x128 .bf16) : k0_pay5 X = X := shapeCast_self _ _
private theorem pay6_eq (X : Vec Ideal S128 .f32) : k0_pay6 X = X := shapeCast_self _ _

/-- The sixteen-wide one-hot row of the words in columns `c`, `c'` of the block, as the specification writes it. -/
private theorem oh16_of_pair (c c' : Nat) (hc : c < 8) (hc' : c' < 8) (i : Fin 4) (hi : c = 2 * i.val) (hi' : c' = 2 * i.val + 1)
    (r : Fin 2048) (κ : Fin 16) :
    (if κ.val < 8 then Cert.Gcn.hot (k0_pay3 X1 (ix2 r ⟨c, hc⟩)) κ.val else Cert.Gcn.hot (k0_pay3 X1 (ix2 r ⟨c', hc'⟩)) (κ.val - 8))
      = Cert.Gcn.oh16 (row X1 r) i κ := by
  subst hi hi'
  rw [pay3_eq]; rfl

/-- The four one-hot matrices: tile `i` holds, row by row, the sixteen-wide one-hot row of node `2 + i`'s two operation words. -/
private theorem pay9_apply (r : Fin 2048) (κ : Fin 16) : k0_pay9 (F := Ideal) X1 (ix2 r κ) = Cert.Gcn.oh16 (row X1 r) 0 κ :=
  (oh16pair_apply (k0_pay3 X1) 0 1 (by decide) (by decide) slices_S2048x8_o0_0_S2048x1 slices_S2048x8_o0_1_S2048x1
    broadcasts_S2048x1_S2048x8 natLt_1_32 bitsLt_bf16_f32 concatenates_S2048x8_S2048x8_S2048x16_d1 r κ).trans
    (oh16_of_pair X1 0 1 _ _ 0 rfl rfl r κ)
private theorem pay10_apply (r : Fin 2048) (κ : Fin 16) : k0_pay10 (F := Ideal) X1 (ix2 r κ) = Cert.Gcn.oh16 (row X1 r) 1 κ :=
  (oh16pair_apply (k0_pay3 X1) 2 3 (by decide) (by decide) slices_S2048x8_o0_2_S2048x1 slices_S2048x8_o0_3_S2048x1
    broadcasts_S2048x1_S2048x8 natLt_1_32 bitsLt_bf16_f32 concatenates_S2048x8_S2048x8_S2048x16_d1 r κ).trans
    (oh16_of_pair X1 2 3 _ _ 1 rfl rfl r κ)

/-- The 8192 rows of one-hot rows, read at row `2048 i + r`. -/
private theorem ohMat_apply (i : Fin 4) (r : Fin 2048) (κ : Fin 16) (hR : 2048 * i.val + r.val < 8192) :
    concatenate S8192x16 0
      [⟨S2048x16, k0_pay9 (F := Ideal) X1⟩, ⟨S2048x16, k0_pay10 (F := Ideal) X1⟩,
       ⟨S2048x16, concatenate S2048x16 1
          [⟨S2048x8, (truncf .bf16 (sitofp .f32 (k0_pay12 (F := Ideal) X1) : FVec Ideal S2048x8 .f32) bitsLt_bf16_f32 : FVec Ideal S2048x8 .bf16)⟩,
           ⟨S2048x8, (truncf .bf16 (sitofp .f32 (extui 32 (cmpi .eq iota8 (broadcastTo S2048x8 (k0_pay11 (F := Ideal) X1) broadcasts_S2048x1_S2048x8)) natLt_1_32)
              : FVec Ideal S2048x8 .f32) bitsLt_bf16_f32 : FVec Ideal S2048x8 .bf16)⟩] concatenates_S2048x8_S2048x8_S2048x16_d1⟩,
       ⟨S2048x16, concatenate S2048x16 1
          [⟨S2048x8, (truncf .bf16 (sitofp .f32 (extui 32 (cmpi .eq iota8 (broadcastTo S2048x8
              (extractStridedSlice S2048x1 ![0, 6] (k0_pay3 X1) slices_S2048x8_o0_6_S2048x1) broadcasts_S2048x1_S2048x8)) natLt_1_32) : FVec Ideal S2048x8 .f32) bitsLt_bf16_f32 : FVec Ideal S2048x8 .bf16)⟩,
           ⟨S2048x8, (truncf .bf16 (sitofp .f32 (extui 32 (cmpi .eq iota8 (broadcastTo S2048x8
              (extractStridedSlice S2048x1 ![0, 7] (k0_pay3 X1) slices_S2048x8_o0_7_S2048x1) broadcasts_S2048x1_S2048x8)) natLt_1_32) : FVec Ideal S2048x8 .f32) bitsLt_bf16_f32 : FVec Ideal S2048x8 .bf16)⟩] concatenates_S2048x8_S2048x8_S2048x16_d1⟩]
      concatenates_S2048x16_S2048x16_S2048x16_S2048x16_S8192x16_d0 (ix2 ⟨2048 * i.val + r.val, hR⟩ κ) = Cert.Gcn.oh16 (row X1 r) i κ := by
  refine (quad_apply _ _ _ _ concatenates_S2048x16_S2048x16_S2048x16_S2048x16_S8192x16_d0 i r κ hR).trans ?_
  match i, hR with
  | ⟨0, _⟩, _ => exact pay9_apply X1 r κ
  | ⟨1, _⟩, _ => exact pay10_apply X1 r κ
  | ⟨2, _⟩, _ =>
    exact (oh16pair_apply (k0_pay3 X1) 4 5 (by decide) (by decide) slices_S2048x8_o0_4_S2048x1 slices_S2048x8_o0_5_S2048x1
      broadcasts_S2048x1_S2048x8 natLt_1_32 bitsLt_bf16_f32 concatenates_S2048x8_S2048x8_S2048x16_d1 r κ).trans
      (oh16_of_pair X1 4 5 _ _ 2 rfl rfl r κ)
  | ⟨3, _⟩, _ =>
    exact (oh16pair_apply (k0_pay3 X1) 6 7 (by decide) (by decide) slices_S2048x8_o0_6_S2048x1 slices_S2048x8_o0_7_S2048x1
      broadcasts_S2048x1_S2048x8 natLt_1_32 bitsLt_bf16_f32 concatenates_S2048x8_S2048x8_S2048x16_d1 r κ).trans
      (oh16_of_pair X1 6 7 _ _ 3 rfl rfl r κ)

/-- The 8192-row first-layer matrix read at row `2048 i + r`: the one-hot row times the table, times the fused matrix, plus the bias. -/
private theorem pay13_apply (i : Fin 4) (r : Fin 2048) (k : Fin 128) (hR : 2048 * i.val + r.val < 8192) :
    k0_pay13 (F := Ideal) (k0_pay3 X1) (k0_pay4 X2) (k0_pay5 X3) (k0_pay6 X4) iota8 (k0_pay9 X1) (k0_pay10 X1) (k0_pay11 X1)
        (k0_pay12 X1) (ix2 ⟨2048 * i.val + r.val, hR⟩ k)
      = (∑ l : Fin 96, (∑ κ : Fin 16, Cert.Gcn.oh16 (row X1 r) i κ * X2 (ix2 κ l)) * X3 (ix2 l k)) + X4 (ix1 k) := by
  refine (addf_apply _ _ _).trans ?_
  refine congrArg₂ (· + ·) ?_ ((bias_apply _ shapeCasts_S128_S1x128 broadcasts_S1x128_S8192x128 _ k).trans (congrFun (pay6_eq X4) _))
  refine (mm2_apply _ _ _ k).trans (Finset.sum_congr rfl fun l _ => congrArg₂ (· * ·) ?_ (congrFun (pay5_eq X3) _))
  refine ((truncf_apply (ψ := .bf16) (φ := .f32) _ bitsLt_bf16_f32 _).trans (mm1_apply _ _ _ l)).trans
    (Finset.sum_congr rfl fun κ _ => congrArg₂ (· * ·) ?_ (congrFun (pay4_eq X2) _))
  exact ohMat_apply X1 i r κ hR

/-- A slab of 2048 rows of the 8192-row matrix, read at an index. -/
private theorem slab_apply (M : FVec Ideal S8192x128 .f32) (o : Nat) (h : S8192x128.Slices ![o, 0] S2048x128)
    (ht : FTy.bits .bf16 < FTy.bits .f32) (r : Fin 2048) (k : Fin 128) (R : Fin 8192) (hR : R.val = o + r.val) :
    (truncf .bf16 (extractStridedSlice S2048x128 ![o, 0] M h) ht : FVec Ideal S2048x128 .bf16) (ix2 r k) = M (ix2 R k) := by
  show extractStridedSlice S2048x128 ![o, 0] M h (ix2 r k) = _
  refine extractStridedSlice_apply _ M h _ (ix2 R k) (fun a => ?_)
  match a with
  | ⟨0, _⟩ => exact hR
  | ⟨1, _⟩ => show k.val = 0 + k.val; omega

theorem H2_apply (r : Fin 2048) (k : Fin 128) :
    H2 X1 X2 X3 X4 (ix2 r k) = Cert.Gcn.h1i (Cert.Gcn.kwBlk X2 X3 X4 X5 X6) (row X1 r) 0 k :=
  (slab_apply _ 0 slices_S8192x128_o0_0_S2048x128 bitsLt_bf16_f32 r k ⟨2048 * (0 : Fin 4).val + r.val, by have := r.isLt; show 2048 * 0 + r.val < 8192; omega⟩
    (by show 2048 * 0 + r.val = 0 + r.val; omega)).trans (pay13_apply X1 X2 X3 X4 0 r k _)
theorem H3_apply (r : Fin 2048) (k : Fin 128) :
    H3 X1 X2 X3 X4 (ix2 r k) = Cert.Gcn.h1i (Cert.Gcn.kwBlk X2 X3 X4 X5 X6) (row X1 r) 1 k :=
  (slab_apply _ 2048 slices_S8192x128_o2048_0_S2048x128 bitsLt_bf16_f32 r k ⟨2048 * (1 : Fin 4).val + r.val, by have := r.isLt; show 2048 * 1 + r.val < 8192; omega⟩
    (by show 2048 * 1 + r.val = 2048 + r.val; omega)).trans (pay13_apply X1 X2 X3 X4 1 r k _)
theorem H4_apply (r : Fin 2048) (k : Fin 128) :
    H4 X1 X2 X3 X4 (ix2 r k) = Cert.Gcn.h1i (Cert.Gcn.kwBlk X2 X3 X4 X5 X6) (row X1 r) 2 k :=
  (slab_apply _ 4096 slices_S8192x128_o4096_0_S2048x128 bitsLt_bf16_f32 r k ⟨2048 * (2 : Fin 4).val + r.val, by have := r.isLt; show 2048 * 2 + r.val < 8192; omega⟩
    (by show 2048 * 2 + r.val = 4096 + r.val; omega)).trans (pay13_apply X1 X2 X3 X4 2 r k _)
theorem H5_apply (r : Fin 2048) (k : Fin 128) :
    H5 X1 X2 X3 X4 (ix2 r k) = Cert.Gcn.h1i (Cert.Gcn.kwBlk X2 X3 X4 X5 X6) (row X1 r) 3 k :=
  (slab_apply _ 6144 slices_S8192x128_o6144_0_S2048x128 bitsLt_bf16_f32 r k ⟨2048 * (3 : Fin 4).val + r.val, by have := r.isLt; show 2048 * 3 + r.val < 8192; omega⟩
    (by show 2048 * 3 + r.val = 6144 + r.val; omega)).trans (pay13_apply X1 X2 X3 X4 3 r k _)

end Cert.KernelIdeal.KPayA

end
-- ==== Proof.KPayB.lean ====
/-
  One tile of the kernel body, second part: the first layer after the adjacency (an unrolled sum of coefficient · row,
  then max with zero) and the second product's rows, read at an index.
-/
import proofs.«429420_j32091995636315_2_alg».proof.Proof.KPayA

noncomputable section

open scoped BigOperators

namespace Cert.KernelIdeal.KPayB

open Cert.KernelIdeal Cert.KernelIdeal.Gen Cert.KernelIdeal.KPay Idealize.ShloMosaic Idealize.ShloMosaic.TcCoe Idealize.ShloMosaic.ValueIdx Cert.KernelIdeal.KPayA

variable (X0 X1 : Vec Ideal S2048x8 .i32) (X2 : Vec Ideal S16x96 .bf16) (X3 : Vec Ideal S96x128 .bf16)
  (X4 : Vec Ideal S128 .f32) (X5 : Vec Ideal S2x128 .f32) (X6 : Vec Ideal S128x128 .bf16)

/-! ## A coefficient column across the lanes; the zero the sums start from -/

/-- A column of a six-column tile, broadcast across the 128 lanes, read at (r, f) is the tile at (r, s). -/
private theorem colB (c : FVec Ideal S2048x6 .bf16) (n : Nat) (hn : n < 6) (hs : S2048x6.Slices ![0, n] S2048x1)
    (r : Fin 2048) (f : Fin 128) :
    broadcastTo S2048x128 (extractStridedSlice S2048x1 ![0, n] c hs) broadcasts_S2048x1_S2048x128 (ix2 r f) = c (ix2 r ⟨n, hn⟩) := by
  refine (broadcastTo_apply _ broadcasts_S2048x1_S2048x128 (ix2 r f) (ix2 r (0 : Fin 1)) (fun a => match a with
    | ⟨0, _⟩ => by show r.val = if (2048 : Nat) = 1 then 0 else r.val; rw [if_neg (by decide)]
    | ⟨1, _⟩ => by show 0 = if (1 : Nat) = 1 then 0 else f.val; rw [if_pos rfl])).trans ?_
  exact extractStridedSlice_apply _ c hs (ix2 r (0 : Fin 1)) (ix2 r ⟨n, hn⟩) (fun a => match a with
    | ⟨0, _⟩ => by show r.val = 0 + r.val; omega
    | ⟨1, _⟩ => by show n = n + 0; omega)

private theorem colB0 (c : FVec Ideal S2048x6 .bf16) (r : Fin 2048) (f : Fin 128) :
    broadcastTo S2048x128 (extractStridedSlice S2048x1 ![0, 0] c slices_S2048x6_o0_0_S2048x1) broadcasts_S2048x1_S2048x128 (ix2 r f) = c (ix2 r (0 : Fin 6)) :=
  colB c 0 (by decide) _ r f
private theorem colB1 (c : FVec Ideal S2048x6 .bf16) (r : Fin 2048) (f : Fin 128) :
    broadcastTo S2048x128 (extractStridedSlice S2048x1 ![0, 1] c slices_S2048x6_o0_1_S2048x1) broadcasts_S2048x1_S2048x128 (ix2 r f) = c (ix2 r (1 : Fin 6)) :=
  colB c 1 (by decide) _ r f
private theorem colB2 (c : FVec Ideal S2048x6 .bf16) (r : Fin 2048) (f : Fin 128) :
    broadcastTo S2048x128 (extractStridedSlice S2048x1 ![0, 2] c slices_S2048x6_o0_2_S2048x1) broadcasts_S2048x1_S2048x128 (ix2 r f) = c (ix2 r (2 : Fin 6)) :=
  colB c 2 (by decide) _ r f
private theorem colB3 (c : FVec Ideal S2048x6 .bf16) (r : Fin 2048) (f : Fin 128) :
    broadcastTo S2048x128 (extractStridedSlice S2048x1 ![0, 3] c slices_S2048x6_o0_3_S2048x1) broadcasts_S2048x1_S2048x128 (ix2 r f) = c (ix2 r (3 : Fin 6)) :=
  colB c 3 (by decide) _ r f
private theorem colB4 (c : FVec Ideal S2048x6 .bf16) (r : Fin 2048) (f : Fin 128) :
    broadcastTo S2048x128 (extractStridedSlice S2048x1 ![0, 4] c slices_S2048x6_o0_4_S2048x1) broadcasts_S2048x1_S2048x128 (ix2 r f) = c (ix2 r (4 : Fin 6)) :=
  colB c 4 (by decide) _ r f
private theorem colB5 (c : FVec Ideal S2048x6 .bf16) (r : Fin 2048) (f : Fin 128) :
    broadcastTo S2048x128 (extractStridedSlice S2048x1 ![0, 5] c slices_S2048x6_o0_5_S2048x1) broadcasts_S2048x1_S2048x128 (ix2 r f) = c (ix2 r (5 : Fin 6)) :=
  colB c 5 (by decide) _ r f

private theorem zero_bf16 : (Scalar.ofBits .bf16 0x0000#16 : Ideal .bf16) = 0 := by
  simp [Scalar.ofBits, Ideal.ofBits, Ideal.ieee]

/-- The unrolled adjacency sum over six coefficient columns, read at an index. -/
private theorem pay29_apply (h0 h1 h2 h3 h4 h5 : FVec Ideal S2048x128 .bf16) (c : FVec Ideal S2048x6 .bf16) (r : Fin 2048) (k : Fin 128) :
    k0_pay29 h0 h1 h2 h3 h4 h5 c (ix2 r k)
      = (((((0 + c (ix2 r (0 : Fin 6)) * h0 (ix2 r k)) + c (ix2 r (1 : Fin 6)) * h1 (ix2 r k)) + c (ix2 r (2 : Fin 6)) * h2 (ix2 r k))
          + c (ix2 r (3 : Fin 6)) * h3 (ix2 r k)) + c (ix2 r (4 : Fin 6)) * h4 (ix2 r k)) + c (ix2 r (5 : Fin 6)) * h5 (ix2 r k) := by
  unfold k0_pay29
  simp only [extf_apply, addf_apply, mulf_apply, broadcast_apply, colB0, colB1, colB2, colB3, colB4, colB5, zero_bf16]

private theorem pay30_apply (h0 h1 h2 h3 h4 : FVec Ideal S2048x128 .bf16) (c : FVec Ideal S2048x6 .bf16) (r : Fin 2048) (k : Fin 128) :
    k0_pay30 h0 h1 h2 h3 h4 c (ix2 r k)
      = ((((0 + c (ix2 r (0 : Fin 6)) * h0 (ix2 r k)) + c (ix2 r (1 : Fin 6)) * h1 (ix2 r k)) + c (ix2 r (2 : Fin 6)) * h2 (ix2 r k))
          + c (ix2 r (3 : Fin 6)) * h3 (ix2 r k)) + c (ix2 r (4 : Fin 6)) * h4 (ix2 r k) := by
  unfold k0_pay30
  simp only [addf_apply, mulf_apply, broadcast_apply, colB0, colB1, colB2, colB3, colB4, zero_bf16]

private theorem pay26_apply (h0 h1 h2 : FVec Ideal S2048x128 .bf16) (a : FVec Ideal S2048x6 .bf16) (b : IVec S2048x6 1) (r : Fin 2048) (k : Fin 128) :
    k0_pay26 h0 h1 h2 a b (ix2 r k)
      = ((0 + k0_pay22 a b (ix2 r (0 : Fin 6)) * h0 (ix2 r k)) + k0_pay22 a b (ix2 r (1 : Fin 6)) * h1 (ix2 r k))
          + k0_pay22 a b (ix2 r (2 : Fin 6)) * h2 (ix2 r k) := by
  unfold k0_pay26
  simp only [addf_apply, mulf_apply, broadcast_apply, colB0, colB1, colB2, zero_bf16]

private theorem pay27_apply (h3 : FVec Ideal S2048x128 .bf16) (a : FVec Ideal S2048x6 .bf16) (b : IVec S2048x6 1) (r : Fin 2048) (k : Fin 128) :
    k0_pay27 h3 a b (ix2 r k) = k0_pay22 a b (ix2 r (3 : Fin 6)) * h3 (ix2 r k) := by
  unfold k0_pay27
  simp only [mulf_apply, colB3]

private theorem pay28_apply (h4 h5 : FVec Ideal S2048x128 .bf16) (c : FVec Ideal S2048x6 .bf16) (u v : FVec Ideal S2048x128 .bf16) (r : Fin 2048) (k : Fin 128) :
    k0_pay28 h4 h5 c u v (ix2 r k)
      = ((u (ix2 r k) + v (ix2 r k)) + c (ix2 r (4 : Fin 6)) * h4 (ix2 r k)) + c (ix2 r (5 : Fin 6)) * h5 (ix2 r k) := by
  unfold k0_pay28
  simp only [extf_apply, addf_apply, mulf_apply, colB4, colB5]

/-- A node's first-layer row before the adjacency, node by node. -/
private theorem h1n_0 (kw : Cert.Gcn.KW) (ov : Fin 8 → BitVec 32) (k : Fin 128) : Cert.Gcn.h1n kw ov 0 k = kw.ih1 0 k := rfl
private theorem h1n_1 (kw : Cert.Gcn.KW) (ov : Fin 8 → BitVec 32) (k : Fin 128) : Cert.Gcn.h1n kw ov 1 k = kw.ih1 1 k := rfl
private theorem h1n_2 (kw : Cert.Gcn.KW) (ov : Fin 8 → BitVec 32) (k : Fin 128) : Cert.Gcn.h1n kw ov 2 k = Cert.Gcn.h1i kw ov 0 k := rfl
private theorem h1n_3 (kw : Cert.Gcn.KW) (ov : Fin 8 → BitVec 32) (k : Fin 128) : Cert.Gcn.h1n kw ov 3 k = Cert.Gcn.h1i kw ov 1 k := rfl
private theorem h1n_4 (kw : Cert.Gcn.KW) (ov : Fin 8 → BitVec 32) (k : Fin 128) : Cert.Gcn.h1n kw ov 4 k = Cert.Gcn.h1i kw ov 2 k := rfl
private theorem h1n_5 (kw : Cert.Gcn.KW) (ov : Fin 8 → BitVec 32) (k : Fin 128) : Cert.Gcn.h1n kw ov 5 k = Cert.Gcn.h1i kw ov 3 k := rfl

/-- The operand indices of the 8192x128 by 128x128 product, axis by axis. -/
private theorem mm_lhs_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
private theorem mm_lhs_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
private theorem mm_rhs_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
private theorem mm_rhs_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product into a zero accumulator, read at (R, f): the sum over the 128 contracted lanes. -/
private theorem mm_apply (A : FVec Ideal S8192x128 .bf16) (B : FVec Ideal S128x128 .bf16) (R : Fin 8192) (f : Fin 128) :
    matmul dot_S8192x128_S128x128_S8192x128_1_0_0_1_n_n none A B (constant S8192x128 .f32 0x00000000#32) (ix2 R f)
      = ∑ k : Fin 128, A (ix2 R k) * B (ix2 k f) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 R f) ((contrEquiv1 dot_S8192x128_S128x128_S8192x128_1_0_0_1_n_n 128 rfl rfl).symm k) = ix2 R k := funext fun a => Fin.ext (by
    match a with
    | ⟨0, _⟩ => exact mm_lhs_0 _ _
    | ⟨1, _⟩ => exact (mm_lhs_1 _ _).trans hk)
  have er : dot_S8192x128_S128x128_S8192x128_1_0_0_1_n_n.rhsIdx (ix2 R f) ((contrEquiv1 dot_S8192x128_S128x128_S8192x128_1_0_0_1_n_n 128 rfl rfl).symm k) = ix2 k f := funext fun a => Fin.ext (by
    match a with
    | ⟨0, _⟩ => exact (mm_rhs_0 _ _).trans hk
    | ⟨1, _⟩ => exact mm_rhs_1 _ _)
  rw [el, er]

/-- A slab of 2048 rows of the 8192-row array starting at row n, read at (r, f). -/
private theorem slab (A : FVec Ideal S8192x128 .f32) (n : Nat) (hn : n + 2048 ≤ 8192) (hs : S8192x128.Slices ![n, 0] S2048x128)
    (r : Fin 2048) (f : Fin 128) :
    extractStridedSlice S2048x128 ![n, 0] A hs (ix2 r f) = A (ix2 (⟨n + r.val, by have := r.isLt; omega⟩ : Fin 8192) f) :=
  extractStridedSlice_apply _ A hs (ix2 r f) _ (fun a => match a with
    | ⟨0, _⟩ => rfl
    | ⟨1, _⟩ => by show f.val = 0 + f.val; omega)

/-- Four tiles stacked along the rows, read in the slab of tile number 0, 1, 2, 3. -/
private theorem cat4_0 (t0 t1 t2 t3 : FVec Ideal S2048x128 .f32) (r : Fin 2048) (k : Fin 128) (hr : 0 + r.val < 8192) :
    concatenate S8192x128 0 [⟨S2048x128, t0⟩, ⟨S2048x128, t1⟩, ⟨S2048x128, t2⟩, ⟨S2048x128, t3⟩]
      concatenates_S2048x128_S2048x128_S2048x128_S2048x128_S8192x128_d0 (ix2 (⟨0 + r.val, hr⟩ : Fin 8192) k) = t0 (ix2 r k) :=
  concatenate_apply_piece (t := S8192x128) 0 [⟨S2048x128, t0⟩, ⟨S2048x128, t1⟩, ⟨S2048x128, t2⟩, ⟨S2048x128, t3⟩]
    concatenates_S2048x128_S2048x128_S2048x128_S2048x128_S8192x128_d0 (ix2 (⟨0 + r.val, hr⟩ : Fin 8192) k)
    0 (by simp) S2048x128 t0 rfl rfl 0 rfl (ix2 r k)
    (fun b hb => match b with
      | ⟨0, _⟩ => absurd rfl hb
      | ⟨1, _⟩ => rfl) rfl
private theorem cat4_1 (t0 t1 t2 t3 : FVec Ideal S2048x128 .f32) (r : Fin 2048) (k : Fin 128) (hr : 2048 + r.val < 8192) :
    concatenate S8192x128 0 [⟨S2048x128, t0⟩, ⟨S2048x128, t1⟩, ⟨S2048x128, t2⟩, ⟨S2048x128, t3⟩]
      concatenates_S2048x128_S2048x128_S2048x128_S2048x128_S8192x128_d0 (ix2 (⟨2048 + r.val, hr⟩ : Fin 8192) k) = t1 (ix2 r k) :=
  concatenate_apply_piece (t := S8192x128) 0 [⟨S2048x128, t0⟩, ⟨S2048x128, t1⟩, ⟨S2048x128, t2⟩, ⟨S2048x128, t3⟩]
    concatenates_S2048x128_S2048x128_S2048x128_S2048x128_S8192x128_d0 (ix2 (⟨2048 + r.val, hr⟩ : Fin 8192) k)
    1 (by simp) S2048x128 t1 rfl rfl 2048 rfl (ix2 r k)
    (fun b hb => match b with
      | ⟨0, _⟩ => absurd rfl hb
      | ⟨1, _⟩ => rfl) rfl
private theorem cat4_2 (t0 t1 t2 t3 : FVec Ideal S2048x128 .f32) (r : Fin 2048) (k : Fin 128) (hr : 4096 + r.val < 8192) :
    concatenate S8192x128 0 [⟨S2048x128, t0⟩, ⟨S2048x128, t1⟩, ⟨S2048x128, t2⟩, ⟨S2048x128, t3⟩]
      concatenates_S2048x128_S2048x128_S2048x128_S2048x128_S8192x128_d0 (ix2 (⟨4096 + r.val, hr⟩ : Fin 8192) k) = t2 (ix2 r k) :=
  concatenate_apply_piece (t := S8192x128) 0 [⟨S2048x128, t0⟩, ⟨S2048x128, t1⟩, ⟨S2048x128, t2⟩, ⟨S2048x128, t3⟩]
    concatenates_S2048x128_S2048x128_S2048x128_S2048x128_S8192x128_d0 (ix2 (⟨4096 + r.val, hr⟩ : Fin 8192) k)
    2 (by simp) S2048x128 t2 rfl rfl 4096 rfl (ix2 r k)
    (fun b hb => match b with
      | ⟨0, _⟩ => absurd rfl hb
      | ⟨1, _⟩ => rfl) rfl
private theorem cat4_3 (t0 t1 t2 t3 : FVec Ideal S2048x128 .f32) (r : Fin 2048) (k : Fin 128) (hr : 6144 + r.val < 8192) :
    concatenate S8192x128 0 [⟨S2048x128, t0⟩, ⟨S2048x128, t1⟩, ⟨S2048x128, t2⟩, ⟨S2048x128, t3⟩]
      concatenates_S2048x128_S2048x128_S2048x128_S2048x128_S8192x128_d0 (ix2 (⟨6144 + r.val, hr⟩ : Fin 8192) k) = t3 (ix2 r k) :=
  concatenate_apply_piece (t := S8192x128) 0 [⟨S2048x128, t0⟩, ⟨S2048x128, t1⟩, ⟨S2048x128, t2⟩, ⟨S2048x128, t3⟩]
    concatenates_S2048x128_S2048x128_S2048x128_S2048x128_S8192x128_d0 (ix2 (⟨6144 + r.val, hr⟩ : Fin 8192) k)
    3 (by simp) S2048x128 t3 rfl rfl 6144 rfl (ix2 r k)
    (fun b hb => match b with
      | ⟨0, _⟩ => absurd rfl hb
      | ⟨1, _⟩ => rfl) rfl

/-- The maximum with the zero tile. -/
private def relu (t : FVec Ideal S2048x128 .f32) : FVec Ideal S2048x128 .f32 :=
  maximumf t (broadcast S2048x128 (Scalar.ofBits .f32 0x00000000#32))
private theorem relu_apply (t : FVec Ideal S2048x128 .f32) (r : Fin 2048) (k : Fin 128) : relu t (ix2 r k) = max (t (ix2 r k)) 0 := by
  unfold relu
  rw [maximumf_apply, broadcast_apply]
  show max _ (Ideal.ofBits .f32 0x00000000#32) = _
  rw [Ideal.ofBits_zero_f32]

/-- The third node's row after the adjacency, finished from its first five terms and its last coefficient column. -/
private def y12 (p : FVec Ideal S2048x128 .bf16) (q : FVec Ideal S2048x1 .bf16) (h5 : FVec Ideal S2048x128 .bf16) : FVec Ideal S2048x128 .f32 :=
  extf .f32 (addf p (mulf (broadcastTo S2048x128 q broadcasts_S2048x1_S2048x128) h5)) bitsLt_bf16_f32

/-- The second product is the product of the four stacked max-with-zero tiles with the second-layer matrix. -/
private theorem pay32_eq (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16) :
    k0_pay32 v13 h0 h1 h2 h3 h4 h5 c3 y0 y1 p q
      = matmul dot_S8192x128_S128x128_S8192x128_1_0_0_1_n_n none
          (truncf .bf16 (concatenate S8192x128 0 [⟨S2048x128, relu y0⟩, ⟨S2048x128, relu y1⟩, ⟨S2048x128, relu (y12 p q h5)⟩,
            ⟨S2048x128, relu (k0_pay29 h0 h1 h2 h3 h4 h5 c3)⟩] concatenates_S2048x128_S2048x128_S2048x128_S2048x128_S8192x128_d0) bitsLt_bf16_f32)
          v13 (constant S8192x128 .f32 0x00000000#32) := rfl

private theorem pay32_apply_0 (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) (hr : 0 + r.val < 8192) :
    k0_pay32 v13 h0 h1 h2 h3 h4 h5 c3 y0 y1 p q (ix2 (⟨0 + r.val, hr⟩ : Fin 8192) f)
      = ∑ k : Fin 128, max (y0 (ix2 r k)) 0 * v13 (ix2 k f) := by
  rw [pay32_eq, mm_apply]
  refine Finset.sum_congr rfl fun k _ => ?_
  rw [truncf_apply, cat4_0, relu_apply]

private theorem pay32_apply_1 (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) (hr : 2048 + r.val < 8192) :
    k0_pay32 v13 h0 h1 h2 h3 h4 h5 c3 y0 y1 p q (ix2 (⟨2048 + r.val, hr⟩ : Fin 8192) f)
      = ∑ k : Fin 128, max (y1 (ix2 r k)) 0 * v13 (ix2 k f) := by
  rw [pay32_eq, mm_apply]
  refine Finset.sum_congr rfl fun k _ => ?_
  rw [truncf_apply, cat4_1, relu_apply]

private theorem pay32_apply_2 (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) (hr : 4096 + r.val < 8192) :
    k0_pay32 v13 h0 h1 h2 h3 h4 h5 c3 y0 y1 p q (ix2 (⟨4096 + r.val, hr⟩ : Fin 8192) f)
      = ∑ k : Fin 128, max (y12 p q h5 (ix2 r k)) 0 * v13 (ix2 k f) := by
  rw [pay32_eq, mm_apply]
  refine Finset.sum_congr rfl fun k _ => ?_
  rw [truncf_apply, cat4_2, relu_apply]

private theorem pay32_apply_3 (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) (hr : 6144 + r.val < 8192) :
    k0_pay32 v13 h0 h1 h2 h3 h4 h5 c3 y0 y1 p q (ix2 (⟨6144 + r.val, hr⟩ : Fin 8192) f)
      = ∑ k : Fin 128, max (k0_pay29 h0 h1 h2 h3 h4 h5 c3 (ix2 r k)) 0 * v13 (ix2 k f) := by
  rw [pay32_eq, mm_apply]
  refine Finset.sum_congr rfl fun k _ => ?_
  rw [truncf_apply, cat4_3, relu_apply]

private theorem pay33_apply (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) :
    k0_pay33 v13 h0 h1 h2 h3 h4 h5 c3 y0 y1 p q (ix2 r f) = ∑ k : Fin 128, max (y0 (ix2 r k)) 0 * v13 (ix2 k f) :=
  (slab (k0_pay32 v13 h0 h1 h2 h3 h4 h5 c3 y0 y1 p q) 0 (by decide) slices_S8192x128_o0_0_S2048x128 r f).trans
    (pay32_apply_0 v13 h0 h1 h2 h3 h4 h5 c3 y0 y1 p q r f _)

private theorem pay34_apply (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) :
    k0_pay34 v13 h0 h1 h2 h3 h4 h5 c3 y0 y1 p q (ix2 r f) = ∑ k : Fin 128, max (y1 (ix2 r k)) 0 * v13 (ix2 k f) :=
  (slab (k0_pay32 v13 h0 h1 h2 h3 h4 h5 c3 y0 y1 p q) 2048 (by decide) slices_S8192x128_o2048_0_S2048x128 r f).trans
    (pay32_apply_1 v13 h0 h1 h2 h3 h4 h5 c3 y0 y1 p q r f _)

private theorem pay35_apply (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) :
    k0_pay35 v13 h0 h1 h2 h3 h4 h5 c3 y0 y1 p q (ix2 r f) = ∑ k : Fin 128, max (y12 p q h5 (ix2 r k)) 0 * v13 (ix2 k f) :=
  (slab (k0_pay32 v13 h0 h1 h2 h3 h4 h5 c3 y0 y1 p q) 4096 (by decide) slices_S8192x128_o4096_0_S2048x128 r f).trans
    (pay32_apply_2 v13 h0 h1 h2 h3 h4 h5 c3 y0 y1 p q r f _)

private theorem pay36_apply (v13 : FVec Ideal S128x128 .bf16) (h0 h1 h2 h3 h4 h5 : FVec Ideal S2048x128 .bf16) (c3 : FVec Ideal S2048x6 .bf16)
    (y0 y1 : FVec Ideal S2048x128 .f32) (p : FVec Ideal S2048x128 .bf16) (q : FVec Ideal S2048x1 .bf16)
    (r : Fin 2048) (f : Fin 128) :
    k0_pay36 v13 h0 h1 h2 h3 h4 h5 c3 y0 y1 p q (ix2 r f) = ∑ k : Fin 128, max (k0_pay29 h0 h1 h2 h3 h4 h5 c3 (ix2 r k)) 0 * v13 (ix2 k f) :=
  (slab (k0_pay32 v13 h0 h1 h2 h3 h4 h5 c3 y0 y1 p q) 6144 (by decide) slices_S8192x128_o6144_0_S2048x128 r f).trans
    (pay32_apply_3 v13 h0 h1 h2 h3 h4 h5 c3 y0 y1 p q r f _)

/-! ## The statements -/

/-- The first layer after the adjacency, nodes 2 and 3. -/
theorem Y10_apply (r : Fin 2048) (k : Fin 128) :
    Y10 X0 X1 X2 X3 X4 X5 (ix2 r k) = Cert.Gcn.y1k (Cert.Gcn.kwBlk X2 X3 X4 X5 X6) (row X0 r) (row X1 r) 0 k := by
  have hC : ∀ s : Fin 6, k0_pay22 (c100 X0) (c103 X0) (ix2 r s) = Cert.Gcn.coef (row X0 r) 0 s := fun s => C0_apply X0 r s
  refine (pay28_apply _ _ _ _ _ r k).trans ?_
  rw [pay26_apply, pay27_apply]
  simp only [hC, C0_apply, H0_apply, H1_apply, H2_apply X1 X2 X3 X4 X5 X6, H3_apply X1 X2 X3 X4 X5 X6, H4_apply X1 X2 X3 X4 X5 X6, H5_apply X1 X2 X3 X4 X5 X6,
    Cert.Gcn.y1k, h1n_0, h1n_1, h1n_2, h1n_3, h1n_4, h1n_5]
  rfl
theorem Y11_apply (r : Fin 2048) (k : Fin 128) :
    Y11 X0 X1 X2 X3 X4 X5 (ix2 r k) = Cert.Gcn.y1k (Cert.Gcn.kwBlk X2 X3 X4 X5 X6) (row X0 r) (row X1 r) 1 k := by
  refine (pay29_apply _ _ _ _ _ _ _ r k).trans ?_
  simp only [C1_apply, H0_apply, H1_apply, H2_apply X1 X2 X3 X4 X5 X6, H3_apply X1 X2 X3 X4 X5 X6, H4_apply X1 X2 X3 X4 X5 X6, H5_apply X1 X2 X3 X4 X5 X6,
    Cert.Gcn.y1k, h1n_0, h1n_1, h1n_2, h1n_3, h1n_4, h1n_5]
  rfl

/-- The first layer after the adjacency, nodes 4 and 5, as the second product reads them. -/
private theorem Y12_apply (r : Fin 2048) (k : Fin 128) :
    y12 (Y12p X0 X1 X2 X3 X4 X5) (c25 X0) (H5 X1 X2 X3 X4) (ix2 r k)
      = Cert.Gcn.y1k (Cert.Gcn.kwBlk X2 X3 X4 X5 X6) (row X0 r) (row X1 r) 2 k := by
  unfold y12
  rw [extf_apply, addf_apply, mulf_apply,
    show broadcastTo S2048x128 (c25 X0) broadcasts_S2048x1_S2048x128 (ix2 r k) = C2 X0 (ix2 r (5 : Fin 6)) from colB5 (C2 X0) r k]
  refine (congrArg (· + _) (pay30_apply _ _ _ _ _ _ r k)).trans ?_
  simp only [C2_apply, H0_apply, H1_apply, H2_apply X1 X2 X3 X4 X5 X6, H3_apply X1 X2 X3 X4 X5 X6, H4_apply X1 X2 X3 X4 X5 X6, H5_apply X1 X2 X3 X4 X5 X6,
    Cert.Gcn.y1k, h1n_0, h1n_1, h1n_2, h1n_3, h1n_4, h1n_5]
  rfl
private theorem Y13_apply (r : Fin 2048) (k : Fin 128) :
    k0_pay29 (H0 X5) (H1 X5) (H2 X1 X2 X3 X4) (H3 X1 X2 X3 X4) (H4 X1 X2 X3 X4) (H5 X1 X2 X3 X4) (C3 X0) (ix2 r k)
      = Cert.Gcn.y1k (Cert.Gcn.kwBlk X2 X3 X4 X5 X6) (row X0 r) (row X1 r) 3 k := by
  refine (pay29_apply _ _ _ _ _ _ _ r k).trans ?_
  simp only [C3_apply, H0_apply, H1_apply, H2_apply X1 X2 X3 X4 X5 X6, H3_apply X1 X2 X3 X4 X5 X6, H4_apply X1 X2 X3 X4 X5 X6, H5_apply X1 X2 X3 X4 X5 X6,
    Cert.Gcn.y1k, h1n_0, h1n_1, h1n_2, h1n_3, h1n_4, h1n_5]
  rfl

/-- The second-layer matrix as loaded. -/
private theorem pay8_apply (k f : Fin 128) : k0_pay8 X6 (ix2 k f) = (Cert.Gcn.kwBlk X2 X3 X4 X5 X6).W2 k f :=
  congrFun (shapeCast_self X6 shapeCasts_S128x128_S128x128) (ix2 k f)

/-- The second product's rows: node `2 + i`'s is `max (first layer) 0 · W2`. -/
theorem Z0_apply (r : Fin 2048) (f : Fin 128) :
    Z0 X0 X1 X2 X3 X4 X5 X6 (ix2 r f) = Cert.Gcn.h2k (Cert.Gcn.kwBlk X2 X3 X4 X5 X6) (row X0 r) (row X1 r) 0 f := by
  refine (pay33_apply _ _ _ _ _ _ _ _ _ _ _ _ r f).trans ?_
  unfold Cert.Gcn.h2k
  refine Finset.sum_congr rfl fun k _ => ?_
  rw [Y10_apply X0 X1 X2 X3 X4 X5 X6, pay8_apply X2 X3 X4 X5 X6]
theorem Z1_apply (r : Fin 2048) (f : Fin 128) :
    Z1 X0 X1 X2 X3 X4 X5 X6 (ix2 r f) = Cert.Gcn.h2k (Cert.Gcn.kwBlk X2 X3 X4 X5 X6) (row X0 r) (row X1 r) 1 f := by
  refine (pay34_apply _ _ _ _ _ _ _ _ _ _ _ _ r f).trans ?_
  unfold Cert.Gcn.h2k
  refine Finset.sum_congr rfl fun k _ => ?_
  rw [Y11_apply X0 X1 X2 X3 X4 X5 X6, pay8_apply X2 X3 X4 X5 X6]
theorem Z2_apply (r : Fin 2048) (f : Fin 128) :
    Z2 X0 X1 X2 X3 X4 X5 X6 (ix2 r f) = Cert.Gcn.h2k (Cert.Gcn.kwBlk X2 X3 X4 X5 X6) (row X0 r) (row X1 r) 2 f := by
  refine (pay35_apply _ _ _ _ _ _ _ _ _ _ _ _ r f).trans ?_
  unfold Cert.Gcn.h2k
  refine Finset.sum_congr rfl fun k _ => ?_
  rw [Y12_apply X0 X1 X2 X3 X4 X5 X6, pay8_apply X2 X3 X4 X5 X6]
theorem Z3_apply (r : Fin 2048) (f : Fin 128) :
    Z3 X0 X1 X2 X3 X4 X5 X6 (ix2 r f) = Cert.Gcn.h2k (Cert.Gcn.kwBlk X2 X3 X4 X5 X6) (row X0 r) (row X1 r) 3 f := by
  refine (pay36_apply _ _ _ _ _ _ _ _ _ _ _ _ r f).trans ?_
  unfold Cert.Gcn.h2k
  refine Finset.sum_congr rfl fun k _ => ?_
  rw [Y13_apply X0 X1 X2 X3 X4 X5 X6, pay8_apply X2 X3 X4 X5 X6]

end Cert.KernelIdeal.KPayB

end
-- ==== Proof.KPayC.lean ====
/-
  One tile of the kernel body, last part: the second layer's rows (an unrolled sum over the four intermediate
  sources), their sum times 1/4, and with it what the body leaves in the output window's buffer.
-/
import proofs.«429420_j32091995636315_2_alg».proof.Proof.KPayB

noncomputable section

open scoped BigOperators

namespace Cert.KernelIdeal.KPayC

open Cert.KernelIdeal Cert.KernelIdeal.Gen Cert.KernelIdeal.KPay Idealize.ShloMosaic Idealize.ShloMosaic.TcCoe Idealize.ShloMosaic.ValueIdx Cert.KernelIdeal.KPayA Cert.KernelIdeal.KPayB

/-- A column of a six-wide tile, sliced out and broadcast across the 128 lanes, read at an index: the tile at that
    row and column. -/
private theorem colB (c : FVec Ideal S2048x6 .bf16) (n : Nat) (hn : n < 6) (hs : S2048x6.Slices ![0, n] S2048x1)
    (hb : S2048x1.Broadcasts S2048x128) (r : Fin 2048) (f : Fin 128) :
    broadcastTo S2048x128 (extractStridedSlice S2048x1 ![0, n] c hs) hb (ix2 r f) = c (ix2 r (⟨n, hn⟩ : Fin 6)) := by
  refine (broadcastTo_apply _ hb (ix2 r f) (ix2 r (0 : Fin 1)) ?_).trans ?_
  · intro a
    match a with
    | ⟨0, _⟩ => rfl
    | ⟨1, _⟩ => rfl
  · refine extractStridedSlice_apply _ c hs (ix2 r (0 : Fin 1)) (ix2 r (⟨n, hn⟩ : Fin 6)) ?_
    intro a
    match a with
    | ⟨0, _⟩ => show r.val = 0 + r.val; omega
    | ⟨1, _⟩ => show n = n + 0; omega

/-- The bf16 pattern of all zero bits is the number zero. -/
private theorem zero_bf16 : Ideal.ofBits .bf16 0x0000#16 = 0 := by simp [Ideal.ofBits, Ideal.ieee]

/-- The f32 pattern 0x3E800000 is the number 1/4. -/
private theorem quarter_f32 : Ideal.ofBits .f32 0x3E800000#32 = Cert.Gcn.quarter := by
  unfold Cert.Gcn.quarter
  simp [Ideal.ofBits, Ideal.ieee, -EReal.coe_mul]
  norm_num

/-! ## The payload functions over arbitrary operands, read at an index

Addition, multiplication and the change of format are pointwise (the last the identity); a coefficient column broadcast
across the lanes reads the coefficient row at that column. -/

/-- The zero row. -/
private theorem pay37_apply (r : Fin 2048) (f : Fin 128) : k0_pay37 (F := Ideal) (ix2 r f) = 0 := by
  unfold k0_pay37
  exact zero_bf16

/-- Coefficient column 2 times the first intermediate node's product row. -/
private theorem pay38_apply (v13 : FVec Ideal S128x128 .bf16) (v79 v85 v87 v89 v91 v93 : FVec Ideal S2048x128 .bf16)
    (c v146 : FVec Ideal S2048x6 .bf16) (v172 v198 : FVec Ideal S2048x128 .f32) (v219 : FVec Ideal S2048x128 .bf16)
    (v220 : FVec Ideal S2048x1 .bf16) (r : Fin 2048) (f : Fin 128) :
    k0_pay38 v13 v79 v85 v87 v89 v91 v93 c v146 v172 v198 v219 v220 (ix2 r f)
      = c (ix2 r (2 : Fin 6)) * k0_pay33 v13 v79 v85 v87 v89 v91 v93 v146 v172 v198 v219 v220 (ix2 r f) := by
  unfold k0_pay38
  show broadcastTo S2048x128 (extractStridedSlice S2048x1 ![0, 2] c slices_S2048x6_o0_2_S2048x1) broadcasts_S2048x1_S2048x128 (ix2 r f) * k0_pay33 v13 v79 v85 v87 v89 v91 v93 v146 v172 v198 v219 v220 (ix2 r f) = _
  rw [colB c 2 (by omega) _ _ r f]
  rfl

/-- A started sum continued by three coefficient-column · row products. -/
private theorem pay39_apply (c : FVec Ideal S2048x6 .bf16) (z1 z2 z3 a b : FVec Ideal S2048x128 .bf16) (r : Fin 2048) (f : Fin 128) :
    k0_pay39 c z1 z2 z3 a b (ix2 r f)
      = (((a (ix2 r f) + b (ix2 r f)) + c (ix2 r (3 : Fin 6)) * z1 (ix2 r f))
          + c (ix2 r (4 : Fin 6)) * z2 (ix2 r f)) + c (ix2 r (5 : Fin 6)) * z3 (ix2 r f) := by
  unfold k0_pay39
  show (((a (ix2 r f) + b (ix2 r f))
        + broadcastTo S2048x128 (extractStridedSlice S2048x1 ![0, 3] c slices_S2048x6_o0_3_S2048x1) broadcasts_S2048x1_S2048x128 (ix2 r f) * z1 (ix2 r f))
        + broadcastTo S2048x128 (extractStridedSlice S2048x1 ![0, 4] c slices_S2048x6_o0_4_S2048x1) broadcasts_S2048x1_S2048x128 (ix2 r f) * z2 (ix2 r f))
        + broadcastTo S2048x128 (extractStridedSlice S2048x1 ![0, 5] c slices_S2048x6_o0_5_S2048x1) broadcasts_S2048x1_S2048x128 (ix2 r f) * z3 (ix2 r f) = _
  rw [colB c 3 (by omega) _ _ r f, colB c 4 (by omega) _ _ r f, colB c 5 (by omega) _ _ r f]
  rfl

/-- An unrolled sum of four coefficient-column · row products, started from the zero row. -/
private theorem pay40_apply (c : FVec Ideal S2048x6 .bf16) (z0 z1 z2 z3 : FVec Ideal S2048x128 .bf16) (r : Fin 2048) (f : Fin 128) :
    k0_pay40 c z0 z1 z2 z3 (ix2 r f)
      = (((0 + c (ix2 r (2 : Fin 6)) * z0 (ix2 r f)) + c (ix2 r (3 : Fin 6)) * z1 (ix2 r f))
          + c (ix2 r (4 : Fin 6)) * z2 (ix2 r f)) + c (ix2 r (5 : Fin 6)) * z3 (ix2 r f) := by
  unfold k0_pay40
  show (((Ideal.ofBits .bf16 0x0000#16
        + broadcastTo S2048x128 (extractStridedSlice S2048x1 ![0, 2] c slices_S2048x6_o0_2_S2048x1) broadcasts_S2048x1_S2048x128 (ix2 r f) * z0 (ix2 r f))
        + broadcastTo S2048x128 (extractStridedSlice S2048x1 ![0, 3] c slices_S2048x6_o0_3_S2048x1) broadcasts_S2048x1_S2048x128 (ix2 r f) * z1 (ix2 r f))
        + broadcastTo S2048x128 (extractStridedSlice S2048x1 ![0, 4] c slices_S2048x6_o0_4_S2048x1) broadcasts_S2048x1_S2048x128 (ix2 r f) * z2 (ix2 r f))
        + broadcastTo S2048x128 (extractStridedSlice S2048x1 ![0, 5] c slices_S2048x6_o0_5_S2048x1) broadcasts_S2048x1_S2048x128 (ix2 r f) * z3 (ix2 r f) = _
  rw [colB c 2 (by omega) _ _ r f, colB c 3 (by omega) _ _ r f, colB c 4 (by omega) _ _ r f, colB c 5 (by omega) _ _ r f, zero_bf16]
  rfl

private theorem pay41_apply (c : FVec Ideal S2048x6 .bf16) (z0 z1 z2 z3 : FVec Ideal S2048x128 .bf16) (r : Fin 2048) (f : Fin 128) :
    k0_pay41 c z0 z1 z2 z3 (ix2 r f)
      = (((0 + c (ix2 r (2 : Fin 6)) * z0 (ix2 r f)) + c (ix2 r (3 : Fin 6)) * z1 (ix2 r f))
          + c (ix2 r (4 : Fin 6)) * z2 (ix2 r f)) + c (ix2 r (5 : Fin 6)) * z3 (ix2 r f) := by
  unfold k0_pay41
  show (((Ideal.ofBits .bf16 0x0000#16
        + broadcastTo S2048x128 (extractStridedSlice S2048x1 ![0, 2] c slices_S2048x6_o0_2_S2048x1) broadcasts_S2048x1_S2048x128 (ix2 r f) * z0 (ix2 r f))
        + broadcastTo S2048x128 (extractStridedSlice S2048x1 ![0, 3] c slices_S2048x6_o0_3_S2048x1) broadcasts_S2048x1_S2048x128 (ix2 r f) * z1 (ix2 r f))
        + broadcastTo S2048x128 (extractStridedSlice S2048x1 ![0, 4] c slices_S2048x6_o0_4_S2048x1) broadcasts_S2048x1_S2048x128 (ix2 r f) * z2 (ix2 r f))
        + broadcastTo S2048x128 (extractStridedSlice S2048x1 ![0, 5] c slices_S2048x6_o0_5_S2048x1) broadcasts_S2048x1_S2048x128 (ix2 r f) * z3 (ix2 r f) = _
  rw [colB c 2 (by omega) _ _ r f, colB c 3 (by omega) _ _ r f, colB c 4 (by omega) _ _ r f, colB c 5 (by omega) _ _ r f, zero_bf16]
  rfl

/-- The zero row plus coefficient column 2 times a row. -/
private theorem pay42_apply (c : FVec Ideal S2048x6 .bf16) (z0 : FVec Ideal S2048x128 .bf16) (r : Fin 2048) (f : Fin 128) :
    k0_pay42 c z0 (ix2 r f) = 0 + c (ix2 r (2 : Fin 6)) * z0 (ix2 r f) := by
  unfold k0_pay42
  show Ideal.ofBits .bf16 0x0000#16 + broadcastTo S2048x128 (extractStridedSlice S2048x1 ![0, 2] c slices_S2048x6_o0_2_S2048x1) broadcasts_S2048x1_S2048x128 (ix2 r f) * z0 (ix2 r f) = _
  rw [colB c 2 (by omega) _ _ r f, zero_bf16]
  rfl

/-- Coefficient column 3 across the lanes. -/
private theorem pay43_apply (c : FVec Ideal S2048x6 .bf16) (r : Fin 2048) (f : Fin 128) :
    k0_pay43 c (ix2 r f) = c (ix2 r (3 : Fin 6)) := by
  unfold k0_pay43
  exact colB c 3 (by omega) _ _ r f

/-- The last node's row finished from its first two terms, the four rows added, the sum times the constant 1/4. -/
private theorem pay1_apply (c : FVec Ideal S2048x6 .bf16) (z1 z2 z3 : FVec Ideal S2048x128 .bf16)
    (y0 y1 y2 : FVec Ideal S2048x128 .f32) (t u : FVec Ideal S2048x128 .bf16) (r : Fin 2048) (f : Fin 128) :
    k0_pay1 c z1 z2 z3 y0 y1 y2 t u (ix2 r f)
      = (((y0 (ix2 r f) + y1 (ix2 r f)) + y2 (ix2 r f))
          + (((t (ix2 r f) + u (ix2 r f) * z1 (ix2 r f)) + c (ix2 r (4 : Fin 6)) * z2 (ix2 r f))
              + c (ix2 r (5 : Fin 6)) * z3 (ix2 r f))) * Cert.Gcn.quarter := by
  unfold k0_pay1
  show (((y0 (ix2 r f) + y1 (ix2 r f)) + y2 (ix2 r f))
          + (((t (ix2 r f) + u (ix2 r f) * z1 (ix2 r f))
              + broadcastTo S2048x128 (extractStridedSlice S2048x1 ![0, 4] c slices_S2048x6_o0_4_S2048x1) broadcasts_S2048x1_S2048x128 (ix2 r f) * z2 (ix2 r f))
              + broadcastTo S2048x128 (extractStridedSlice S2048x1 ![0, 5] c slices_S2048x6_o0_5_S2048x1) broadcasts_S2048x1_S2048x128 (ix2 r f) * z3 (ix2 r f))) * Ideal.ofBits .f32 0x3E800000#32 = _
  rw [colB c 4 (by omega) _ _ r f, colB c 5 (by omega) _ _ r f, quarter_f32]
  rfl

variable (X0 X1 : Vec Ideal S2048x8 .i32) (X2 : Vec Ideal S16x96 .bf16) (X3 : Vec Ideal S96x128 .bf16)
  (X4 : Vec Ideal S128 .f32) (X5 : Vec Ideal S2x128 .f32) (X6 : Vec Ideal S128x128 .bf16)

/-! ## The second layer's rows -/

/-- The first term of node 2's row: its adjacency coefficient from node 2 times node 2's product row. -/
private theorem T273_apply (r : Fin 2048) (f : Fin 128) :
    T273 X0 X1 X2 X3 X4 X5 X6 (ix2 r f)
      = Cert.Gcn.coef (row X0 r) 0 2 * Cert.Gcn.h2k (Cert.Gcn.kwBlk X2 X3 X4 X5 X6) (row X0 r) (row X1 r) 0 f := by
  refine (pay38_apply (k0_pay8 X6) (H0 X5) (H1 X5) (H2 X1 X2 X3 X4) (H3 X1 X2 X3 X4) (H4 X1 X2 X3 X4) (H5 X1 X2 X3 X4) (C0 X0) (C3 X0) (Y10 X0 X1 X2 X3 X4 X5) (Y11 X0 X1 X2 X3 X4 X5) (Y12p X0 X1 X2 X3 X4 X5) (c25 X0) r f).trans ?_
  show C0 X0 (ix2 r (2 : Fin 6)) * Z0 X0 X1 X2 X3 X4 X5 X6 (ix2 r f) = _
  rw [C0_apply, Z0_apply]

/-- Node 2's second-layer row. -/
private theorem Y20_apply (r : Fin 2048) (f : Fin 128) :
    Y20 X0 X1 X2 X3 X4 X5 X6 (ix2 r f) = Cert.Gcn.y2k (Cert.Gcn.kwBlk X2 X3 X4 X5 X6) (row X0 r) (row X1 r) 0 f := by
  refine (pay39_apply (C0 X0) (Z1 X0 X1 X2 X3 X4 X5 X6) (Z2 X0 X1 X2 X3 X4 X5 X6) (Z3 X0 X1 X2 X3 X4 X5 X6) (k0_pay37 (F := Ideal)) (T273 X0 X1 X2 X3 X4 X5 X6) r f).trans ?_
  rw [pay37_apply, T273_apply, C0_apply, C0_apply, C0_apply, Z1_apply, Z2_apply, Z3_apply]
  rfl

/-- Node 3's second-layer row. -/
private theorem Y21_apply (r : Fin 2048) (f : Fin 128) :
    Y21 X0 X1 X2 X3 X4 X5 X6 (ix2 r f) = Cert.Gcn.y2k (Cert.Gcn.kwBlk X2 X3 X4 X5 X6) (row X0 r) (row X1 r) 1 f := by
  refine (pay40_apply (C1 X0) (Z0 X0 X1 X2 X3 X4 X5 X6) (Z1 X0 X1 X2 X3 X4 X5 X6) (Z2 X0 X1 X2 X3 X4 X5 X6) (Z3 X0 X1 X2 X3 X4 X5 X6) r f).trans ?_
  rw [C1_apply, C1_apply, C1_apply, C1_apply, Z0_apply, Z1_apply, Z2_apply, Z3_apply]
  rfl

/-- Node 4's second-layer row. -/
private theorem Y22_apply (r : Fin 2048) (f : Fin 128) :
    Y22 X0 X1 X2 X3 X4 X5 X6 (ix2 r f) = Cert.Gcn.y2k (Cert.Gcn.kwBlk X2 X3 X4 X5 X6) (row X0 r) (row X1 r) 2 f := by
  refine (pay41_apply (C2 X0) (Z0 X0 X1 X2 X3 X4 X5 X6) (Z1 X0 X1 X2 X3 X4 X5 X6) (Z2 X0 X1 X2 X3 X4 X5 X6) (Z3 X0 X1 X2 X3 X4 X5 X6) r f).trans ?_
  rw [C2_apply, C2_apply, C2_apply, C2_apply, Z0_apply, Z1_apply, Z2_apply, Z3_apply]
  rfl

/-- The first two terms of node 5's row, and the coefficient of its third. -/
private theorem T328_apply (r : Fin 2048) (f : Fin 128) :
    T328 X0 X1 X2 X3 X4 X5 X6 (ix2 r f)
      = 0 + Cert.Gcn.coef (row X0 r) 3 2 * Cert.Gcn.h2k (Cert.Gcn.kwBlk X2 X3 X4 X5 X6) (row X0 r) (row X1 r) 0 f := by
  refine (pay42_apply (C3 X0) (Z0 X0 X1 X2 X3 X4 X5 X6) r f).trans ?_
  rw [C3_apply, Z0_apply]
private theorem T330_apply (r : Fin 2048) (f : Fin 128) :
    T330 X0 (ix2 r f) = Cert.Gcn.coef (row X0 r) 3 3 := by
  refine (pay43_apply (C3 X0) r f).trans ?_
  rw [C3_apply]

/-- The stored tile at an index is the kernel's reading of that graph's output row. -/
theorem outTile_apply (r : Fin 2048) (f : Fin 128) :
    outTile X0 X1 X2 X3 X4 X5 X6 (ix2 r f)
      = Cert.Gcn.kOut (Cert.Gcn.kwBlk X2 X3 X4 X5 X6) (row X0 r) (row X1 r) f := by
  refine (pay1_apply (C3 X0) (Z1 X0 X1 X2 X3 X4 X5 X6) (Z2 X0 X1 X2 X3 X4 X5 X6) (Z3 X0 X1 X2 X3 X4 X5 X6) (Y20 X0 X1 X2 X3 X4 X5 X6) (Y21 X0 X1 X2 X3 X4 X5 X6) (Y22 X0 X1 X2 X3 X4 X5 X6) (T328 X0 X1 X2 X3 X4 X5 X6) (T330 X0) r f).trans ?_
  rw [Y20_apply, Y21_apply, Y22_apply, T328_apply, T330_apply, C3_apply, C3_apply, Z1_apply, Z2_apply, Z3_apply]
  rfl

/-- The zero offsets of a whole-buffer rectangle, of rank two and of rank one. -/
private theorem hz2 : (![0, 0] : Fin 2 → Nat) = fun _ => 0 := funext fun a => by fin_cases a <;> rfl
private theorem hz1 : (![0] : Fin 1 → Nat) = fun _ => 0 := funext fun a => by fin_cases a; rfl

/-- What the body leaves in the output window's buffer, at an index, from the input windows' blocks. -/
theorem out0_7_apply (x0 x1 : Vec Ideal S2048x8 .i32) (x2 : Vec Ideal S16x96 .bf16) (x3 : Vec Ideal S96x128 .bf16)
    (x4 : Vec Ideal S128 .f32) (x5 : Vec Ideal S2x128 .f32) (x6 : Vec Ideal S128x128 .bf16) (r : Fin 2048) (f : Fin 128) :
    out0_7 (F := Ideal) x0 x1 x2 x3 x4 x5 x6 (ix2 r f)
      = Cert.Gcn.kOut (Cert.Gcn.kwBlk x2 x3 x4 x5 x6) (row x0 r) (row x1 r) f := by
  rw [KPay.out0_7_eq, View.canon_unit_zero hz2]
  have e0 : View.ld x0 r0_0 = x0 := View.ld_unit_zero (S := S2048x8) hz2 _ x0
  have e1 : View.ld x1 r0_0 = x1 := View.ld_unit_zero (S := S2048x8) hz2 _ x1
  have e2 : View.ld x2 r0_1 = x2 := View.ld_unit_zero (S := S16x96) hz2 _ x2
  have e3 : View.ld x3 r0_2 = x3 := View.ld_unit_zero (S := S96x128) hz2 _ x3
  have e4 : View.ld x4 r0_3 = x4 := View.ld_unit_zero (S := S128) hz1 _ x4
  have e5 : View.ld x5 r0_4 = x5 := View.ld_unit_zero (S := S2x128) hz2 _ x5
  have e6 : View.ld x6 r0_5 = x6 := View.ld_unit_zero (S := S128x128) hz2 _ x6
  rw [e0, e1, e2, e3, e4, e5, e6]
  exact outTile_apply x0 x1 x2 x3 x4 x5 x6 r f

end Cert.KernelIdeal.KPayC

end
-- ==== Proof.KArr.lean ====
/-
  The kernel's run with its result named: tile `t` of the region's output holds the kernel's reading of graphs
  `2048 t … 2048 t + 2047`, the thirty-two tiles fill the output array, and the two reshapes after the region lay graph
  `2 b + g`'s row out as columns `128 g …` of row `b`.
-/
import proofs.«429420_j32091995636315_2_alg».proof.Proof.KHost
import proofs.«429420_j32091995636315_2_alg».proof.Proof.KPayC

noncomputable section

open scoped BigOperators

namespace Cert.KernelIdeal.KValue

open Cert.KernelIdeal Cert.KernelIdeal.Gen Idealize.ShloMosaic Idealize.ShloMosaic.TcCoe Idealize.ShloMosaic.ValueIdx Idealize.SL.Sem Cert.KernelIdeal.KHost

section Arrays

variable (m : (ℓ : Loc nD τ sig) → Buf (Elt Ideal) ℓ)

/-- The block index of every window at every grid point: the two word windows and the output move with the
    point along the rows, the five weight windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `r` of tile `t` of the source-node words is row `2048 t + r` of the array of all graphs' words. -/
theorem blk0_apply (c : Dev nD) (t : Fin cfg0.N) (r : Fin 2048) (e : Fin 8) (q : Fin 65536)
    (hq : q.val = 2048 * t.val + r.val) :
    (iblk m c 0 t : Vec Ideal S2048x8 .i32) (ix2 r e) = V m c main_v2 (ix2 q e) := by
  obtain ⟨h0, h1, -⟩ := idx_facts t
  unfold iblk
  rw [View.read_apply]
  show V m c main_v2 _ = V m c main_v2 _
  congr 1
  funext a
  apply Fin.ext
  match a with
  | ⟨0, _⟩ => show win0_0.index t (0 : Fin 2) * 2048 + 1 * r.val = q.val; rw [h0, hq]; omega
  | ⟨1, _⟩ => show win0_0.index t (1 : Fin 2) * 8 + 1 * e.val = e.val; rw [h1]; omega

/-- The same for the operation words. -/
theorem blk1_apply (c : Dev nD) (t : Fin cfg0.N) (r : Fin 2048) (e : Fin 8) (q : Fin 65536)
    (hq : q.val = 2048 * t.val + r.val) :
    (iblk m c 1 t : Vec Ideal S2048x8 .i32) (ix2 r e) = V m c main_v5 (ix2 q e) := by
  obtain ⟨-, -, h0, h1, -⟩ := idx_facts t
  unfold iblk
  rw [View.read_apply]
  show V m c main_v5 _ = V m c main_v5 _
  congr 1
  funext a
  apply Fin.ext
  match a with
  | ⟨0, _⟩ => show win0_1.index t (0 : Fin 2) * 2048 + 1 * r.val = q.val; rw [h0, hq]; omega
  | ⟨1, _⟩ => show win0_1.index t (1 : Fin 2) * 8 + 1 * e.val = e.val; rw [h1]; omega

/-- The five weight windows' blocks are the whole weight arrays. -/
theorem blk2_apply (c : Dev nD) (t : Fin cfg0.N) (κ : Fin 16) (l : Fin 96) :
    (iblk m c 2 t : Vec Ideal S16x96 .bf16) (ix2 κ l) = V m c main_v18 (ix2 κ l) := by
  obtain ⟨-, -, -, -, h0, h1, -⟩ := idx_facts t
  unfold iblk
  rw [View.read_apply]
  show V m c main_v18 _ = V m c main_v18 _
  congr 1
  funext a
  apply Fin.ext
  match a with
  | ⟨0, _⟩ => show win0_2.index t (0 : Fin 2) * 16 + 1 * κ.val = κ.val; rw [h0]; omega
  | ⟨1, _⟩ => show win0_2.index t (1 : Fin 2) * 96 + 1 * l.val = l.val; rw [h1]; omega

theorem blk3_apply (c : Dev nD) (t : Fin cfg0.N) (l : Fin 96) (k : Fin 128) :
    (iblk m c 3 t : Vec Ideal S96x128 .bf16) (ix2 l k) = V m c main_v19 (ix2 l k) := by
  obtain ⟨-, -, -, -, -, -, h0, h1, -⟩ := idx_facts t
  unfold iblk
  rw [View.read_apply]
  show V m c main_v19 _ = V m c main_v19 _
  congr 1
  funext a
  apply Fin.ext
  match a with
  | ⟨0, _⟩ => show win0_3.index t (0 : Fin 2) * 96 + 1 * l.val = l.val; rw [h0]; omega
  | ⟨1, _⟩ => show win0_3.index t (1 : Fin 2) * 128 + 1 * k.val = k.val; rw [h1]; omega

theorem blk4_apply (c : Dev nD) (t : Fin cfg0.N) (k : Fin 128) :
    (iblk m c 4 t : Vec Ideal S128 .f32) (ix1 k) = V m c main_v9 (ix1 k) := by
  obtain ⟨-, -, -, -, -, -, -, -, h0, -⟩ := idx_facts t
  unfold iblk
  rw [View.read_apply]
  show V m c main_v9 _ = V m c main_v9 _
  congr 1
  funext a
  apply Fin.ext
  match a with
  | ⟨0, _⟩ => show win0_4.index t (0 : Fin 1) * 128 + 1 * k.val = k.val; rw [h0]; omega

theorem blk5_apply (c : Dev nD) (t : Fin cfg0.N) (s : Fin 2) (k : Fin 128) :
    (iblk m c 5 t : Vec Ideal S2x128 .f32) (ix2 s k) = V m c main_v13 (ix2 s k) := by
  obtain ⟨-, -, -, -, -, -, -, -, -, h0, h1, -⟩ := idx_facts t
  unfold iblk
  rw [View.read_apply]
  show V m c main_v13 _ = V m c main_v13 _
  congr 1
  funext a
  apply Fin.ext
  match a with
  | ⟨0, _⟩ => show win0_5.index t (0 : Fin 2) * 2 + 1 * s.val = s.val; rw [h0]; omega
  | ⟨1, _⟩ => show win0_5.index t (1 : Fin 2) * 128 + 1 * k.val = k.val; rw [h1]; omega

theorem blk6_apply (c : Dev nD) (t : Fin cfg0.N) (k f : Fin 128) :
    (iblk m c 6 t : Vec Ideal S128x128 .bf16) (ix2 k f) = V m c main_v20 (ix2 k f) := by
  obtain ⟨-, -, -, -, -, -, -, -, -, -, -, h0, h1, -⟩ := idx_facts t
  unfold iblk
  rw [View.read_apply]
  show V m c main_v20 _ = V m c main_v20 _
  congr 1
  funext a
  apply Fin.ext
  match a with
  | ⟨0, _⟩ => show win0_6.index t (0 : Fin 2) * 128 + 1 * k.val = k.val; rw [h0]; omega
  | ⟨1, _⟩ => show win0_6.index t (1 : Fin 2) * 128 + 1 * f.val = f.val; rw [h1]; omega

/-- The weight operands every tile is computed with are the ones the specification forms from the arguments. -/
theorem kw_eq (c : Dev nD) (t : Fin cfg0.N) :
    Cert.Gcn.kwBlk (iblk m c 2 t : Vec Ideal S16x96 .bf16) (iblk m c 3 t : Vec Ideal S96x128 .bf16)
        (iblk m c 4 t : Vec Ideal S128 .f32) (iblk m c 5 t : Vec Ideal S2x128 .f32) (iblk m c 6 t : Vec Ideal S128x128 .bf16)
      = Cert.Gcn.kwOf (wts m c) := by
  have e2 : (fun (κ : Fin 16) (l : Fin 96) => (iblk m c 2 t : Vec Ideal S16x96 .bf16) (ix2 κ l)) = Cert.Gcn.tab (wts m c) :=
    funext fun κ => funext fun l => (blk2_apply m c t κ l).trans (V_tab_apply m c κ l)
  have e3 : (fun (l : Fin 96) (k : Fin 128) => (iblk m c 3 t : Vec Ideal S96x128 .bf16) (ix2 l k)) = Cert.Gcn.W12 (wts m c) :=
    funext fun l => funext fun k => (blk3_apply m c t l k).trans (V_W12_apply m c l k)
  have e4 : (fun (k : Fin 128) => (iblk m c 4 t : Vec Ideal S128 .f32) (ix1 k)) = Cert.Gcn.b12 (wts m c) :=
    funext fun k => (blk4_apply m c t k).trans (V_b12_apply m c k)
  have e5 : (fun (s : Fin 2) (k : Fin 128) => (iblk m c 5 t : Vec Ideal S2x128 .f32) (ix2 s k)) = Cert.Gcn.ih1 (wts m c) :=
    funext fun s => funext fun k => (blk5_apply m c t s k).trans (V_ih1_apply m c s k)
  have e6 : (fun (k f : Fin 128) => (iblk m c 6 t : Vec Ideal S128x128 .bf16) (ix2 k f)) = (wts m c).W2 :=
    funext fun k => funext fun f => (blk6_apply m c t k f).trans (V_W2_apply m c k f)
  exact congr (congr (congr (congr (congrArg Cert.Gcn.KW.mk e2) e3) e4) e5) e6

/-- The region's output array as one function of the arguments: row `q` is the kernel's reading of graph
    `(q / 2, q % 2)`. -/
def Garr (c : Dev nD) : S65536x128.Idx → EReal := fun j =>
  Cert.Gcn.kOut (Cert.Gcn.kwOf (wts m c))
    (Cert.Gcn.pvOf (m ((c.tc : Thread nD τ).loc main_arg0))
      (⟨(j 0).val / 2, by have := idx2_lt0 j; omega⟩ : Fin 32768) (⟨(j 0).val % 2, Nat.mod_lt _ (by decide)⟩ : Fin 2))
    (Cert.Gcn.ovOf (m ((c.tc : Thread nD τ).loc main_arg0))
      (⟨(j 0).val / 2, by have := idx2_lt0 j; omega⟩ : Fin 32768) (⟨(j 0).val % 2, Nat.mod_lt _ (by decide)⟩ : Fin 2))
    (⟨(j 1).val, idx2_lt1 j⟩ : Fin 128)

/-- Row `r` of tile `t`'s words are graph `2048 t + r`'s source-node words and operation words. -/
theorem row0_eq (c : Dev nD) (t : Fin cfg0.N) (r : Fin 2048) (q : Fin 65536) (hq : q.val = 2048 * t.val + r.val) :
    KPayA.row (iblk m c 0 t : Vec Ideal S2048x8 .i32) r
      = Cert.Gcn.pvOf (m ((c.tc : Thread nD τ).loc main_arg0))
          (⟨q.val / 2, by have := q.isLt; omega⟩ : Fin 32768) (⟨q.val % 2, Nat.mod_lt _ (by decide)⟩ : Fin 2) :=
  funext fun e => (blk0_apply m c t r e q hq).trans (V_prev_apply m c q e)
theorem row1_eq (c : Dev nD) (t : Fin cfg0.N) (r : Fin 2048) (q : Fin 65536) (hq : q.val = 2048 * t.val + r.val) :
    KPayA.row (iblk m c 1 t : Vec Ideal S2048x8 .i32) r
      = Cert.Gcn.ovOf (m ((c.tc : Thread nD τ).loc main_arg0))
          (⟨q.val / 2, by have := q.isLt; omega⟩ : Fin 32768) (⟨q.val % 2, Nat.mod_lt _ (by decide)⟩ : Fin 2) :=
  funext fun e => (blk1_apply m c t r e q hq).trans (V_op_apply m c q e)

/-- What grid point `t` writes back is tile `t` of `Garr`. -/
theorem flushed_eq (c : Dev nD) (t : Fin cfg0.N) :
    (dats m 0 c).flushed 7 t = ((cfg0.win 7).blk t).view.read (Elt Ideal) (Garr m c) := by
  show (cfg0.win 7).cut (grid0.coords t) ((dats m 0 c).after 7 t) = _
  rw [after0_7]
  have hN : grid0.N = 32 := N_0
  have ht : t.val < 32 := hN ▸ t.isLt
  obtain ⟨-, -, -, -, -, -, -, -, -, -, -, -, -, h0, h1⟩ := idx_facts t
  funext y
  obtain ⟨r, f, rfl⟩ : ∃ (r : Fin 2048) (f : Fin 128), y = ix2 r f := ⟨y 0, y 1, eq_ix2 y⟩
  show out0_7 (F := Ideal) (iblk m c 0 t) (iblk m c 1 t) (iblk m c 2 t) (iblk m c 3 t) (iblk m c 4 t) (iblk m c 5 t) (iblk m c 6 t) (ix2 r f) = _
  refine (KPayC.out0_7_apply (iblk m c 0 t) (iblk m c 1 t) (iblk m c 2 t) (iblk m c 3 t) (iblk m c 4 t) (iblk m c 5 t) (iblk m c 6 t) r f).trans ?_
  have hq : 2048 * t.val + r.val < 65536 := by have := r.isLt; omega
  rw [kw_eq m c t, row0_eq m c t r ⟨2048 * t.val + r.val, hq⟩ rfl, row1_eq m c t r ⟨2048 * t.val + r.val, hq⟩ rfl]
  rw [View.read_apply]
  show _ = Garr m c (((cfg0.win 7).blk t).view.emb (ix2 r f))
  have he : ((cfg0.win 7).blk t).view.emb (ix2 r f) = ix2 (⟨2048 * t.val + r.val, hq⟩ : Fin 65536) f := by
    funext a
    apply Fin.ext
    match a with
    | ⟨0, _⟩ => show win0_7.index t (0 : Fin 2) * 2048 + 1 * r.val = 2048 * t.val + r.val; rw [h0]; omega
    | ⟨1, _⟩ => show win0_7.index t (1 : Fin 2) * 128 + 1 * f.val = f.val; rw [h1]; omega
  rw [he]
  rfl

/-- An index of the output array is in point `t`'s tile iff each coordinate is in the tile's range on its axis. -/
theorem mem_blk (t : Fin cfg0.N) (i : S65536x128.Idx) :
    i ∈ ((cfg0.win 7).blk t).view.set
      ↔ ∀ a : Fin 2, win0_7.index t a * S2048x128.size a ≤ (i a).val ∧ (i a).val < win0_7.index t a * S2048x128.size a + S2048x128.size a := by
  show i ∈ ((View.whole main_v21).slice (win0_7.rect t)).set ↔ _
  rw [View.set_slice_whole, Rect.mem_set_unit]
  exact Iff.rfl

/-- The thirty-two tiles cover the output array: row `q` lies in tile `q / 2048`. -/
theorem cover (i : S65536x128.Idx) :
    ∃ t : Fin cfg0.N, (cfg0.win 7).flush t = true ∧ i ∈ ((cfg0.win 7).blk t).view.set := by
  have hN : grid0.N = 32 := N_0
  have hi0 : (i 0).val < 65536 := idx2_lt0 i
  have hi1 : (i 1).val < 128 := idx2_lt1 i
  have htlt : (i 0).val / 2048 < cfg0.N := by show (i 0).val / 2048 < grid0.N; rw [hN]; omega
  refine ⟨⟨(i 0).val / 2048, htlt⟩, flush0_7 _, ?_⟩
  obtain ⟨-, -, -, -, -, -, -, -, -, -, -, -, -, h0, h1⟩ := idx_facts ⟨(i 0).val / 2048, htlt⟩
  rw [mem_blk]
  intro a
  match a with
  | ⟨0, _⟩ =>
    show win0_7.index ⟨(i 0).val / 2048, htlt⟩ (0 : Fin 2) * 2048 ≤ (i 0).val
      ∧ (i 0).val < win0_7.index ⟨(i 0).val / 2048, htlt⟩ (0 : Fin 2) * 2048 + 2048
    rw [h0]; show (i 0).val / 2048 * 2048 ≤ (i 0).val ∧ (i 0).val < (i 0).val / 2048 * 2048 + 2048; omega
  | ⟨1, _⟩ =>
    show win0_7.index ⟨(i 0).val / 2048, htlt⟩ (1 : Fin 2) * 128 ≤ (i 1).val
      ∧ (i 1).val < win0_7.index ⟨(i 0).val / 2048, htlt⟩ (1 : Fin 2) * 128 + 128
    rw [h1]; omega

/-- So the region leaves its output array at `Garr`. -/
theorem final (c : Dev nD) : (dats m 0 c).arrAt 7 cfg0.N = Garr m c :=
  (dats m 0 c).arrAt_eq_of_cover 7 (Garr m c) (fun t _ => flushed_eq m c t) cover

/-- `Garr` at row `2 b + g`: the kernel's reading of graph `(b, g)`. -/
theorem Garr_apply (c : Dev nD) (b : Fin 32768) (g : Fin 2) (f : Fin 128) (q : Fin 65536) (hq : q.val = 2 * b.val + g.val) :
    Garr m c (ix2 q f)
      = Cert.Gcn.kOut (Cert.Gcn.kwOf (wts m c)) (Cert.Gcn.pvOf (m ((c.tc : Thread nD τ).loc main_arg0)) b g)
          (Cert.Gcn.ovOf (m ((c.tc : Thread nD τ).loc main_arg0)) b g) f := by
  have hg2 : g.val < 2 := g.isLt
  have hb : (⟨q.val / 2, by have := q.isLt; omega⟩ : Fin 32768) = b := Fin.ext (by show q.val / 2 = b.val; omega)
  have hg : (⟨q.val % 2, Nat.mod_lt _ (by decide)⟩ : Fin 2) = g := Fin.ext (by show q.val % 2 = g.val; omega)
  show Cert.Gcn.kOut (Cert.Gcn.kwOf (wts m c))
      (Cert.Gcn.pvOf (m ((c.tc : Thread nD τ).loc main_arg0)) (⟨q.val / 2, _⟩ : Fin 32768) (⟨q.val % 2, _⟩ : Fin 2))
      (Cert.Gcn.ovOf (m ((c.tc : Thread nD τ).loc main_arg0)) (⟨q.val / 2, _⟩ : Fin 32768) (⟨q.val % 2, _⟩ : Fin 2)) f = _
  rw [hb, hg]

/-- The two reshapes 65536x128 → 32768x2x128 → 32768x256 read at an index: element `(b, j)` is element
    `(2 b + j / 128, j % 128)` of the operand (the same row-major position). -/
theorem reshapes_apply (G : S65536x128.Idx → EReal) (i : S32768x256.Idx) :
    shapeCast S32768x256 (shapeCast S32768x2x128 G shapeCasts_S65536x128_S32768x2x128) shapeCasts_S32768x2x128_S32768x256 i
      = G (ix2 (⟨2 * (i 0).val + (i 1).val / 128, by have := idx2_lt0 i; have := idx2_lt1 i; omega⟩ : Fin 65536)
          (⟨(i 1).val % 128, Nat.mod_lt _ (by decide)⟩ : Fin 128)) := by
  have hi0 : (i 0).val < 32768 := idx2_lt0 i
  have hi1 : (i 1).val < 256 := idx2_lt1 i
  refine (shapeCast_apply _ _ i (ix3 (⟨(i 0).val, hi0⟩ : Fin 32768) (⟨(i 1).val / 128, by omega⟩ : Fin 2) (⟨(i 1).val % 128, Nat.mod_lt _ (by decide)⟩ : Fin 128)) ?_).trans ?_
  · rw [Shape.rowMajor_val_three, Shape.rowMajor_val_two]
    show ((i 0).val * 2 + (i 1).val / 128) * 128 + (i 1).val % 128 = (i 0).val * 256 + (i 1).val
    omega
  refine shapeCast_apply _ _ _ _ ?_
  rw [Shape.rowMajor_val_three, Shape.rowMajor_val_two]
  show (2 * (i 0).val + (i 1).val / 128) * 128 + (i 1).val % 128 = ((i 0).val * 2 + (i 1).val / 128) * 128 + (i 1).val % 128
  omega

/-- The two reshapes after the region lay row `2 b + g` of the region's output out as columns `128 g …` of
    row `b`: the result array is `GK` of the arguments. -/
theorem tail_eq (c : Dev nD) :
    Pipeline.afterTail₀ cfgs (dats m) 0 (V0 m) [hostOps1] c main_v23
      = Cert.Gcn.GK (m ((c.tc : Thread nD τ).loc main_arg0)) (wts m c) := by
  unfold Pipeline.afterTail₀
  show StableHlo.after hostOps1 _ (Proc.devRef .tc main_v23) = _
  after_results
  have hw : Pipeline.withArrays (cfgs 0).spec c (V0 m c) (fun w => (dats m 0 c).arrAt w (cfgs 0).N) (Proc.devRef .tc main_v21)
      = Garr m c :=
    (Pipeline.withArrays_arr spec0 launch0.win.arr_inj c _ _ 7).trans (final m c)
  rw [hw]
  funext i
  exact (reshapes_apply (Garr m c) i).trans
    (Garr_apply m c (Cert.Gcn.outB i) (Cert.Gcn.outG i) (Cert.Gcn.outF i) _ rfl)

end Arrays

/-- Every weakly fair execution of the kernel's program ends with the result array at `GK` of the arguments, the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = Cert.Gcn.GK (m ((c.tc : Thread nD τ).loc main_arg0)) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono (fun r h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.lean ====
/-
  The certificate: a kernel that embeds 65536 six-node graphs by two graph-convolution layers, against its jnp
  reference, equal as extended reals.

  Both programs compute, for graph (b, g), the mean over the four intermediate nodes of A · (max (A · (E · Wx + bx) · W1) 0 · W2),
  with E the node embeddings (two constant rows, four rows fetched from an operation table) and A the adjacency counts
  scattered from the source-node words.  The reference does it layer by layer over all six nodes; the kernel fetches
  the operation rows by a one-hot product with a block-diagonal table, fuses the two projections into one matrix and one
  bias row computed on the host, applies the adjacency as an unrolled sum of coefficient · row, and leaves the two
  initial nodes out of the second layer, where their rows are zero.  The two readings agree (Bridge) when every float
  argument is a real number (the fused projection needs distributivity) and every operation word is in [0, 8) (outside
  it the reference's gather clamps where a one-hot row is zero); the reference's own index normalisation is the
  identity when no word is negative.  The kernel's value is read off its generated frame tile by tile (KPayA–C, KHost,
  KArr), the reference's off its generated run one operation at a time (RefAdj, RefEmb, RefValue), and the
  precondition is decoded in PreDecode.  The ideal pass's ledger is empty, so `preserves` is `True`.
-/
import proofs.«429420_j32091995636315_2_alg».proof.Defs
import proofs.«429420_j32091995636315_2_alg».proof.Proof.Gen.Kernel
import proofs.«429420_j32091995636315_2_alg».proof.Proof.Gen.Kernel.Frame
import proofs.«429420_j32091995636315_2_alg».proof.Proof.Gen.KernelIdeal
import proofs.«429420_j32091995636315_2_alg».proof.Proof.Gen.KernelIdeal.Frame
import proofs.«429420_j32091995636315_2_alg».proof.Proof.Gen.ReferenceIdeal
import proofs.«429420_j32091995636315_2_alg».proof.Proof.Gen.Pre_finite_inputs
import proofs.«429420_j32091995636315_2_alg».proof.Proof.Gen.ReferenceIdeal.Run
import proofs.«429420_j32091995636315_2_alg».proof.Proof.Gen.ReferenceIdeal.Read
import proofs.«429420_j32091995636315_2_alg».proof.Proof.Bridge
import proofs.«429420_j32091995636315_2_alg».proof.Proof.PreDecode
import proofs.«429420_j32091995636315_2_alg».proof.Proof.RefValue
import proofs.«429420_j32091995636315_2_alg».proof.Proof.KArr
import Idealize.ShloMosaic.Adequacy
import Idealize.ShloMosaic.Init

noncomputable section

namespace Cert.Proof

open Idealize.ShloMosaic Idealize.SL.Sem Idealize.ShloMosaic.ValueIdx

/-- A word that is not negative and below eight, read signed, is below eight read unsigned. -/
theorem toNat_lt_eight {w : BitVec 32} (h0 : 0 ≤ w.toInt) (h8 : w.toInt < 8) : w.toNat < 8 := by
  have hw := w.isLt
  rw [BitVec.toInt_eq_toNat_cond] at h0 h8
  split at h0 <;> omega

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both runs end with the result array at the reference's reading `GR` of the (agreeing) arguments: the kernel's at
    its own reading `GK`, which is `GR` under the decoded precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => @Cert.PreDecode.decode Cert.Pre_finite_inputs.Gen.facts _ _ _ _ _ _ _ (hpre c)
  refine ⟨fun c => Cert.Gcn.GR (m ((c.tc : Thread Cert.KernelIdeal.nD Cert.KernelIdeal.τ).loc Cert.KernelIdeal.main_arg0))
      (Cert.KernelIdeal.KHost.wts m c), ?_, ?_⟩
  · refine (θ_run Cert.KernelIdeal.defs _ _).mono (fun _ h c => ⟨(h c).1.trans ?_, (h c).2⟩)
      (Cert.KernelIdeal.KValue.run m ρ)
    exact Cert.Gcn.GK_eq_GR _ _ (hdec c).1 (fun b g e => toNat_lt_eight ((hdec c).2.1 _) ((hdec c).2.2 b g e))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.val_eq _ _ _ _ _ _ _ (hdec c).2.1 (hdec c).2.2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
